-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x128 : Shape := ⟨2, ![8192, 128]⟩
abbrev S96x128 : Shape := ⟨2, ![96, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S128x8 : Shape := ⟨2, ![128, 8]⟩
abbrev S8 : Shape := ⟨1, ![8]⟩
abbrev S128x1 : Shape := ⟨2, ![128, 1]⟩
abbrev S1 : Shape := ⟨1, ![1]⟩
abbrev S128x3 : Shape := ⟨2, ![128, 3]⟩
abbrev S3 : Shape := ⟨1, ![3]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg14 : FVec F S128x3 .f32) (main_arg15 : FVec F S3 .f32) (main_v63 : IVec S_ 1) (main_v67 : IVec S_ 1) : IVec S_ 1 :=
  let main_v68 : IVec S_ 1 := andi main_v63 main_v67
  let main_v69 : FVec F S128x3 .f32 := Host.absf main_arg14
  let main_cst_26 : FVec F S_ .f32 := constant S_ .f32 0x7F800000#32
  let main_v70 : FVec F S128x3 .f32 := broadcastInDim S128x3 ![] bcast_S_S128x3 main_cst_26
  let main_v71 : IVec S128x3 1 := cmpf .olt main_v69 main_v70
  let main_c_27 : IVec S_ 1 := constantI S_ 1 1#1
  let main_v72 : IVec S_ 1 := (fun x v => Host.reduce IntOp.andi x v reducesTo_S128x3_S_d0_1 h_S_) main_v71 main_c_27
  let main_v73 : IVec S_ 1 := andi main_v68 main_v72
  let main_v74 : FVec F S3 .f32 := Host.absf main_arg15
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  main_v78

def fn_part3 {F : FTy → Type} [FloatOps F] (main_arg11 : FVec F S8 .f32) (main_arg12 : FVec F S128x1 .f32) (main_arg13 : FVec F S1 .f32) (main_arg14 : FVec F S128x3 .f32) (main_arg15 : FVec F S3 .f32) (main_v48 : IVec S_ 1) (main_v49 : FVec F S128x8 .f32) (main_v50 : FVec F S128x8 .f32) : IVec S_ 1 :=
  let main_v51 : IVec S128x8 1 := cmpf .olt main_v49 main_v50
  let main_c_19 : IVec S_ 1 := constantI S_ 1 1#1
  let main_v52 : IVec S_ 1 := (fun x v => Host.reduce IntOp.andi x v reducesTo_S128x8_S_d0_1 h_S_) main_v51 main_c_19
  let main_v53 : IVec S_ 1 := andi main_v48 main_v52
  let main_v54 : FVec F S8 .f32 := Host.absf main_arg11
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S128x1 .f32 := Host.absf main_arg12
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_v63 main_v67

def fn_part2 {F : FTy → Type} [FloatOps F] (main_arg7 : FVec F S32 .f32) (main_arg8 : FVec F S128x128 .f32) (main_arg9 : FVec F S128 .f32) (main_arg10 : FVec F S128x8 .f32) (main_arg11 : FVec F S8 .f32) (main_arg12 : FVec F S128x1 .f32) (main_arg13 : FVec F S1 .f32) (main_arg14 : FVec F S128x3 .f32) (main_arg15 : FVec F S3 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x8 .f32 := Host.absf main_arg10
  let main_cst_18 : FVec F S_ .f32 := constant S_ .f32 0x7F800000#32
  let main_v50 : FVec F S128x8 .f32 := broadcastInDim S128x8 ![] bcast_S_S128x8 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128 .f32) (main_arg6 : FVec F S128x32 .f32) (main_arg7 : FVec F S32 .f32) (main_arg8 : FVec F S128x128 .f32) (main_arg9 : FVec F S128 .f32) (main_arg10 : FVec F S128x8 .f32) (main_arg11 : FVec F S8 .f32) (main_arg12 : FVec F S128x1 .f32) (main_arg13 : FVec F S1 .f32) (main_arg14 : FVec F S128x3 .f32) (main_arg15 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32 .f32 := Host.absf main_arg6
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8192x64 .f32) (main_arg1 : FVec F S8192x128 .f32) (main_arg2 : FVec F S96x128 .f32) (main_arg3 : FVec F S128 .f32) (main_arg4 : FVec F S128x128 .f32) (main_arg5 : FVec F S128 .f32) (main_arg6 : FVec F S128x32 .f32) (main_arg7 : FVec F S32 .f32) (main_arg8 : FVec F S128x128 .f32) (main_arg9 : FVec F S128 .f32) (main_arg10 : FVec F S128x8 .f32) (main_arg11 : FVec F S8 .f32) (main_arg12 : FVec F S128x1 .f32) (main_arg13 : FVec F S1 .f32) (main_arg14 : FVec F S128x3 .f32) (main_arg15 : FVec F S3 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S96x128 .f32 := Host.absf main_arg2
  let main_cst_2 : FVec F S_ .f32 := constant S_ .f32 0x7F800000#32
  let main_v10 : FVec F S96x128 .f32 := broadcastInDim S96x128 ![] bcast_S_S96x128 main_cst_2
  let main_v11 : IVec S96x128 1 := cmpf .olt main_v9 main_v10
  let main_c_3 : IVec S_ 1 := constantI S_ 1 1#1
  let main_v12 : IVec S_ 1 := (fun x v => Host.reduce IntOp.andi x v reducesTo_S96x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8192x64 : Shape := ⟨2, ![8192, 64]⟩
abbrev S8192x128 : Shape := ⟨2, ![8192, 128]⟩
abbrev S96x128 : Shape := ⟨2, ![96, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S128x8 : Shape := ⟨2, ![128, 8]⟩
abbrev S8 : Shape := ⟨1, ![8]⟩
abbrev S128x1 : Shape := ⟨2, ![128, 1]⟩
abbrev S1 : Shape := ⟨1, ![1]⟩
abbrev S128x3 : Shape := ⟨2, ![128, 3]⟩
abbrev S3 : Shape := ⟨1, ![3]⟩
abbrev S64x128 : Shape := ⟨2, ![64, 128]⟩
abbrev S32x128 : Shape := ⟨2, ![32, 128]⟩
abbrev S1x128 : Shape := ⟨2, ![1, 128]⟩
abbrev S1x32 : Shape := ⟨2, ![1, 32]⟩
abbrev S1x8 : Shape := ⟨2, ![1, 8]⟩
abbrev S1x1 : Shape := ⟨2, ![1, 1]⟩
abbrev S1x3 : Shape := ⟨2, ![1, 3]⟩
abbrev S1024x64 : Shape := ⟨2, ![1024, 64]⟩
abbrev S1024x128 : Shape := ⟨2, ![1024, 128]⟩
abbrev S1024x32 : Shape := ⟨2, ![1024, 32]⟩
abbrev S1024 : Shape := ⟨1, ![1024]⟩
abbrev S1024x1 : Shape := ⟨2, ![1024, 1]⟩
abbrev S_ : Shape := ⟨0, ![]⟩
abbrev S8192x8 : Shape := ⟨2, ![8192, 8]⟩
abbrev S8192x1 : Shape := ⟨2, ![8192, 1]⟩
abbrev S8192x3 : Shape := ⟨2, ![8192, 3]⟩
abbrev S1024x8 : Shape := ⟨2, ![1024, 8]⟩
abbrev S1024x3 : Shape := ⟨2, ![1024, 3]⟩

abbrev nBuf : Space → Nat
  | .hbm => 37
  | .vmem => 36
  | .smem => 0
  | _ => 0

abbrev bufTy : (tb : Table) → Fin (tcTables nBuf tb) → BufTy
  | .hbm, ⟨0, _⟩ => ⟨S8192x64, .f32⟩
  | .hbm, ⟨1, _⟩ => ⟨S8192x128, .f32⟩
  | .hbm, ⟨2, _⟩ => ⟨S96x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S128x128, .f32⟩
  | .hbm, ⟨9, _⟩ => ⟨S128, .f32⟩
  | .hbm, ⟨10, _⟩ => ⟨S128x8, .f32⟩
  | .hbm, ⟨11, _⟩ => ⟨S8, .f32⟩
  | .hbm, ⟨12, _⟩ => ⟨S128x1, .f32⟩
  | .hbm, ⟨13, _⟩ => ⟨S1, .f32⟩
  | .hbm, ⟨14, _⟩ => ⟨S128x3, .f32⟩
  | .hbm, ⟨15, _⟩ => ⟨S3, .f32⟩
  | .hbm, ⟨16, _⟩ => ⟨S64x128, .f32⟩
  | .hbm, ⟨17, _⟩ => ⟨S32x128, .f32⟩
  | .hbm, ⟨18, _⟩ => ⟨S1x128, .f32⟩
  | .hbm, ⟨19, _⟩ => ⟨S1x128, .f32⟩
  | .hbm, ⟨20, _⟩ => ⟨S1x32, .f32⟩
  | .hbm, ⟨21, _⟩ => ⟨S1x128, .f32⟩
  | .hbm, ⟨22, _⟩ => ⟨S1x8, .f32⟩
  | .hbm, ⟨23, _⟩ => ⟨S1x1, .f32⟩
  | .hbm, ⟨24, _⟩ => ⟨S1x3, .f32⟩
  | .hbm, ⟨25, _⟩ => ⟨S1x32, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S8192x128, .f32⟩
  | .hbm, ⟨34, _⟩ => ⟨S8192x8, .f32⟩
  | .hbm, ⟨35, _⟩ => ⟨S8192x1, .f32⟩
  | .hbm, ⟨36, _⟩ => ⟨S8192x3, .f32⟩
  | .local _ .vmem, ⟨0, _⟩ => ⟨S1024x64, .f32⟩
  | .local _ .vmem, ⟨1, _⟩ => ⟨S1024x64, .f32⟩
  | .local _ .vmem, ⟨2, _⟩ => ⟨S64x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S1024x64, .f32⟩
  | .local _ .vmem, ⟨11, _⟩ => ⟨S1024x64, .f32⟩
  | .local _ .vmem, ⟨12, _⟩ => ⟨S64x128, .f32⟩
  | .local _ .vmem, ⟨13, _⟩ => ⟨S1x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1024x128, .f32⟩
  | .local _ .vmem, ⟨21, _⟩ => ⟨S1024x128, .f32⟩
  | .local _ .vmem, ⟨22, _⟩ => ⟨S128x8, .f32⟩
  | .local _ .vmem, ⟨23, _⟩ => ⟨S1x8, .f32⟩
  | .local _ .vmem, ⟨24, _⟩ => ⟨S128x1, .f32⟩
  | .local _ .vmem, ⟨25, _⟩ => ⟨S1x1, .f32⟩
  | .local _ .vmem, ⟨26, _⟩ => ⟨S128x3, .f32⟩
  | .local _ .vmem, ⟨27, _⟩ => ⟨S1x3, .f32⟩
  | .local _ .vmem, ⟨28, _⟩ => ⟨S1024x128, .f32⟩
  | .local _ .vmem, ⟨29, _⟩ => ⟨S1024x128, .f32⟩
  | .local _ .vmem, ⟨30, _⟩ => ⟨S1024x8, .f32⟩
  | .local _ .vmem, ⟨31, _⟩ => ⟨S1024x8, .f32⟩
  | .local _ .vmem, ⟨32, _⟩ => ⟨S1024x1, .f32⟩
  | .local _ .vmem, ⟨33, _⟩ => ⟨S1024x1, .f32⟩
  | .local _ .vmem, ⟨34, _⟩ => ⟨S1024x3, .f32⟩
  | .local _ .vmem, ⟨35, _⟩ => ⟨S1024x3, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call0_cst : Ref sig .tc := ⟨.hbm, 30, rfl⟩
abbrev main_call0_v0 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v15_2 : Ref sig .tc := ⟨.hbm, 35, rfl⟩
abbrev main_v15_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc2_stg9_0 : Ref sig .tc := ⟨.vmem, 30, rfl⟩
abbrev cc2_stg9_1 : Ref sig .tc := ⟨.vmem, 31, rfl⟩
abbrev cc2_stg10_0 : Ref sig .tc := ⟨.vmem, 32, rfl⟩
abbrev cc2_stg10_1 : Ref sig .tc := ⟨.vmem, 33, rfl⟩
abbrev cc2_stg11_0 : Ref sig .tc := ⟨.vmem, 34, rfl⟩
abbrev cc2_stg11_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem8_1 : DmaSem sig := 27
abbrev cc2_sem9_0 : DmaSem sig := 28
abbrev cc2_sem9_1 : DmaSem sig := 29
abbrev cc2_sem10_0 : DmaSem sig := 30
abbrev cc2_sem10_1 : DmaSem sig := 31
abbrev cc2_sem11_0 : DmaSem sig := 32
abbrev cc2_sem11_1 : DmaSem sig := 33

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v46 : BitVec 1 := Scalar.cmpi .eq arg0 c7_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v34 : BitVec 1 := Scalar.cmpi .eq arg0 c7_i32
  let v35 : BitVec 32 := Scalar.extui v34
  let c0_i32_19 : BitVec 32 := 0#32
  let v36 : BitVec 1 := Scalar.cmpi .ne v35 c0_i32_19
  v36

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x3 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1024x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1024x8 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1024x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S1024x3 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S96x128_S64x128_0_0 : S96x128.Slices ![0, 0] S64x128
  slices_S96x128_S32x128_64_0 : S96x128.Slices ![64, 0] S32x128
  shapeCasts_S128_S1x128 : S128.ShapeCasts S1x128
  shapeCasts_S32_S1x32 : S32.ShapeCasts S1x32
  shapeCasts_S8_S1x8 : S8.ShapeCasts S1x8
  shapeCasts_S1_S1x1 : S1.ShapeCasts S1x1
  shapeCasts_S3_S1x3 : S3.ShapeCasts S1x3
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  inb_S128x32_S128x32_0_0 : ∀ a, (![0, 0] : Fin 2 → Nat) a + S128x32.size a ≤ S128x32.size a
  h_S128x32 : 0 < S128x32.numel
  broadcasts_S1x32_S1024x32 : S1x32.Broadcasts S1024x32
  reduces_S1024x32_S1024 : S1024x32.Reduces [1] S1024
  shapeCasts_S1024_S1024x1 : S1024.ShapeCasts S1024x1
  broadcasts_S1024x1_S1024x32 : S1024x1.Broadcasts S1024x32
  reduces_S1024x32_S32 : S1024x32.Reduces [0] S32
  reduces_S1024x128_S128 : S1024x128.Reduces [0] S128
  bcast_S_S1x128 : S_.BroadcastsInDim S1x128 (![] : Fin 0 → Fin S1x128.rank)
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  broadcasts_S1024x1_S1024x128 : S1024x1.Broadcasts S1024x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  inb_S1024x8_S1024x8_0_0 : ∀ a, (![0, 0] : Fin 2 → Nat) a + S1024x8.size a ≤ S1024x8.size a
  h_S1024x8 : 0 < S1024x8.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S1024x3 : S1x3.Broadcasts S1024x3
  reduces_S1024x3_S1024 : S1024x3.Reduces [1] S1024
  broadcasts_S1024x1_S1024x3 : S1024x1.Broadcasts S1024x3
  inb_S1024x3_S1024x3_0_0 : ∀ a, (![0, 0] : Fin 2 → Nat) a + S1024x3.size a ≤ S1024x3.size a
  h_S1024x3 : 0 < S1024x3.numel
  dot_S1024x64_S64x128_S1024x128_1_0_0_1_n_n_wf : DotDims.WF S1024x64 S64x128 S1024x128 [1] [0] [0] [1] [] []
  dot_S1024x128_S128x128_S1024x128_1_0_0_1_n_n_wf : DotDims.WF S1024x128 S128x128 S1024x128 [1] [0] [0] [1] [] []
  dot_S1024x128_S128x32_S1024x32_1_0_0_1_n_n_wf : DotDims.WF S1024x128 S128x32 S1024x32 [1] [0] [0] [1] [] []
  dot_S1x32_S32x128_S1x128_1_0_0_1_n_n_wf : DotDims.WF S1x32 S32x128 S1x128 [1] [0] [0] [1] [] []
  dot_S1x128_S128x128_S1x128_1_0_0_1_n_n_wf : DotDims.WF S1x128 S128x128 S1x128 [1] [0] [0] [1] [] []
  dot_S1024x128_S128x8_S1024x8_1_0_0_1_n_n_wf : DotDims.WF S1024x128 S128x8 S1024x8 [1] [0] [0] [1] [] []
  dot_S1024x128_S128x1_S1024x1_1_0_0_1_n_n_wf : DotDims.WF S1024x128 S128x1 S1024x1 [1] [0] [0] [1] [] []
  dot_S1024x128_S128x3_S1024x3_1_0_0_1_n_n_wf : DotDims.WF S1024x128 S128x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x128.size a ≤ S1x128.size a
  hwx2_0 : ∀ i : grid2.Coords, EltTy.bits .f32 = 32 ∨ (Rect.block (s := S1x128) S1x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x8.size a ≤ S128x8.size a
  hwx2_2 : ∀ i : grid2.Coords, EltTy.bits .f32 = 32 ∨ (Rect.block (s := S128x8) S128x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8.size a ≤ S1x8.size a
  hwx2_3 : ∀ i : grid2.Coords, EltTy.bits .f32 = 32 ∨ (Rect.block (s := S1x8) S1x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x3.size a ≤ S128x3.size a
  hwx2_6 : ∀ i : grid2.Coords, EltTy.bits .f32 = 32 ∨ (Rect.block (s := S128x3) S128x3.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x3.size a ≤ S1x3.size a
  hwx2_7 : ∀ i : grid2.Coords, EltTy.bits .f32 = 32 ∨ (Rect.block (s := S1x3) S1x3.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x128.size a ≤ S8192x128.size a
  hwx2_8 : ∀ i : grid2.Coords, EltTy.bits .f32 = 32 ∨ (Rect.block (s := S8192x128) S1024x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1024x8.size a ≤ S8192x8.size a
  hwx2_9 : ∀ i : grid2.Coords, EltTy.bits .f32 = 32 ∨ (Rect.block (s := S8192x8) S1024x8.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1024x1.size a ≤ S8192x1.size a
  hwx2_10 : ∀ i : grid2.Coords, EltTy.bits .f32 = 32 ∨ (Rect.block (s := S8192x1) S1024x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1024x3.size a ≤ S8192x3.size a
  hwx2_11 : ∀ i : grid2.Coords, EltTy.bits .f32 = 32 ∨ (Rect.block (s := S8192x3) S1024x3.size (cc2_transform_11 i) (hinb2_11 i)).WholeWords (EltTy.packing .f32)

variable [Facts₀]

def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S1x32_S32x128_S1x128_1_0_0_1_n_n : DotDims S1x32 S32x128 S1x128 where
  lhsContracting := [1]
  rhsContracting := [0]
  lhsNonContracting := [0]
  rhsNonContracting := [1]
  lhsBatch := []
  rhsBatch := []
  wf := dot_S1x32_S32x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1024x128_S128x8_S1024x8_1_0_0_1_n_n : DotDims S1024x128 S128x8 S1024x8 where
  lhsContracting := [1]
  rhsContracting := [0]
  lhsNonContracting := [0]
  rhsNonContracting := [1]
  lhsBatch := []
  rhsBatch := []
  wf := dot_S1024x128_S128x8_S1024x8_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S1024x128_S128x3_S1024x3_1_0_0_1_n_n : DotDims S1024x128 S128x3 S1024x3 where
  lhsContracting := [1]
  rhsContracting := [0]
  lhsNonContracting := [0]
  rhsNonContracting := [1]
  lhsBatch := []
  rhsBatch := []
  wf := dot_S1024x128_S128x3_S1024x3_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x32.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_arg0) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v14) S1x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S128x3.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v8) S1x3.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v15_0) S1024x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v15_1) S1024x8.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v15_2) S1024x1.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v15_3) S1024x3.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S8192x64 : Shape := ⟨2, ![8192, 64]⟩
abbrev S8192x128 : Shape := ⟨2, ![8192, 128]⟩
abbrev S96x128 : Shape := ⟨2, ![96, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S128x8 : Shape := ⟨2, ![128, 8]⟩
abbrev S8 : Shape := ⟨1, ![8]⟩
abbrev S128x1 : Shape := ⟨2, ![128, 1]⟩
abbrev S1 : Shape := ⟨1, ![1]⟩
abbrev S128x3 : Shape := ⟨2, ![128, 3]⟩
abbrev S3 : Shape := ⟨1, ![3]⟩
abbrev S_ : Shape := ⟨0, ![]⟩
abbrev S8192x32 : Shape := ⟨2, ![8192, 32]⟩
abbrev S8192x96 : Shape := ⟨2, ![8192, 96]⟩
abbrev S1x128 : Shape := ⟨2, ![1, 128]⟩
abbrev S1x32 : Shape := ⟨2, ![1, 32]⟩
abbrev S8192 : Shape := ⟨1, ![8192]⟩
abbrev S8192x1 : Shape := ⟨2, ![8192, 1]⟩
abbrev S8192x8192 : Shape := ⟨2, ![8192, 8192]⟩
abbrev S8192x8 : Shape := ⟨2, ![8192, 8]⟩
abbrev S1x8 : Shape := ⟨2, ![1, 8]⟩
abbrev S1x1 : Shape := ⟨2, ![1, 1]⟩
abbrev S8192x3 : Shape := ⟨2, ![8192, 3]⟩
abbrev S1x3 : Shape := ⟨2, ![1, 3]⟩

abbrev nBuf : Space → Nat
  | .hbm => 117
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x128, .f32⟩
  | .hbm, ⟨2, _⟩ => ⟨S96x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S128x128, .f32⟩
  | .hbm, ⟨9, _⟩ => ⟨S128, .f32⟩
  | .hbm, ⟨10, _⟩ => ⟨S128x8, .f32⟩
  | .hbm, ⟨11, _⟩ => ⟨S8, .f32⟩
  | .hbm, ⟨12, _⟩ => ⟨S128x1, .f32⟩
  | .hbm, ⟨13, _⟩ => ⟨S1, .f32⟩
  | .hbm, ⟨14, _⟩ => ⟨S128x3, .f32⟩
  | .hbm, ⟨15, _⟩ => ⟨S3, .f32⟩
  | .hbm, ⟨16, _⟩ => ⟨S_, .f32⟩
  | .hbm, ⟨17, _⟩ => ⟨S8192x32, .f32⟩
  | .hbm, ⟨18, _⟩ => ⟨S8192x96, .f32⟩
  | .hbm, ⟨19, _⟩ => ⟨S8192x128, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S1x128, .f32⟩
  | .hbm, ⟨28, _⟩ => ⟨S8192x128, .f32⟩
  | .hbm, ⟨29, _⟩ => ⟨S8192x128, .f32⟩
  | .hbm, ⟨30, _⟩ => ⟨S8192x32, .f32⟩
  | .hbm, ⟨31, _⟩ => ⟨S1x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x32, .f32⟩
  | .hbm, ⟨43, _⟩ => ⟨S8192x32, .f32⟩
  | .hbm, ⟨44, _⟩ => ⟨S_, .f32⟩
  | .hbm, ⟨45, _⟩ => ⟨S32, .f32⟩
  | .hbm, ⟨46, _⟩ => ⟨S1x32, .f32⟩
  | .hbm, ⟨47, _⟩ => ⟨S_, .f32⟩
  | .hbm, ⟨48, _⟩ => ⟨S1x32, .f32⟩
  | .hbm, ⟨49, _⟩ => ⟨S1x32, .f32⟩
  | .hbm, ⟨50, _⟩ => ⟨S8192x32, .f32⟩
  | .hbm, ⟨51, _⟩ => ⟨S8192x96, .f32⟩
  | .hbm, ⟨52, _⟩ => ⟨S8192x128, .f32⟩
  | .hbm, ⟨53, _⟩ => ⟨S1x128, .f32⟩
  | .hbm, ⟨54, _⟩ => ⟨S8192x128, .f32⟩
  | .hbm, ⟨55, _⟩ => ⟨S8192x128, .f32⟩
  | .hbm, ⟨56, _⟩ => ⟨S_, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S1x128, .f32⟩
  | .hbm, ⟨61, _⟩ => ⟨S8192x128, .f32⟩
  | .hbm, ⟨62, _⟩ => ⟨S8192x128, .f32⟩
  | .hbm, ⟨63, _⟩ => ⟨S_, .f32⟩
  | .hbm, ⟨64, _⟩ => ⟨S8192x8192, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S8192x128, .f32⟩
  | .hbm, ⟨69, _⟩ => ⟨S8192x128, .f32⟩
  | .hbm, ⟨70, _⟩ => ⟨S1x128, .f32⟩
  | .hbm, ⟨71, _⟩ => ⟨S8192x128, .f32⟩
  | .hbm, ⟨72, _⟩ => ⟨S8192x128, .f32⟩
  | .hbm, ⟨73, _⟩ => ⟨S_, .f32⟩
  | .hbm, ⟨74, _⟩ => ⟨S8192x128, .f32⟩
  | .hbm, ⟨75, _⟩ => ⟨S8192x128, .f32⟩
  | .hbm, ⟨76, _⟩ => ⟨S_, .f32⟩
  | .hbm, ⟨77, _⟩ => ⟨S8192x128, .f32⟩
  | .hbm, ⟨78, _⟩ => ⟨S8192x128, .f32⟩
  | .hbm, ⟨79, _⟩ => ⟨S8192x128, .f32⟩
  | .hbm, ⟨80, _⟩ => ⟨S8192x128, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S8192x128, .f32⟩
  | .hbm, ⟨89, _⟩ => ⟨S8192x128, .f32⟩
  | .hbm, ⟨90, _⟩ => ⟨S8192x8, .f32⟩
  | .hbm, ⟨91, _⟩ => ⟨S1x8, .f32⟩
  | .hbm, ⟨92, _⟩ => ⟨S8192x8, .f32⟩
  | .hbm, ⟨93, _⟩ => ⟨S8192x8, .f32⟩
  | .hbm, ⟨94, _⟩ => ⟨S8192x8, .f32⟩
  | .hbm, ⟨95, _⟩ => ⟨S8192x1, .f32⟩
  | .hbm, ⟨96, _⟩ => ⟨S1x1, .f32⟩
  | .hbm, ⟨97, _⟩ => ⟨S8192x1, .f32⟩
  | .hbm, ⟨98, _⟩ => ⟨S8192x1, .f32⟩
  | .hbm, ⟨99, _⟩ => ⟨S8192x3, .f32⟩
  | .hbm, ⟨100, _⟩ => ⟨S1x3, .f32⟩
  | .hbm, ⟨101, _⟩ => ⟨S8192x3, .f32⟩
  | .hbm, ⟨102, _⟩ => ⟨S8192x3, .f32⟩
  | .hbm, ⟨103, _⟩ => ⟨S_, .f32⟩
  | .hbm, ⟨104, _⟩ => ⟨S8192, .f32⟩
  | .hbm, ⟨105, _⟩ => ⟨S_, .f32⟩
  | .hbm, ⟨106, _⟩ => ⟨S8192, .f32⟩
  | .hbm, ⟨107, _⟩ => ⟨S8192, .f32⟩
  | .hbm, ⟨108, _⟩ => ⟨S8192x1, .f32⟩
  | .hbm, ⟨109, _⟩ => ⟨S8192x3, .f32⟩
  | .hbm, ⟨110, _⟩ => ⟨S8192x3, .f32⟩
  | .hbm, ⟨111, _⟩ => ⟨S8192x3, .f32⟩
  | .hbm, ⟨112, _⟩ => ⟨S_, .f32⟩
  | .hbm, ⟨113, _⟩ => ⟨S8192, .f32⟩
  | .hbm, ⟨114, _⟩ => ⟨S8192x1, .f32⟩
  | .hbm, ⟨115, _⟩ => ⟨S8192x3, .f32⟩
  | .hbm, ⟨116, _⟩ => ⟨S8192x3, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call0_cst : Ref sig .tc := ⟨.hbm, 23, rfl⟩
abbrev main_call0_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call1_v0 : Ref sig .tc := ⟨.hbm, 34, rfl⟩
abbrev main_call1_cst : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_cst_0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_1 : Ref sig .tc := ⟨.hbm, 44, rfl⟩
abbrev main_v20 : Ref sig .tc := ⟨.hbm, 45, rfl⟩
abbrev main_v21 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call2_cst : Ref sig .tc := ⟨.hbm, 56, rfl⟩
abbrev main_call2_v0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_cst_4 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_call3_cst : Ref sig .tc := ⟨.hbm, 73, rfl⟩
abbrev main_call3_v0 : Ref sig .tc := ⟨.hbm, 74, rfl⟩
abbrev main_v43 : Ref sig .tc := ⟨.hbm, 75, rfl⟩
abbrev main_cst_5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call4_v0 : Ref sig .tc := ⟨.hbm, 80, rfl⟩
abbrev main_call4_cst : Ref sig .tc := ⟨.hbm, 81, rfl⟩
abbrev main_call4_v1 : Ref sig .tc := ⟨.hbm, 82, rfl⟩
abbrev main_call4_v2 : Ref sig .tc := ⟨.hbm, 83, rfl⟩
abbrev main_v47 : Ref sig .tc := ⟨.hbm, 84, rfl⟩
abbrev main_cst_6 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_7 : Ref sig .tc := ⟨.hbm, 103, rfl⟩
abbrev main_v65 : Ref sig .tc := ⟨.hbm, 104, rfl⟩
abbrev main_cst_8 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_9 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩

abbrev nD : Nat := 1
abbrev τ : Topo := Topo.v7x

variable {F : FTy → Type} [FloatOps F]

class Facts₀ : Prop where
  bcast_S_S8192x32 : S_.BroadcastsInDim S8192x32 (![] : Fin 0 → Fin S8192x32.rank)
  concatenates_S8192x64_S8192x32_S8192x96_d1 : Shape.Concatenates [S8192x64, S8192x32] S8192x96 1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  reducesTo_S8192x32_S8192_d1 : S8192x32.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x32_0_1 : S8192x1.BroadcastsInDim S8192x32 (![0, 1] : Fin 2 → Fin S8192x32.rank)
  reducesTo_S8192x32_S32_d0 : S8192x32.ReducesTo [0] S32
  bcast_S_S1x32 : S_.BroadcastsInDim S1x32 (![] : Fin 0 → Fin S1x32.rank)
  bcast_S_S8192x8192 : S_.BroadcastsInDim S8192x8192 (![] : Fin 0 → Fin S8192x8192.rank)
  reducesTo_S8192x128_S8192_d1 : S8192x128.ReducesTo [1] S8192
  bcast_S8192x1_S8192x128_0_1 : S8192x1.BroadcastsInDim S8192x128 (![0, 1] : Fin 2 → Fin S8192x128.rank)
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S3_S1x3_1 : S3.BroadcastsInDim S1x3 (![1] : Fin 1 → Fin S1x3.rank)
  bcast_S1x3_S8192x3_0_1 : S1x3.BroadcastsInDim S8192x3 (![0, 1] : Fin 2 → Fin S8192x3.rank)
  reducesTo_S8192x3_S8192_d1 : S8192x3.ReducesTo [1] S8192
  bcast_S_S8192 : S_.BroadcastsInDim S8192 (![] : Fin 0 → Fin S8192.rank)
  bcast_S8192x1_S8192x3_0_1 : S8192x1.BroadcastsInDim S8192x3 (![0, 1] : Fin 2 → Fin S8192x3.rank)
  dot_S8192x96_S96x128_S8192x128_1_0_0_1_n_n_wf : DotDims.WF S8192x96 S96x128 S8192x128 [1] [0] [0] [1] [] []
  dot_S8192x128_S128x128_S8192x128_1_0_0_1_n_n_wf : DotDims.WF S8192x128 S128x128 S8192x128 [1] [0] [0] [1] [] []
  dot_S8192x128_S128x32_S8192x32_1_0_0_1_n_n_wf : DotDims.WF S8192x128 S128x32 S8192x32 [1] [0] [0] [1] [] []
  dot_S8192x8192_S8192x128_S8192x128_1_0_0_1_n_n_wf : DotDims.WF S8192x8192 S8192x128 S8192x128 [1] [0] [0] [1] [] []
  dot_S8192x128_S128x8_S8192x8_1_0_0_1_n_n_wf : DotDims.WF S8192x128 S128x8 S8192x8 [1] [0] [0] [1] [] []
  dot_S8192x128_S128x1_S8192x1_1_0_0_1_n_n_wf : DotDims.WF S8192x128 S128x1 S8192x1 [1] [0] [0] [1] [] []
  dot_S8192x128_S128x3_S8192x3_1_0_0_1_n_n_wf : DotDims.WF S8192x128 S128x3 S8192x3 [1] [0] [0] [1] [] []

variable [Facts₀]

def dot_S8192x96_S96x128_S8192x128_1_0_0_1_n_n : DotDims S8192x96 S96x128 S8192x128 where
  lhsContracting := [1]
  rhsContracting := [0]
  lhsNonContracting := [0]
  rhsNonContracting := [1]
  lhsBatch := []
  rhsBatch := []
  wf := dot_S8192x96_S96x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x8_S8192x8_1_0_0_1_n_n : DotDims S8192x128 S128x8 S8192x8 where
  lhsContracting := [1]
  rhsContracting := [0]
  lhsNonContracting := [0]
  rhsNonContracting := [1]
  lhsBatch := []
  rhsBatch := []
  wf := dot_S8192x128_S128x8_S8192x8_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x128_S128x3_S8192x3_1_0_0_1_n_n : DotDims S8192x128 S128x3 S8192x3 where
  lhsContracting := [1]
  rhsContracting := [0]
  lhsNonContracting := [0]
  rhsNonContracting := [1]
  lhsBatch := []
  rhsBatch := []
  wf := dot_S8192x128_S128x3_S8192x3_1_0_0_1_n_n_wf

class Facts : Prop extends Facts₀ where

variable [Facts]
-- ==== Proof.K.Base.lean ====
/-
  What the three kernel regions' proofs share: the two tests a body of passes 1 and 2 makes on its grid
  coordinate (is this the first point? the last?) in closed form over the eight points; where the conditional output
  window of each pass is idle; the staging and scratch memrefs a body is called with; and each region's
  invariant split at the call's own accumulator.
-/
import proofs.«142343_j22625887715845_1_alg».proof.Proof.Gen.Kernel.Launch
import proofs.«142343_j22625887715845_1_alg».proof.Proof.Gen.Kernel.Skeleton
import proofs.«142343_j22625887715845_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- every literal offset a body loads or stores at is the origin -/
theorem hz2 : (![0, 0] : Fin 2 → Nat) = fun _ => 0 := funext fun a => by fin_cases a <;> rfl

/-! ## Pass 1 (region 0) -/

/-- the body's test "this is the first grid point" (its accumulator is zeroed there) -/
abbrev first0 (i : grid0.Coords) : Prop := (Scalar.cmpi .ne (Scalar.extui (Scalar.cmpi .eq (BitVec.ofNat 32 (i 0).val) 0#32)) 0#32) = 1#1
/-- the body's test "this is the last grid point" (the mean is written out there) -/
abbrev last0 (i : grid0.Coords) : Prop := k0_cond2 i = 1#1
theorem hfirst0 : ∀ t : Fin cfg0.N, first0 (grid0.coords t) ↔ t.val = 0 :=
  (by decide +kernel : ∀ t : Fin grid0.N, first0 (grid0.coords t) ↔ t.val = 0)
theorem hlast0 : ∀ t : Fin cfg0.N, last0 (grid0.coords t) ↔ t.val = 7 :=
  (by decide +kernel : ∀ t : Fin grid0.N, last0 (grid0.coords t) ↔ t.val = 7)
/-- the inputs are never idle; the output window is idle, and not written back, except at the last point -/
theorem live0 : ∀ (w : Fin 8) (t : Fin cfg0.N), w.val < 7 → cfg0.idle w (grid0.coords t) = false := by decide +kernel
theorem idle0_7 : ∀ t : Fin cfg0.N, ¬last0 (grid0.coords t) → cfg0.idle 7 (grid0.coords t) = true := by decide +kernel
theorem noFlush0_7 : ∀ t : Fin cfg0.N, ¬last0 (grid0.coords t) → (cfg0.win 7).flush t = false := by decide +kernel
theorem live0_7 : ∀ t : Fin cfg0.N, last0 (grid0.coords t) → cfg0.idle 7 (grid0.coords t) = false := by decide +kernel

/-- the accumulator of pass 1 -/
abbrev sc0 : Memref sig .tc .vmem S1x32 .f32 := Memref.whole cc0_scratch0

/-- the region's invariant before the first point, with the accumulator split off the other scoped buffers -/
theorem PhiA0_eq (c : Dev nD) :
    (Pipeline.ΦA spec0 c : sProp 𝕄)
      = iprop(iprop((∃ d, owns (c : Thread nD τ) sc0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [sc0, owns_whole]; rfl

/-! ## Pass 2 (region 1) -/

abbrev first1 (i : grid1.Coords) : Prop := (Scalar.cmpi .ne (Scalar.extui (Scalar.cmpi .eq (BitVec.ofNat 32 (i 0).val) 0#32)) 0#32) = 1#1
abbrev last1 (i : grid1.Coords) : Prop := k1_cond2 i = 1#1
theorem hfirst1 : ∀ t : Fin cfg1.N, first1 (grid1.coords t) ↔ t.val = 0 :=
  (by decide +kernel : ∀ t : Fin grid1.N, first1 (grid1.coords t) ↔ t.val = 0)
theorem hlast1 : ∀ t : Fin cfg1.N, last1 (grid1.coords t) ↔ t.val = 7 :=
  (by decide +kernel : ∀ t : Fin grid1.N, last1 (grid1.coords t) ↔ t.val = 7)
theorem live1 : ∀ (w : Fin 7) (t : Fin cfg1.N), w.val < 6 → cfg1.idle w (grid1.coords t) = false := by decide +kernel
theorem idle1_6 : ∀ t : Fin cfg1.N, ¬last1 (grid1.coords t) → cfg1.idle 6 (grid1.coords t) = true := by decide +kernel
theorem noFlush1_6 : ∀ t : Fin cfg1.N, ¬last1 (grid1.coords t) → (cfg1.win 6).flush t = false := by decide +kernel
theorem live1_6 : ∀ t : Fin cfg1.N, last1 (grid1.coords t) → cfg1.idle 6 (grid1.coords t) = false := by decide +kernel

/-- the accumulator of pass 2 -/
abbrev sc1 : Memref sig .tc .vmem S1x128 .f32 := Memref.whole cc1_scratch0

theorem PhiA1_eq (c : Dev nD) :
    (Pipeline.ΦA spec1 c : sProp 𝕄)
      = iprop(iprop((∃ d, owns (c : Thread nD τ) sc1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [sc1, owns_whole]; rfl

/-! ## Pass 3 (region 2) -/

/-- no window of pass 3 is ever idle -/
theorem live2 : ∀ (w : Fin 12) (t : Fin cfg2.N), cfg2.idle w (grid2.coords t) = false := by decide +kernel

end Cert.Kernel.Fr

end
-- ==== Proof.K.Run0.lean ====
/-
  Pass 1's body, run once at a grid point: what it leaves in its accumulator and (at the last point) in its
  output staging buffer, as a function of what the seven input buffers and the accumulator held. Three cases
  by the body's two tests: the first point (the accumulator is zeroed before the step), a middle point, the
  last point (the scaled accumulator is written out after the step).
-/
import proofs.«142343_j22625887715845_1_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- one step of pass 1: the accumulator `s` plus the column sums of the row-normalised third layer's output -/
def step0 (x1 : Vec F S1024x64 .f32) (x2 : Vec F S64x128 .f32) (x3 : Vec F S1x128 .f32) (x4 : Vec F S128x128 .f32)
    (x5 : Vec F S1x128 .f32) (x6 : Vec F S128x32 .f32) (x7 : Vec F S1x32 .f32) (s : Vec F S1x32 .f32) : Vec F S1x32 .f32 :=
  k0_pay1 (k0_pay4 x1 x2 x3 x4 x5 x6 x7) (k0_pay5 x1 x2 x3 x4 x5 x6 x7) (k0_pay6 (F := F)) s

set_option maxHeartbeats 4000000 in
/-- the first point: whatever the accumulator held, it is zeroed, read back, and gains one step -/
theorem run0_first (c : Dev nD) (i : grid0.Coords)
    (a1 : Memref sig .tc .vmem S1024x64 .f32) (h1 : a1.IsWhole) (a2 : Memref sig .tc .vmem S64x128 .f32) (h2 : a2.IsWhole)
    (a3 : Memref sig .tc .vmem S1x128 .f32) (h3 : a3.IsWhole) (a4 : Memref sig .tc .vmem S128x128 .f32) (h4 : a4.IsWhole)
    (a5 : Memref sig .tc .vmem S1x128 .f32) (h5 : a5.IsWhole) (a6 : Memref sig .tc .vmem S128x32 .f32) (h6 : a6.IsWhole)
    (a7 : Memref sig .tc .vmem S1x32 .f32) (h7 : a7.IsWhole) (a8 : Memref sig .tc .vmem S1x32 .f32) (h8 : a8.IsWhole)
    (a9 : Memref sig .tc .vmem S1x32 .f32) (h9 : a9.IsWhole)
    (hf : first0 i) (hl : ¬last0 i)
    (x1 : Vec F S1024x64 .f32) (x2 : Vec F S64x128 .f32) (x3 : Vec F S1x128 .f32) (x4 : Vec F S128x128 .f32)
    (x5 : Vec F S1x128 .f32) (x6 : Vec F S128x32 .f32) (x7 : Vec F S1x32 .f32) (xo : Vec F S1x32 .f32)
    (E : Set ℕ) (K : PUnit → sProp 𝕄) :
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare x7
            ∗ owns (c : Thread nD τ) a8 fullShare xo ∗ (∃ d, owns (c : Thread nD τ) a9 fullShare d)
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5 ∗ owns (c : Thread nD τ) a6 fullShare x6
                ∗ owns (c : Thread nD τ) a7 fullShare x7
                ∗ owns (c : Thread nD τ) a8 fullShare xo
                ∗ owns (c : Thread nD τ) a9 fullShare (step0 x1 x2 x3 x4 x5 x6 x7 (k0_pay3 (F := F)))) -∗ K ⟨⟩))
          ⊢ wp frame (wpE (defs₀ (F := F)) Variants.none c none) E (cc0__pass1_kernel i a1 h1 a2 h2 a3 h3 a4 h4 a5 h5 a6 h6 a7 h7 a8 h8 a9 h9) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%d9, %fs, %hfs, HS⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hf | exact hl)
  sl_unfold_words
  sl_step
  iapply Hk
  isplitl [H1]; · iexists _; isplitr; · ipureintro; exact h1.read_unread _
                  iexact H1
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [HO]; · iexists fo; isplitr; · ipureintro; exact hfo
                  iexact HO
  iexists _; isplitr
  swap; · iexact HS
  ipureintro
  rw [View.read_writes_eq_canon _ _ _ (fun y => ⟨_, List.mem_cons_self, View.mem_set_unit_zero (S := S1x32) hz2 inb_S1x32_S1x32_0_0 y⟩),
    View.canon_cons_unit_zero (S := S1x32) hz2]
  simp only [step0, View.readCov_unit_zero (S := S1x32) _ hz2, View.readAt_eq_ld, h1.read_unread, h2.read_unread, h3.read_unread, h4.read_unread, h5.read_unread, h6.read_unread, h7.read_unread, h8.read_unread, h9.read_unread,
    View.ld_unit_zero (S := S1024x64) hz2, View.ld_unit_zero (S := S64x128) hz2, View.ld_unit_zero (S := S1x128) hz2, View.ld_unit_zero (S := S128x128) hz2,
    View.ld_unit_zero (S := S128x32) hz2, View.ld_unit_zero (S := S1x32) hz2]

set_option maxHeartbeats 4000000 in
/-- a middle point: the accumulator gains one step; the output staging buffer is not touched -/
theorem run0_mid (c : Dev nD) (i : grid0.Coords)
    (a1 : Memref sig .tc .vmem S1024x64 .f32) (h1 : a1.IsWhole) (a2 : Memref sig .tc .vmem S64x128 .f32) (h2 : a2.IsWhole)
    (a3 : Memref sig .tc .vmem S1x128 .f32) (h3 : a3.IsWhole) (a4 : Memref sig .tc .vmem S128x128 .f32) (h4 : a4.IsWhole)
    (a5 : Memref sig .tc .vmem S1x128 .f32) (h5 : a5.IsWhole) (a6 : Memref sig .tc .vmem S128x32 .f32) (h6 : a6.IsWhole)
    (a7 : Memref sig .tc .vmem S1x32 .f32) (h7 : a7.IsWhole) (a8 : Memref sig .tc .vmem S1x32 .f32) (h8 : a8.IsWhole)
    (a9 : Memref sig .tc .vmem S1x32 .f32) (h9 : a9.IsWhole)
    (hf : ¬first0 i) (hl : ¬last0 i)
    (x1 : Vec F S1024x64 .f32) (x2 : Vec F S64x128 .f32) (x3 : Vec F S1x128 .f32) (x4 : Vec F S128x128 .f32)
    (x5 : Vec F S1x128 .f32) (x6 : Vec F S128x32 .f32) (x7 : Vec F S1x32 .f32) (xo xs : Vec F S1x32 .f32)
    (E : Set ℕ) (K : PUnit → sProp 𝕄) :
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare x7
            ∗ owns (c : Thread nD τ) a8 fullShare xo ∗ owns (c : Thread nD τ) a9 fullShare xs
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5 ∗ owns (c : Thread nD τ) a6 fullShare x6
                ∗ owns (c : Thread nD τ) a7 fullShare x7
                ∗ owns (c : Thread nD τ) a8 fullShare xo
                ∗ owns (c : Thread nD τ) a9 fullShare (step0 x1 x2 x3 x4 x5 x6 x7 xs)) -∗ K ⟨⟩))
          ⊢ wp frame (wpE (defs₀ (F := F)) Variants.none c none) E (cc0__pass1_kernel i a1 h1 a2 h2 a3 h3 a4 h4 a5 h5 a6 h6 a7 h7 a8 h8 a9 h9) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs, %hfs, HS⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h7.eq_unread hf7
  obtain rfl := h9.eq_unread hfs
  sl_exec (disch := first | exact hf | exact hl)
  sl_step
  iapply Hk
  isplitl [H1]; · iexists _; isplitr; · ipureintro; exact h1.read_unread _
                  iexact H1
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [HO]; · iexists fo; isplitr; · ipureintro; exact hfo
                  iexact HO
  iexists _; isplitr
  swap; · iexact HS
  ipureintro
  rw [View.read_writes_eq_canon _ _ _ (View.cover_of_tiled _ S1x32.size (by rfl)), View.canon_unit_zero hz2]
  simp only [step0, View.readCov_unit_zero (S := S1x32) _ hz2, View.readAt_eq_ld, h1.read_unread, h2.read_unread, h3.read_unread, h4.read_unread, h5.read_unread, h6.read_unread, h7.read_unread, h8.read_unread, h9.read_unread,
    View.ld_unit_zero (S := S1024x64) hz2, View.ld_unit_zero (S := S64x128) hz2, View.ld_unit_zero (S := S1x128) hz2, View.ld_unit_zero (S := S128x128) hz2,
    View.ld_unit_zero (S := S128x32) hz2, View.ld_unit_zero (S := S1x32) hz2]

set_option maxHeartbeats 4000000 in
/-- the last point: the accumulator gains one step and is read back; its scaled contents go to the output staging buffer -/
theorem run0_last (c : Dev nD) (i : grid0.Coords)
    (a1 : Memref sig .tc .vmem S1024x64 .f32) (h1 : a1.IsWhole) (a2 : Memref sig .tc .vmem S64x128 .f32) (h2 : a2.IsWhole)
    (a3 : Memref sig .tc .vmem S1x128 .f32) (h3 : a3.IsWhole) (a4 : Memref sig .tc .vmem S128x128 .f32) (h4 : a4.IsWhole)
    (a5 : Memref sig .tc .vmem S1x128 .f32) (h5 : a5.IsWhole) (a6 : Memref sig .tc .vmem S128x32 .f32) (h6 : a6.IsWhole)
    (a7 : Memref sig .tc .vmem S1x32 .f32) (h7 : a7.IsWhole) (a8 : Memref sig .tc .vmem S1x32 .f32) (h8 : a8.IsWhole)
    (a9 : Memref sig .tc .vmem S1x32 .f32) (h9 : a9.IsWhole)
    (hf : ¬first0 i) (hl : last0 i)
    (x1 : Vec F S1024x64 .f32) (x2 : Vec F S64x128 .f32) (x3 : Vec F S1x128 .f32) (x4 : Vec F S128x128 .f32)
    (x5 : Vec F S1x128 .f32) (x6 : Vec F S128x32 .f32) (x7 : Vec F S1x32 .f32) (xs : Vec F S1x32 .f32)
    (E : Set ℕ) (K : PUnit → sProp 𝕄) :
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare x7
            ∗ (∃ d, owns (c : Thread nD τ) a8 fullShare d) ∗ owns (c : Thread nD τ) a9 fullShare xs
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5 ∗ owns (c : Thread nD τ) a6 fullShare x6
                ∗ owns (c : Thread nD τ) a7 fullShare x7
                ∗ owns (c : Thread nD τ) a8 fullShare (k0_pay2 (step0 x1 x2 x3 x4 x5 x6 x7 xs))
                ∗ owns (c : Thread nD τ) a9 fullShare (step0 x1 x2 x3 x4 x5 x6 x7 xs)) -∗ K ⟨⟩))
          ⊢ wp frame (wpE (defs₀ (F := F)) Variants.none c none) E (cc0__pass1_kernel i a1 h1 a2 h2 a3 h3 a4 h4 a5 h5 a6 h6 a7 h7 a8 h8 a9 h9) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %fo, %hfo, HO⟩, ⟨%fs, %hfs, HS⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h7.eq_unread hf7
  obtain rfl := h9.eq_unread hfs
  sl_exec (disch := first | exact hf | exact hl)
  sl_unfold_words
  sl_step
  iapply Hk
  isplitl [H1]; · iexists _; isplitr; · ipureintro; exact h1.read_unread _
                  iexact H1
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [HO]
  · iexists _; isplitr
    swap; · iexact HO
    ipureintro
    rw [View.read_writes_eq_canon _ _ _ (View.cover_of_tiled _ S1x32.size (by rfl)), View.canon_unit_zero hz2]
    simp only [step0, View.readCov_unit_zero (S := S1x32) _ hz2, View.readAt_eq_ld, h1.read_unread, h2.read_unread, h3.read_unread, h4.read_unread, h5.read_unread, h6.read_unread, h7.read_unread, h8.read_unread, h9.read_unread,
    View.ld_unit_zero (S := S1024x64) hz2, View.ld_unit_zero (S := S64x128) hz2, View.ld_unit_zero (S := S1x128) hz2, View.ld_unit_zero (S := S128x128) hz2,
    View.ld_unit_zero (S := S128x32) hz2, View.ld_unit_zero (S := S1x32) hz2]
  iexists _; isplitr
  swap; · iexact HS
  ipureintro
  rw [View.read_writes_eq_canon _ _ _ (View.cover_of_tiled _ S1x32.size (by rfl)), View.canon_unit_zero hz2]
  simp only [step0, View.readCov_unit_zero (S := S1x32) _ hz2, View.readAt_eq_ld, h1.read_unread, h2.read_unread, h3.read_unread, h4.read_unread, h5.read_unread, h6.read_unread, h7.read_unread, h8.read_unread, h9.read_unread,
    View.ld_unit_zero (S := S1024x64) hz2, View.ld_unit_zero (S := S64x128) hz2, View.ld_unit_zero (S := S1x128) hz2, View.ld_unit_zero (S := S128x128) hz2,
    View.ld_unit_zero (S := S128x32) hz2, View.ld_unit_zero (S := S1x32) hz2]

end Cert.Kernel.Fr

end
-- ==== Proof.K.Reg0.lean ====
/-
  Region 0 (pass 1's pipeline), at the buffer contents V the region is entered with: each window's block at a grid point; the
  accumulator's contents point by point (the per-tile step folded from the zero word); the invariant that carries the accumulator
  between points; the proof data; and the body obligation — the body run at the first, a middle and the last point.
-/
import proofs.«142343_j22625887715845_1_alg».proof.Proof.K.Run0
import proofs.«142343_j22625887715845_1_alg».proof.Proof.Gen.Kernel.Launch
import proofs.«142343_j22625887715845_1_alg».proof.Proof.Gen.Kernel.Skeleton
import proofs.«142343_j22625887715845_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- window w's block at grid point t, read off its array as the region finds it -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- the accumulator after the body at point n: the per-tile step folded from the zero word over points 0 … n -/
def acc0 (c : Dev nD) : (n : ℕ) → n < cfg0.N → Vec F S1x32 .f32
  | 0, hn => step0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (k0_pay3 (F := F))
  | n + 1, hn => step0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (acc0 c n (Nat.lt_of_succ_lt hn))

/-- the accumulator at the first point: the step from the zero word -/
theorem acc0_first (c : Dev nD) (t : Fin cfg0.N) (hz : t.val = 0) :
    acc0 V c t.val t.isLt = step0 (iblk0 V c 0 t) (iblk0 V c 1 t) (iblk0 V c 2 t) (iblk0 V c 3 t) (iblk0 V c 4 t) (iblk0 V c 5 t) (iblk0 V c 6 t) (k0_pay3 (F := F)) := by
  obtain ⟨n, hn⟩ := t
  cases n with
  | zero => rfl
  | succ n => exact absurd hz (Nat.succ_ne_zero n)

/-- the accumulator at a later point: the step from what the point before left -/
theorem acc0_next (c : Dev nD) (t : Fin cfg0.N) (hz : t.val ≠ 0) :
    acc0 V c t.val t.isLt = step0 (iblk0 V c 0 t) (iblk0 V c 1 t) (iblk0 V c 2 t) (iblk0 V c 3 t) (iblk0 V c 4 t) (iblk0 V c 5 t) (iblk0 V c 6 t) (acc0 V c (t.val - 1) (Nat.lt_of_le_of_lt (Nat.sub_le _ _) t.isLt)) := by
  obtain ⟨n, hn⟩ := t
  cases n with
  | zero => exact absurd rfl hz
  | succ n => rfl

/-- the region's invariant before position n: before the first point the class's (the call's scoped rest at anything, the
    generator register); afterwards the accumulator at what the point before left, the other scoped buffers unopened -/
def Phi0 (c : Dev nD) : (n : ℕ) → n ≤ cfg0.N → sProp 𝕄
  | 0, _ => Pipeline.ΦA spec0 c
  | n + 1, hn => iprop(iprop(owns (c : Thread nD τ) sc0 fullShare (acc0 V c n hn) ∗ Pipeline.scopedRestBut (Ix := Unit) (Name := ℕ) (U := UR sig nD τ) (Lvl := ℕ) (Val := Elt F) spec0 c [cc0_scratch0]) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(owns (c : Thread nD τ) sc0 fullShare (acc0 V c n hn) ∗ Pipeline.scopedRestBut (Ix := Unit) (Name := ℕ) (U := UR sig nD τ) (Lvl := ℕ) (Val := Elt F) spec0 c [cc0_scratch0]) ∗ (∃ r, prngReg c r)) := rfl
theorem Phi0_pos (c : Dev nD) (n : ℕ) (h : n ≤ cfg0.N) (hz : n ≠ 0) :
    Phi0 V c n h = iprop(iprop(owns (c : Thread nD τ) sc0 fullShare (acc0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- the proof data of pass 1's pipeline on core c at the entry contents V: each input's buffer at its block; the output's at
    the mean taken from the accumulator (consulted at the last point only); the invariant carrying the accumulator -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay2 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem Phi0_castSucc (c : Dev nD) (t : Fin cfg0.N) : (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = k0_pay2 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- an input window hands its buffer back at its block -/
theorem leaves0_in (c : Dev nD) (w : Fin 8) (hw : w.val < 7) (t : Fin cfg0.N) :
    (dat0 V c).leavesExact w t = owns (c : Thread nD τ) ((cfg0.win w).stage (cfg0.slots t w)) fullShare ((dat0 V c).after w t) := by
  unfold Dat.leavesExact; rw [live0 w t hw]

/-- what the body is called with at point t -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
/-- the body at any point: the inputs' buffers hold their blocks; the point is the first, a middle one or the last; the
    invariant hands the accumulator over at what the point before left (anything at the first point) and takes it back at this
    point's step; the output window is handed back untouched except at the last point, where it gets the mean -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = Phi0 V c (t.val + 1) t.isLt from rfl, Phi0_succ]
  rw [leaves0_in V c 0 (by decide) t, leaves0_in V c 1 (by decide) t, leaves0_in V c 2 (by decide) t, leaves0_in V c 3 (by decide) t, leaves0_in V c 4 (by decide) t, leaves0_in V c 5 (by decide) t, leaves0_in V c 6 (by decide) t,
    after0_0, after0_1, after0_2, after0_3, after0_4, after0_5, after0_6]
  rw [Phi0_castSucc]
  have hN : t.val < 8 := lt_of_lt_of_eq t.isLt (show cfg0.N = 8 from N_0)
  by_cases hz : t.val = 0
  · have hf : first0 (grid0.coords t) := (hfirst0 t).mpr hz
    have hl : ¬last0 (grid0.coords t) := fun h => by have := (hlast0 t).mp h; omega
    rw [Phi0_zero V c _ _ hz, PhiA0_eq, acc0_first V c t hz,
      Dat.leavesExact_idle (dat0 V c) 7 t (idle0_7 t hl) (noFlush0_7 t hl)]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run0_first c (grid0.coords t) _ _ _ _ _ _ _ _ _ _ _ _ _ _ _ _ _ _ hf hl (iblk0 V c 0 t) (iblk0 V c 1 t) (iblk0 V c 2 t) (iblk0 V c 3 t) (iblk0 V c 4 t) (iblk0 V c 5 t) (iblk0 V c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h7 : t.val = 7
    · have hf : ¬first0 (grid0.coords t) := fun h => hz ((hfirst0 t).mp h)
      have hl : last0 (grid0.coords t) := (hlast0 t).mpr h7
      rw [show (dat0 V c).leavesExact 7 t = owns (c : Thread nD τ) (st0_7 t) fullShare ((dat0 V c).after 7 t) from by
        unfold Dat.leavesExact; rw [live0_7 t hl], after0_7]
      rw [Phi0_pos V c _ _ hz, acc0_next V c t hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_last c (grid0.coords t) _ _ _ _ _ _ _ _ _ _ _ _ _ _ _ _ _ _ hf hl (iblk0 V c 0 t) (iblk0 V c 1 t) (iblk0 V c 2 t) (iblk0 V c 3 t) (iblk0 V c 4 t) (iblk0 V c 5 t) (iblk0 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hf : ¬first0 (grid0.coords t) := fun h => hz ((hfirst0 t).mp h)
      have hl : ¬last0 (grid0.coords t) := fun h => h7 ((hlast0 t).mp h)
      rw [Phi0_pos V c _ _ hz, acc0_next V c t hz,
        Dat.leavesExact_idle (dat0 V c) 7 t (idle0_7 t hl) (noFlush0_7 t hl)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_mid c (grid0.coords t) _ _ _ _ _ _ _ _ _ _ _ _ _ _ _ _ _ _ hf hl (iblk0 V c 0 t) (iblk0 V c 1 t) (iblk0 V c 2 t) (iblk0 V c 3 t) (iblk0 V c 4 t) (iblk0 V c 5 t) (iblk0 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- the library's body obligation, at every point -/
theorem body_obligation0 (c : Dev nD) : BodyObligation (dat0 (F := F) V c) (defs₀ (F := F)) Variants.none () Set.univ := fun t => by
  rw [bigSep_W0, bigSep_W0]
  exact sound_body0 V c t

/-- what the launch hands the region is the invariant before the first point -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- after the last point the invariant gives the class's back: the accumulator's contents are forgotten -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 8 := N_0; omega), PhiA0_eq]
  iintro ⟨⟨HS, HR⟩, Hg⟩
  isplitl [HS HR]
  · isplitl [HS]
    · iexists _; iexact HS
    iexact HR
  iexact Hg

end Region0

end Cert.Kernel.Fr

end
-- ==== Proof.K.Run1.lean ====
/-
  Pass 2, one grid point: what the body leaves in its memrefs. The body reads its six inputs, adds the
  column sums of the second layer's output to the accumulator, and only at the last grid point writes the
  accumulator, scaled by 1/8192, into the output window. Three cases by the two tests on the grid
  coordinate: the first point (the accumulator is zeroed before the sum is added), a middle point, the last
  point (the mean is written out). At the first and middle points the output window is handed back at the
  contents it came with.
-/
import proofs.«142343_j22625887715845_1_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- one grid point's update of the accumulator: `s` plus the column sums of this point's block -/
def step1 (x1 : Vec F S1024x64 .f32) (x2 : Vec F S64x128 .f32) (x3 x4 : Vec F S1x128 .f32) (x5 : Vec F S128x128 .f32)
    (x6 : Vec F S1x128 .f32) (s : Vec F S1x128 .f32) : Vec F S1x128 .f32 :=
  k1_pay3 x1 x2 x4 x3 x5 x6 s

set_option maxHeartbeats 4000000 in
/-- the first point: the accumulator, whatever it held, is zeroed and then takes the block's column sums -/
theorem run1_first (c : Dev nD) (i : grid1.Coords)
    (a1 : Memref sig .tc .vmem S1024x64 .f32) (h1 : a1.IsWhole) (a2 : Memref sig .tc .vmem S64x128 .f32) (h2 : a2.IsWhole)
    (a3 : Memref sig .tc .vmem S1x128 .f32) (h3 : a3.IsWhole) (a4 : Memref sig .tc .vmem S1x128 .f32) (h4 : a4.IsWhole)
    (a5 : Memref sig .tc .vmem S128x128 .f32) (h5 : a5.IsWhole) (a6 : Memref sig .tc .vmem S1x128 .f32) (h6 : a6.IsWhole)
    (a7 : Memref sig .tc .vmem S1x128 .f32) (h7 : a7.IsWhole) (a8 : Memref sig .tc .vmem S1x128 .f32) (h8 : a8.IsWhole)
    (hf : first1 i) (hl : ¬last1 i)
    (x1 : Vec F S1024x64 .f32) (x2 : Vec F S64x128 .f32) (x3 : Vec F S1x128 .f32) (x4 : Vec F S1x128 .f32)
    (x5 : Vec F S128x128 .f32) (x6 : Vec F S1x128 .f32) (xo : Vec F S1x128 .f32)
    (E : Set ℕ) (K : PUnit → sProp 𝕄) :
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare xo ∗ (∃ d, owns (c : Thread nD τ) a8 fullShare d)
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5 ∗ owns (c : Thread nD τ) a6 fullShare x6
                ∗ owns (c : Thread nD τ) a7 fullShare xo
                ∗ owns (c : Thread nD τ) a8 fullShare (step1 x1 x2 x3 x4 x5 x6 (k1_pay2 (F := F)))) -∗ K ⟨⟩))
          ⊢ wp frame (wpE (defs₀ (F := F)) Variants.none c none) E (cc1__pass2_kernel i a1 h1 a2 h2 a3 h3 a4 h4 a5 h5 a6 h6 a7 h7 a8 h8) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %fs, %hfs, HS⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6
  sl_exec (disch := first | exact hf | exact hl)
  sl_step
  iapply Hk
  isplitl [H1]
  · iexists _; isplitr
    · ipureintro; exact h1.read_unread _
    · iexact H1
  isplitl [H2]
  · iexists _; isplitr
    · ipureintro; exact h2.read_unread _
    · iexact H2
  isplitl [H3]
  · iexists _; isplitr
    · ipureintro; exact h3.read_unread _
    · iexact H3
  isplitl [H4]
  · iexists _; isplitr
    · ipureintro; exact h4.read_unread _
    · iexact H4
  isplitl [H5]
  · iexists _; isplitr
    · ipureintro; exact h5.read_unread _
    · iexact H5
  isplitl [H6]
  · iexists _; isplitr
    · ipureintro; exact h6.read_unread _
    · iexact H6
  isplitl [H7]
  · iexists f7; isplitr
    · ipureintro; exact hf7
    · iexact H7
  iexists _; isplitr
  swap
  · iexact HS
  ipureintro
  sl_unfold_words
  rw [View.read_writes_eq_canon _ _ _ (View.cover_of_tiled _ S1x128.size (by rfl)), View.canon_cons_unit_zero (S := S1x128) hz2]
  simp only [step1, View.readCov_unit_zero (S := S1x128) _ hz2, View.readAt_eq_ld, h1.read_unread, h2.read_unread, h3.read_unread, h4.read_unread, h5.read_unread, h6.read_unread,
    View.ld_unit_zero (S := S1024x64) hz2, View.ld_unit_zero (S := S64x128) hz2, View.ld_unit_zero (S := S1x128) hz2, View.ld_unit_zero (S := S128x128) hz2]

set_option maxHeartbeats 4000000 in
/-- a middle point: the accumulator takes the block's column sums -/
theorem run1_mid (c : Dev nD) (i : grid1.Coords)
    (a1 : Memref sig .tc .vmem S1024x64 .f32) (h1 : a1.IsWhole) (a2 : Memref sig .tc .vmem S64x128 .f32) (h2 : a2.IsWhole)
    (a3 : Memref sig .tc .vmem S1x128 .f32) (h3 : a3.IsWhole) (a4 : Memref sig .tc .vmem S1x128 .f32) (h4 : a4.IsWhole)
    (a5 : Memref sig .tc .vmem S128x128 .f32) (h5 : a5.IsWhole) (a6 : Memref sig .tc .vmem S1x128 .f32) (h6 : a6.IsWhole)
    (a7 : Memref sig .tc .vmem S1x128 .f32) (h7 : a7.IsWhole) (a8 : Memref sig .tc .vmem S1x128 .f32) (h8 : a8.IsWhole)
    (hf : ¬first1 i) (hl : ¬last1 i)
    (x1 : Vec F S1024x64 .f32) (x2 : Vec F S64x128 .f32) (x3 : Vec F S1x128 .f32) (x4 : Vec F S1x128 .f32)
    (x5 : Vec F S128x128 .f32) (x6 : Vec F S1x128 .f32) (xo xs : Vec F S1x128 .f32)
    (E : Set ℕ) (K : PUnit → sProp 𝕄) :
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare xo ∗ owns (c : Thread nD τ) a8 fullShare xs
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5 ∗ owns (c : Thread nD τ) a6 fullShare x6
                ∗ owns (c : Thread nD τ) a7 fullShare xo
                ∗ owns (c : Thread nD τ) a8 fullShare (step1 x1 x2 x3 x4 x5 x6 xs)) -∗ K ⟨⟩))
          ⊢ wp frame (wpE (defs₀ (F := F)) Variants.none c none) E (cc1__pass2_kernel i a1 h1 a2 h2 a3 h3 a4 h4 a5 h5 a6 h6 a7 h7 a8 h8) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h8.eq_unread hfs
  sl_exec (disch := first | exact hf | exact hl)
  sl_step
  iapply Hk
  isplitl [H1]
  · iexists _; isplitr
    · ipureintro; exact h1.read_unread _
    · iexact H1
  isplitl [H2]
  · iexists _; isplitr
    · ipureintro; exact h2.read_unread _
    · iexact H2
  isplitl [H3]
  · iexists _; isplitr
    · ipureintro; exact h3.read_unread _
    · iexact H3
  isplitl [H4]
  · iexists _; isplitr
    · ipureintro; exact h4.read_unread _
    · iexact H4
  isplitl [H5]
  · iexists _; isplitr
    · ipureintro; exact h5.read_unread _
    · iexact H5
  isplitl [H6]
  · iexists _; isplitr
    · ipureintro; exact h6.read_unread _
    · iexact H6
  isplitl [H7]
  · iexists f7; isplitr
    · ipureintro; exact hf7
    · iexact H7
  iexists _; isplitr
  swap
  · iexact HS
  ipureintro
  rw [View.read_writes_eq_canon _ _ _ (View.cover_of_tiled _ S1x128.size (by rfl)), View.canon_unit_zero hz2]
  simp only [step1, View.readAt_eq_ld, h1.read_unread, h2.read_unread, h3.read_unread, h4.read_unread, h5.read_unread, h6.read_unread, h8.read_unread,
    View.ld_unit_zero (S := S1024x64) hz2, View.ld_unit_zero (S := S64x128) hz2, View.ld_unit_zero (S := S1x128) hz2, View.ld_unit_zero (S := S128x128) hz2]

set_option maxHeartbeats 4000000 in
/-- the last point: the accumulator takes the block's column sums, and the output window takes the mean -/
theorem run1_last (c : Dev nD) (i : grid1.Coords)
    (a1 : Memref sig .tc .vmem S1024x64 .f32) (h1 : a1.IsWhole) (a2 : Memref sig .tc .vmem S64x128 .f32) (h2 : a2.IsWhole)
    (a3 : Memref sig .tc .vmem S1x128 .f32) (h3 : a3.IsWhole) (a4 : Memref sig .tc .vmem S1x128 .f32) (h4 : a4.IsWhole)
    (a5 : Memref sig .tc .vmem S128x128 .f32) (h5 : a5.IsWhole) (a6 : Memref sig .tc .vmem S1x128 .f32) (h6 : a6.IsWhole)
    (a7 : Memref sig .tc .vmem S1x128 .f32) (h7 : a7.IsWhole) (a8 : Memref sig .tc .vmem S1x128 .f32) (h8 : a8.IsWhole)
    (hf : ¬first1 i) (hl : last1 i)
    (x1 : Vec F S1024x64 .f32) (x2 : Vec F S64x128 .f32) (x3 : Vec F S1x128 .f32) (x4 : Vec F S1x128 .f32)
    (x5 : Vec F S128x128 .f32) (x6 : Vec F S1x128 .f32) (xs : Vec F S1x128 .f32)
    (E : Set ℕ) (K : PUnit → sProp 𝕄) :
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ (∃ d, owns (c : Thread nD τ) a7 fullShare d) ∗ owns (c : Thread nD τ) a8 fullShare xs
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5 ∗ owns (c : Thread nD τ) a6 fullShare x6
                ∗ owns (c : Thread nD τ) a7 fullShare (k1_pay1 (step1 x1 x2 x3 x4 x5 x6 xs))
                ∗ owns (c : Thread nD τ) a8 fullShare (step1 x1 x2 x3 x4 x5 x6 xs)) -∗ K ⟨⟩))
          ⊢ wp frame (wpE (defs₀ (F := F)) Variants.none c none) E (cc1__pass2_kernel i a1 h1 a2 h2 a3 h3 a4 h4 a5 h5 a6 h6 a7 h7 a8 h8) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%fs, %hfs, HS⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h8.eq_unread hfs
  sl_exec (disch := first | exact hf | exact hl)
  sl_step
  iapply Hk
  isplitl [H1]
  · iexists _; isplitr
    · ipureintro; exact h1.read_unread _
    · iexact H1
  isplitl [H2]
  · iexists _; isplitr
    · ipureintro; exact h2.read_unread _
    · iexact H2
  isplitl [H3]
  · iexists _; isplitr
    · ipureintro; exact h3.read_unread _
    · iexact H3
  isplitl [H4]
  · iexists _; isplitr
    · ipureintro; exact h4.read_unread _
    · iexact H4
  isplitl [H5]
  · iexists _; isplitr
    · ipureintro; exact h5.read_unread _
    · iexact H5
  isplitl [H6]
  · iexists _; isplitr
    · ipureintro; exact h6.read_unread _
    · iexact H6
  isplitl [H7]
  · iexists _; isplitr
    swap
    · iexact H7
    ipureintro
    sl_unfold_words
    rw [View.read_writes_eq_canon _ _ _ (View.cover_of_tiled _ S1x128.size (by rfl)), View.canon_unit_zero (S := S1x128) hz2]
    simp only [step1, View.readCov_unit_zero (S := S1x128) _ hz2, View.readAt_eq_ld, h1.read_unread, h2.read_unread, h3.read_unread, h4.read_unread, h5.read_unread, h6.read_unread, h8.read_unread,
    View.ld_unit_zero (S := S1024x64) hz2, View.ld_unit_zero (S := S64x128) hz2, View.ld_unit_zero (S := S1x128) hz2, View.ld_unit_zero (S := S128x128) hz2]
  iexists _; isplitr
  swap
  · iexact HS
  ipureintro
  sl_unfold_words
  rw [View.read_writes_eq_canon _ _ _ (View.cover_of_tiled _ S1x128.size (by rfl)), View.canon_unit_zero (S := S1x128) hz2]
  simp only [step1, View.readCov_unit_zero (S := S1x128) _ hz2, View.readAt_eq_ld, h1.read_unread, h2.read_unread, h3.read_unread, h4.read_unread, h5.read_unread, h6.read_unread, h8.read_unread,
    View.ld_unit_zero (S := S1024x64) hz2, View.ld_unit_zero (S := S64x128) hz2, View.ld_unit_zero (S := S1x128) hz2, View.ld_unit_zero (S := S128x128) hz2]

end Cert.Kernel.Fr

end
-- ==== Proof.K.Reg1.lean ====
/-
  Pass 2's pipeline (region 1) on one core, at the buffer contents V the region is entered with: its proof data
  and the body obligation.

  The pipeline has seven windows. Windows 0 … 5 are inputs: the block of 1024 rows of states of the current grid
  point, and the five weight and bias arrays, whole. Window 6 is the output, one row of 128 numbers, written only at
  the last of the eight grid points. A scratch row, the accumulator, lives across the points: the first point zeroes
  it and adds its block's column sums, every later point adds its own, and the last point also writes the accumulator
  times 2^-13 to the output window. So the accumulator after point n is the per-point step folded from the zero row
  over the points 0 … n, and the region's invariant before point n + 1 says exactly that, the other scoped buffers and
  the generator register untouched. Each input's buffer holds its block of V's array at every point; the output
  window's buffer is handed back as it came except at the last point.
-/
import proofs.«142343_j22625887715845_1_alg».proof.Proof.K.Run1
import proofs.«142343_j22625887715845_1_alg».proof.Proof.Gen.Kernel.Launch
import proofs.«142343_j22625887715845_1_alg».proof.Proof.Gen.Kernel.Skeleton
import proofs.«142343_j22625887715845_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- window w's block at grid point t, read off its array as the region finds it -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- an input window's buffer holds, before the body at any point, the block of its array: whatever proof data agree with V on
    that array and put the block in the buffer after each point -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- the accumulator after the body at point n: the per-point step folded from the zero row over points 0 … n -/
def acc1 (c : Dev nD) : (n : ℕ) → n < cfg1.N → Vec F S1x128 .f32
  | 0, hn => step1 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (k1_pay2 (F := F))
  | n + 1, hn => step1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (acc1 c n (Nat.lt_of_succ_lt hn))

/-- the accumulator at the first point: the step from the zero row -/
theorem acc1_first (c : Dev nD) (t : Fin cfg1.N) (hz : t.val = 0) :
    acc1 V c t.val t.isLt = step1 (iblk1 V c 0 t) (iblk1 V c 1 t) (iblk1 V c 2 t) (iblk1 V c 3 t) (iblk1 V c 4 t) (iblk1 V c 5 t) (k1_pay2 (F := F)) := by
  obtain ⟨n, hn⟩ := t
  cases n with
  | zero => rfl
  | succ n => exact absurd hz (Nat.succ_ne_zero n)

/-- the accumulator at a later point: the step from what the point before left -/
theorem acc1_next (c : Dev nD) (t : Fin cfg1.N) (hz : t.val ≠ 0) :
    acc1 V c t.val t.isLt = step1 (iblk1 V c 0 t) (iblk1 V c 1 t) (iblk1 V c 2 t) (iblk1 V c 3 t) (iblk1 V c 4 t) (iblk1 V c 5 t) (acc1 V c (t.val - 1) (Nat.lt_of_le_of_lt (Nat.sub_le _ _) t.isLt)) := by
  obtain ⟨n, hn⟩ := t
  cases n with
  | zero => exact absurd rfl hz
  | succ n => rfl

/-- the region's invariant before position n: before the first point the class's (the call's scoped rest at anything, the
    generator register); afterwards the accumulator at what the point before left, the other scoped buffers unopened -/
def Phi1 (c : Dev nD) : (n : ℕ) → n ≤ cfg1.N → sProp 𝕄
  | 0, _ => Pipeline.ΦA spec1 c
  | n + 1, hn => iprop(iprop(owns (c : Thread nD τ) sc1 fullShare (acc1 V c n hn) ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) sc1 fullShare (acc1 V c n hn) ∗ Pipeline.scopedRestBut (Ix := Unit) (Name := ℕ) (U := UR sig nD τ) (Lvl := ℕ) (Val := Elt F) spec1 c [cc1_scratch0]) ∗ (∃ r, prngReg c r)) := rfl
theorem Phi1_pos (c : Dev nD) (n : ℕ) (h : n ≤ cfg1.N) (hz : n ≠ 0) :
    Phi1 V c n h = iprop(iprop(owns (c : Thread nD τ) sc1 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- the proof data of pass 2's pipeline on core c at the entry contents V: each input's buffer at its block; the output's at
    the mean taken from the accumulator (consulted at the last point only); the invariant carrying the accumulator -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay1 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem Phi1_castSucc (c : Dev nD) (t : Fin cfg1.N) : (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay1 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- an input window hands its buffer back at its block -/
theorem leaves1_in (c : Dev nD) (w : Fin 7) (hw : w.val < 6) (t : Fin cfg1.N) :
    (dat1 V c).leavesExact w t = owns (c : Thread nD τ) ((cfg1.win w).stage (cfg1.slots t w)) fullShare ((dat1 V c).after w t) := by
  unfold Dat.leavesExact; rw [live1 w t hw]

/-- what the body is called with at point t -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- the body at any point: the inputs' buffers hold their blocks; the point is the first, a middle one or the last; the
    invariant hands the accumulator over at what the point before left (anything at the first point) and takes it back at this
    point's step; the output window is handed back untouched except at the last point, where it gets the mean -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [leaves1_in V c 0 (by decide) t, leaves1_in V c 1 (by decide) t, leaves1_in V c 2 (by decide) t, leaves1_in V c 3 (by decide) t, leaves1_in V c 4 (by decide) t, leaves1_in V c 5 (by decide) t,
    after1_0, after1_1, after1_2, after1_3, after1_4, after1_5]
  rw [Phi1_castSucc]
  have hN : t.val < 8 := lt_of_lt_of_eq t.isLt (show cfg1.N = 8 from N_1)
  by_cases hz : t.val = 0
  · -- the first point: the accumulator comes at anything and leaves at the step from the zero row
    have hf : first1 (grid1.coords t) := (hfirst1 t).mpr hz
    have hl : ¬last1 (grid1.coords t) := fun h => by have := (hlast1 t).mp h; omega
    rw [Phi1_zero V c _ _ hz, PhiA1_eq, acc1_first V c t hz,
      Dat.leavesExact_idle (dat1 V c) 6 t (idle1_6 t hl) (noFlush1_6 t hl)]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run1_first c (grid1.coords t) _ _ _ _ _ _ _ _ _ _ _ _ _ _ _ _ hf hl (iblk1 V c 0 t) (iblk1 V c 1 t) (iblk1 V c 2 t) (iblk1 V c 3 t) (iblk1 V c 4 t) (iblk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h7 : t.val = 7
    · -- the last point: the accumulator takes its step and the output window takes the mean
      have hf : ¬first1 (grid1.coords t) := fun h => hz ((hfirst1 t).mp h)
      have hl : last1 (grid1.coords t) := (hlast1 t).mpr h7
      rw [show (dat1 V c).leavesExact 6 t = owns (c : Thread nD τ) (st1_6 t) fullShare ((dat1 V c).after 6 t) from by
        unfold Dat.leavesExact; rw [live1_6 t hl], after1_6]
      rw [Phi1_pos V c _ _ hz, acc1_next V c t hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_last c (grid1.coords t) _ _ _ _ _ _ _ _ _ _ _ _ _ _ _ _ hf hl (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point: the accumulator takes its step, the output window is handed back as it came
      have hf : ¬first1 (grid1.coords t) := fun h => hz ((hfirst1 t).mp h)
      have hl : ¬last1 (grid1.coords t) := fun h => h7 ((hlast1 t).mp h)
      rw [Phi1_pos V c _ _ hz, acc1_next V c t hz,
        Dat.leavesExact_idle (dat1 V c) 6 t (idle1_6 t hl) (noFlush1_6 t hl)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_mid c (grid1.coords t) _ _ _ _ _ _ _ _ _ _ _ _ _ _ _ _ hf hl (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- the library's body obligation, at every point -/
theorem body_obligation1 (c : Dev nD) : BodyObligation (dat1 (F := F) V c) (defs₀ (F := F)) Variants.none () Set.univ := fun t => by
  rw [bigSep_W1, bigSep_W1]
  exact sound_body1 V c t

/-- what the launch hands the region is the invariant before the first point -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- after the last point the invariant gives the class's back: the accumulator's contents are forgotten -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 8 := N_1; omega), PhiA1_eq]
  iintro ⟨⟨HS, HR⟩, Hg⟩
  isplitl [HS HR]
  · isplitl [HS]
    · iexists _; iexact HS
    iexact HR
  iexact Hg

end Region1

end Cert.Kernel.Fr

end
-- ==== Proof.K.Run2.lean ====
/-
  Pass 3, one grid point: what the body leaves in its memrefs. The body has no test: it reads its eight
  inputs, normalizes the rows of the block shifted by the mean row, and stores four results, each over
  the whole of its output window: the normalized block, the first head's activations, the second head's
  column, and the third head's row-wise softmax. Each output window is read once before it is stored; the
  value read is not used.
-/
import proofs.«142343_j22625887715845_1_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- one grid point of pass 3: the four output windows, whatever they held, take the four results -/
theorem run2 (c : Dev nD) (i : grid2.Coords)
    (a1 : Memref sig .tc .vmem S1x128 .f32) (h1 : a1.IsWhole) (a2 : Memref sig .tc .vmem S1024x128 .f32) (h2 : a2.IsWhole)
    (a3 : Memref sig .tc .vmem S128x8 .f32) (h3 : a3.IsWhole) (a4 : Memref sig .tc .vmem S1x8 .f32) (h4 : a4.IsWhole)
    (a5 : Memref sig .tc .vmem S128x1 .f32) (h5 : a5.IsWhole) (a6 : Memref sig .tc .vmem S1x1 .f32) (h6 : a6.IsWhole)
    (a7 : Memref sig .tc .vmem S128x3 .f32) (h7 : a7.IsWhole) (a8 : Memref sig .tc .vmem S1x3 .f32) (h8 : a8.IsWhole)
    (a9 : Memref sig .tc .vmem S1024x128 .f32) (h9 : a9.IsWhole) (a10 : Memref sig .tc .vmem S1024x8 .f32) (h10 : a10.IsWhole)
    (a11 : Memref sig .tc .vmem S1024x1 .f32) (h11 : a11.IsWhole) (a12 : Memref sig .tc .vmem S1024x3 .f32) (h12 : a12.IsWhole)
    (x1 : Vec F S1x128 .f32) (x2 : Vec F S1024x128 .f32)
    (x3 : Vec F S128x8 .f32) (x4 : Vec F S1x8 .f32)
    (x5 : Vec F S128x1 .f32) (x6 : Vec F S1x1 .f32)
    (x7 : Vec F S128x3 .f32) (x8 : Vec F S1x3 .f32)
    (E : Set ℕ) (K : PUnit → sProp 𝕄) :
        iprop(owns (c : Thread nD τ) a1 fullShare x1 ∗ owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7 ∗ owns (c : Thread nD τ) a8 fullShare x8
            ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
            ∗ (iprop(owns (c : Thread nD τ) a1 fullShare x1 ∗ owns (c : Thread nD τ) a2 fullShare x2 ∗ owns (c : Thread nD τ) a3 fullShare x3 ∗ owns (c : Thread nD τ) a4 fullShare x4
                ∗ owns (c : Thread nD τ) a5 fullShare x5 ∗ owns (c : Thread nD τ) a6 fullShare x6 ∗ owns (c : Thread nD τ) a7 fullShare x7 ∗ owns (c : Thread nD τ) a8 fullShare x8
                ∗ owns (c : Thread nD τ) a9 fullShare (k2_pay2 x2 x1)
                ∗ owns (c : Thread nD τ) a10 fullShare (k2_pay4 x2 x1 x3 x4)
                ∗ owns (c : Thread nD τ) a11 fullShare (k2_pay5 x2 x1 x5 x6)
                ∗ owns (c : Thread nD τ) a12 fullShare (k2_pay1 (k2_pay3 x2 x1) x7 x8)) -∗ K ⟨⟩))
          ⊢ wp frame (wpE (defs₀ (F := F)) Variants.none c none) E (cc2__pass3_kernel i a1 h1 a2 h2 a3 h3 a4 h4 a5 h5 a6 h6 a7 h7 a8 h8 a9 h9 a10 h10 a11 h11 a12 h12) K := by
  simp only [cc2__pass3_kernel_eq_skeleton]; unfold cc2__pass3_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, ⟨%d11, %f11, %hf11, H11⟩, ⟨%d12, %f12, %hf12, H12⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h7.eq_unread hf7; obtain rfl := h8.eq_unread hf8
  sl_exec
  sl_step
  iapply Hk
  isplitl [H1]
  · iexists _; isplitr
    · ipureintro; exact h1.read_unread _
    · iexact H1
  isplitl [H2]
  · iexists _; isplitr
    · ipureintro; exact h2.read_unread _
    · iexact H2
  isplitl [H3]
  · iexists _; isplitr
    · ipureintro; exact h3.read_unread _
    · iexact H3
  isplitl [H4]
  · iexists _; isplitr
    · ipureintro; exact h4.read_unread _
    · iexact H4
  isplitl [H5]
  · iexists _; isplitr
    · ipureintro; exact h5.read_unread _
    · iexact H5
  isplitl [H6]
  · iexists _; isplitr
    · ipureintro; exact h6.read_unread _
    · iexact H6
  isplitl [H7]
  · iexists _; isplitr
    · ipureintro; exact h7.read_unread _
    · iexact H7
  isplitl [H8]
  · iexists _; isplitr
    · ipureintro; exact h8.read_unread _
    · iexact H8
  isplitl [H9]
  · iexists _; isplitr
    swap
    · iexact H9
    ipureintro
    sl_unfold_words
    rw [View.read_writes_eq_canon _ _ _ (View.cover_of_tiled _ S1024x128.size (by rfl)), View.canon_unit_zero (S := S1024x128) hz2]
    simp only [View.readAt_eq_ld, h1.read_unread, h2.read_unread, h3.read_unread, h4.read_unread, h5.read_unread, h6.read_unread, h7.read_unread, h8.read_unread,
      View.ld_unit_zero (S := S1x128) hz2, View.ld_unit_zero (S := S1024x128) hz2, View.ld_unit_zero (S := S128x8) hz2, View.ld_unit_zero (S := S1x8) hz2, View.ld_unit_zero (S := S128x1) hz2, View.ld_unit_zero (S := S1x1) hz2, View.ld_unit_zero (S := S128x3) hz2, View.ld_unit_zero (S := S1x3) hz2]
  isplitl [H10]
  · iexists _; isplitr
    swap
    · iexact H10
    ipureintro
    sl_unfold_words
    rw [View.read_writes_eq_canon _ _ _ (View.cover_of_tiled _ S1024x8.size (by rfl)), View.canon_unit_zero (S := S1024x8) hz2]
    simp only [View.readAt_eq_ld, h1.read_unread, h2.read_unread, h3.read_unread, h4.read_unread, h5.read_unread, h6.read_unread, h7.read_unread, h8.read_unread,
      View.ld_unit_zero (S := S1x128) hz2, View.ld_unit_zero (S := S1024x128) hz2, View.ld_unit_zero (S := S128x8) hz2, View.ld_unit_zero (S := S1x8) hz2, View.ld_unit_zero (S := S128x1) hz2, View.ld_unit_zero (S := S1x1) hz2, View.ld_unit_zero (S := S128x3) hz2, View.ld_unit_zero (S := S1x3) hz2]
  isplitl [H11]
  · iexists _; isplitr
    swap
    · iexact H11
    ipureintro
    sl_unfold_words
    rw [View.read_writes_eq_canon _ _ _ (View.cover_of_tiled _ S1024x1.size (by rfl)), View.canon_unit_zero (S := S1024x1) hz2]
    simp only [View.readAt_eq_ld, h1.read_unread, h2.read_unread, h3.read_unread, h4.read_unread, h5.read_unread, h6.read_unread, h7.read_unread, h8.read_unread,
      View.ld_unit_zero (S := S1x128) hz2, View.ld_unit_zero (S := S1024x128) hz2, View.ld_unit_zero (S := S128x8) hz2, View.ld_unit_zero (S := S1x8) hz2, View.ld_unit_zero (S := S128x1) hz2, View.ld_unit_zero (S := S1x1) hz2, View.ld_unit_zero (S := S128x3) hz2, View.ld_unit_zero (S := S1x3) hz2]
  iexists _; isplitr
  swap
  · iexact H12
  ipureintro
  sl_unfold_words
  rw [View.read_writes_eq_canon _ _ _ (View.cover_of_tiled _ S1024x3.size (by rfl)), View.canon_unit_zero (S := S1024x3) hz2]
  simp only [View.readAt_eq_ld, h1.read_unread, h2.read_unread, h3.read_unread, h4.read_unread, h5.read_unread, h6.read_unread, h7.read_unread, h8.read_unread,
    View.ld_unit_zero (S := S1x128) hz2, View.ld_unit_zero (S := S1024x128) hz2, View.ld_unit_zero (S := S128x8) hz2, View.ld_unit_zero (S := S1x8) hz2, View.ld_unit_zero (S := S128x1) hz2, View.ld_unit_zero (S := S1x1) hz2, View.ld_unit_zero (S := S128x3) hz2, View.ld_unit_zero (S := S1x3) hz2]

end Cert.Kernel.Fr

end
-- ==== Proof.K.Reg2.lean ====
/-
  Pass 3's pipeline (region 2), the frame half: the proof data of its twelve windows on one core, at the
  contents V the core's arrays hold when the region is entered, and the body's obligation at every grid
  point. The eight input windows hold their blocks of the arrays; the four output windows are stored whole by
  every point and written back at every point, so what a point leaves in each is a function of that point's
  input blocks alone. The region carries no accumulator: its invariant is the same before and after every
  point. No window is ever idle.
-/
import proofs.«142343_j22625887715845_1_alg».proof.Proof.K.Run2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- window w's block at grid point t, read off its array as the region finds it -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window whose buffer the body leaves at its block holds that block wherever the body is handed it,
    fetched there or not: for any proof data over these arrays whose `after` at the window is the block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- the proof data of pass 3's pipeline on core c at the entry contents V: each input's buffer at its block; each
    output's at the body's result from this point's input blocks; the invariant is the region's own, unchanged -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => k2_pay2 (iblk2 V c 1 t) (iblk2 V c 0 t)
    | ⟨9, _⟩ => k2_pay4 (iblk2 V c 1 t) (iblk2 V c 0 t) (iblk2 V c 2 t) (iblk2 V c 3 t)
    | ⟨10, _⟩ => k2_pay5 (iblk2 V c 1 t) (iblk2 V c 0 t) (iblk2 V c 4 t) (iblk2 V c 5 t)
    | ⟨11, _⟩ => k2_pay1 (k2_pay3 (iblk2 V c 1 t) (iblk2 V c 0 t)) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = k2_pay2 (iblk2 V c 1 t) (iblk2 V c 0 t) := by dsimp only [dat2]
theorem after2_9 (c : Dev nD) (t : Fin cfg2.N) : (dat2 V c).after 9 t = k2_pay4 (iblk2 V c 1 t) (iblk2 V c 0 t) (iblk2 V c 2 t) (iblk2 V c 3 t) := by dsimp only [dat2]
theorem after2_10 (c : Dev nD) (t : Fin cfg2.N) : (dat2 V c).after 10 t = k2_pay5 (iblk2 V c 1 t) (iblk2 V c 0 t) (iblk2 V c 4 t) (iblk2 V c 5 t) := by dsimp only [dat2]
theorem after2_11 (c : Dev nD) (t : Fin cfg2.N) : (dat2 V c).after 11 t = k2_pay1 (k2_pay3 (iblk2 V c 1 t) (iblk2 V c 0 t)) (iblk2 V c 6 t) (iblk2 V c 7 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- every window hands its buffer back at what the body leaves in it: none is idle at any point -/
theorem leaves2 (c : Dev nD) (w : Fin 12) (t : Fin cfg2.N) :
    (dat2 V c).leavesExact w t = owns (c : Thread nD τ) ((cfg2.win w).stage (cfg2.slots t w)) fullShare ((dat2 V c).after w t) := by
  unfold Dat.leavesExact; rw [live2 w t]

/-- what the body is called with at point t -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d)))

/-- and what it returns -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t)

set_option maxHeartbeats 4000000 in
/-- the body at any point: the inputs' buffers hold their blocks and come back unchanged; the four outputs' buffers,
    whatever they held, come back at the body's results from those blocks; the invariant passes through unread -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = (dat2 V c).Φ t.castSucc from rfl]
  rw [leaves2 V c 0 t, leaves2 V c 1 t, leaves2 V c 2 t, leaves2 V c 3 t, leaves2 V c 4 t, leaves2 V c 5 t, leaves2 V c 6 t, leaves2 V c 7 t, leaves2 V c 8 t, leaves2 V c 9 t, leaves2 V c 10 t, leaves2 V c 11 t,
    after2_0, after2_1, after2_2, after2_3, after2_4, after2_5, after2_6, after2_7, after2_8, after2_9, after2_10, after2_11]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run2 c (grid2.coords t) _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- the library's body obligation, at every point -/
theorem body_obligation2 (c : Dev nD) : BodyObligation (dat2 (F := F) V c) (defs₀ (F := F)) Variants.none () Set.univ := fun t => by
  rw [bigSep_W2, bigSep_W2]
  exact sound_body2 V c t

end Region2

end Cert.Kernel.Fr

end
-- ==== Proof.K.Frame.lean ====
/-
  The run of @main as seven items — a stretch of host operations, pass 1's region, a host product, pass 2's region, two
  more stretches, pass 3's region — with the buffer contents at every boundary NAMED: a stretch leaves its operations'
  results, a region leaves its arrays at what its pipeline writes back. The launch then reads, off the last boundary, the four
  result arrays and the sixteen argument arrays.
-/
import proofs.«142343_j22625887715845_1_alg».proof.Proof.K.Reg0
import proofs.«142343_j22625887715845_1_alg».proof.Proof.K.Reg1
import proofs.«142343_j22625887715845_1_alg».proof.Proof.K.Reg2
import proofs.«142343_j22625887715845_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- core c's buffers at launch -/
abbrev B0 (c : Dev nD) : Valuation τ sig (Elt F) := fun b => m (c, b)
/-- after the first host stretch (the two halves of the first weight matrix, the biases as rows) -/
abbrev B1 (c : Dev nD) : Valuation τ sig (Elt F) := StableHlo.after hostOps0 (B0 m c)
abbrev E1 : (c : Dev nD) → (b : Ref sig .tc) → Buf (Elt F) ((c : Thread nD τ).loc b) := fun c b => B1 m c b

/-- at region 0's exit: its arrays at what the pipeline leaves (an input as entered, an output's write-backs folded), every
    other buffer as entered -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- after the host product of the mean message with the lower half of the first weight matrix -/
abbrev B3 (c : Dev nD) : Valuation τ sig (Elt F) := StableHlo.after hostOps1 (B2 m c)
abbrev E3 : (c : Dev nD) → (b : Ref sig .tc) → Buf (Elt F) ((c : Thread nD τ).loc b) := fun c b => B3 m c b

/-- at region 1's exit: its arrays at what the pipeline leaves (an input as entered, an output's write-backs folded), every
    other buffer as entered -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- after the graph layer's product and bias, then its rectifier -/
abbrev B5 (c : Dev nD) : Valuation τ sig (Elt F) := StableHlo.after hostOps2 (B4 m c)
abbrev B6 (c : Dev nD) : Valuation τ sig (Elt F) := StableHlo.after hostOps2_1 (B5 m c)
abbrev E6 : (c : Dev nD) → (b : Ref sig .tc) → Buf (Elt F) ((c : Thread nD τ).loc b) := fun c b => B6 m c b

/-- at region 2's exit: its arrays at what the pipeline leaves (an input as entered, an output's write-backs folded), every
    other buffer as entered -/
def B7 (c : Dev nD) : Valuation τ sig (Elt F) :=
  Pipeline.withArrays spec2 c (B6 m c) fun w => (dat2 (E6 m) c).arrAt w cfg2.N
theorem B7_arr (c : Dev nD) (w : Fin cfg2.W) :
    B7 m c (Proc.devRef .tc (Pipeline.arrRef spec2 w)) = (dat2 (E6 m) c).arrAt w cfg2.N := by
  unfold B7; exact Pipeline.withArrays_arr spec2 launch2.win.arr_inj c _ _ w
theorem B7_of_ne (c : Dev nD) (b : Ref sig .tc) (hb : ∀ w, Pipeline.arrRef spec2 w ≠ b) :
    B7 m c (Proc.devRef .tc b) = B6 m c (Proc.devRef .tc b) := by
  unfold B7; exact Pipeline.withArrays_of_ne spec2 c _ _ b hb
abbrev E7 : (c : Dev nD) → (b : Ref sig .tc) → Buf (Elt F) ((c : Thread nD τ).loc b) := fun c b => B7 m c b
theorem hF2 (c : Dev nD) (w : Fin cfg2.W) : (dat2 (E6 m) c).arrAt w cfg2.N = E7 m c (Pipeline.arrRef spec2 w) :=
  (B7_arr m c w).symm
theorem hrest2 (c : Dev nD) : ∀ b, b ∉ Finset.univ.image (Pipeline.arrRef spec2) → E7 m c b = E6 m c b :=
  fun b hb => B7_of_ne m c b fun w e => hb (Finset.mem_image.mpr ⟨w, Finset.mem_univ _, e⟩)

/-! ## The proof data family and the thread state -/

/-- every pipeline's proof data, each at its region's entry contents -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E6 m) c
abbrev 𝒱n : Variants := Variants.none
/-- no core owes another anything: no level is assigned -/
abbrev Ln : GSem nD τ sig → Finset Unit := fun _ => ∅
abbrev lvn : GSem nD τ sig → Unit → ℕ := fun _ _ => 0
/-- what rides beside the buffers through every item: the generator register at some state, and the core owing nothing -/
abbrev Rr (c : Dev nD) : sProp 𝕄 := iprop((∃ r, prngReg c r) ∗ ∃ W, owes (c : Thread nD τ) (0 : CellTallies nD τ sig Unit) W)
/-- a host stretch as a segment from the contents W -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- the last thread state without the owes: every unscoped buffer at the last boundary's contents, the generator register -/
abbrev Tn (c : Dev nD) : sProp 𝕄 := iprop(StableHlo.held (c : Thread nD τ) (Pipeline.ucRefs τ sig) (B7 m c) ∗ ∃ r, prngReg c r)

/-! ## The regions as segments -/

set_option backward.isDefEq.respectTransparency.types false in
/-- region 0 over the thread state: entered with every unscoped buffer at the contents before it, left with the
    region's arrays at what the pipeline leaves and every other buffer as entered; the generator register into the
    invariant and out; nothing owed; no semaphore of the kernel's own -/
def reg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Ln lvn 0 fun _ _ => rfl
  pre c := iprop(StableHlo.held (c : Thread nD τ) (Pipeline.ucRefs τ sig) (B1 m c) ∗ Rr c)
  post c := iprop(StableHlo.held (c : Thread nD τ) (Pipeline.ucRefs τ sig) (B2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (E1 m) c)
    unfold Pipeline.ΦA
    iintro ⟨Hp, -, Hr⟩
    isplitl [Hr]; · iexact Hr
    iexact Hp
  hout c := by
    rw [Pipeline.ownSems0_none]
    refine (hout0 (E1 m) c).trans (show Pipeline.ΦA spec0 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- region 1 over the thread state: entered with every unscoped buffer at the contents before it, left with the
    region's arrays at what the pipeline leaves and every other buffer as entered; the generator register into the
    invariant and out; nothing owed; no semaphore of the kernel's own -/
def reg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Ln lvn 1 fun _ _ => rfl
  pre c := iprop(StableHlo.held (c : Thread nD τ) (Pipeline.ucRefs τ sig) (B3 m c) ∗ Rr c)
  post c := iprop(StableHlo.held (c : Thread nD τ) (Pipeline.ucRefs τ sig) (B4 m c) ∗ Rr c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (E3 m) c)
    unfold Pipeline.ΦA
    iintro ⟨Hp, -, Hr⟩
    isplitl [Hr]; · iexact Hr
    iexact Hp
  hout c := by
    rw [Pipeline.ownSems0_none]
    refine (hout1 (E3 m) c).trans (show Pipeline.ΦA spec1 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- region 2 over the thread state: entered with every unscoped buffer at the contents before it, left with the
    region's arrays at what the pipeline leaves and every other buffer as entered; the generator register into the
    invariant and out; nothing owed; no semaphore of the kernel's own -/
def reg2 : Pipeline.RegionSeg (pcfgs (F := F)) adm (pdats m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (E6 m) c).loose
  hwaits := Pipeline.hwaits_of_owed_zero _ _ _ _ Ln lvn 2 fun _ _ => rfl
  pre c := iprop(StableHlo.held (c : Thread nD τ) (Pipeline.ucRefs τ sig) (B6 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E6 m c) (E7 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## What each item leaves unchanged -/

theorem B1_of (c : Dev nD) (r : Ref sig .tc) (h : r ∉ hostOps0_W) : B1 m c (Proc.devRef .tc r) = B0 m c (Proc.devRef .tc r) :=
  StableHlo.after_of_writes_sub hostOps0 _ hostOps0_writes h
theorem B3_of (c : Dev nD) (r : Ref sig .tc) (h : r ∉ hostOps1_W) : B3 m c (Proc.devRef .tc r) = B2 m c (Proc.devRef .tc r) :=
  StableHlo.after_of_writes_sub hostOps1 _ hostOps1_writes h
theorem B5_of (c : Dev nD) (r : Ref sig .tc) (h : r ∉ hostOps2_W) : B5 m c (Proc.devRef .tc r) = B4 m c (Proc.devRef .tc r) :=
  StableHlo.after_of_writes_sub hostOps2 _ hostOps2_writes h
theorem B6_of (c : Dev nD) (r : Ref sig .tc) (h : r ∉ hostOps2_1_W) : B6 m c (Proc.devRef .tc r) = B5 m c (Proc.devRef .tc r) :=
  StableHlo.after_of_writes_sub hostOps2_1 _ hostOps2_1_writes h
/-- an input window's array leaves its region as it entered -/
theorem B2_in (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((dat0 (E1 m) c).arrAt_in w hw _).trans (A_eq0 (E1 m) c w))
theorem B4_in (c : Dev nD) (w : Fin cfg1.W) (hw : (cfg1.win w).isOut = false) :
    B4 m c (Proc.devRef .tc (Pipeline.arrRef spec1 w)) = B3 m c (Proc.devRef .tc (Pipeline.arrRef spec1 w)) :=
  (B4_arr m c w).trans (((dat1 (E3 m) c).arrAt_in w hw _).trans (A_eq1 (E3 m) c w))
theorem B7_in (c : Dev nD) (w : Fin cfg2.W) (hw : (cfg2.win w).isOut = false) :
    B7 m c (Proc.devRef .tc (Pipeline.arrRef spec2 w)) = B6 m c (Proc.devRef .tc (Pipeline.arrRef spec2 w)) :=
  (B7_arr m c w).trans (((dat2 (E6 m) c).arrAt_in w hw _).trans (A_eq2 (E6 m) c w))

/-! ## The arguments end as launched -/
theorem B7_main_arg0 (c : Dev nD) : B7 m c (Proc.devRef .tc main_arg0) = m ((c : Thread nD τ).loc main_arg0) :=
  (B7_of_ne m c main_arg0 (by decide)).trans <| (B6_of m c main_arg0 (by decide)).trans <| (B5_of m c main_arg0 (by decide)).trans <| (B4_in m c 0 rfl).trans <| (B3_of m c main_arg0 (by decide)).trans <| (B2_in m c 0 rfl).trans <| (B1_of m c main_arg0 (by decide)).trans <| rfl
theorem B7_main_arg1 (c : Dev nD) : B7 m c (Proc.devRef .tc main_arg1) = m ((c : Thread nD τ).loc main_arg1) :=
  (B7_in m c 1 rfl).trans <| (B6_of m c main_arg1 (by decide)).trans <| (B5_of m c main_arg1 (by decide)).trans <| (B4_of_ne m c main_arg1 (by decide)).trans <| (B3_of m c main_arg1 (by decide)).trans <| (B2_of_ne m c main_arg1 (by decide)).trans <| (B1_of m c main_arg1 (by decide)).trans <| rfl
theorem B7_main_arg2 (c : Dev nD) : B7 m c (Proc.devRef .tc main_arg2) = m ((c : Thread nD τ).loc main_arg2) :=
  (B7_of_ne m c main_arg2 (by decide)).trans <| (B6_of m c main_arg2 (by decide)).trans <| (B5_of m c main_arg2 (by decide)).trans <| (B4_of_ne m c main_arg2 (by decide)).trans <| (B3_of m c main_arg2 (by decide)).trans <| (B2_of_ne m c main_arg2 (by decide)).trans <| (B1_of m c main_arg2 (by decide)).trans <| rfl
theorem B7_main_arg3 (c : Dev nD) : B7 m c (Proc.devRef .tc main_arg3) = m ((c : Thread nD τ).loc main_arg3) :=
  (B7_of_ne m c main_arg3 (by decide)).trans <| (B6_of m c main_arg3 (by decide)).trans <| (B5_of m c main_arg3 (by decide)).trans <| (B4_of_ne m c main_arg3 (by decide)).trans <| (B3_of m c main_arg3 (by decide)).trans <| (B2_of_ne m c main_arg3 (by decide)).trans <| (B1_of m c main_arg3 (by decide)).trans <| rfl
theorem B7_main_arg4 (c : Dev nD) : B7 m c (Proc.devRef .tc main_arg4) = m ((c : Thread nD τ).loc main_arg4) :=
  (B7_of_ne m c main_arg4 (by decide)).trans <| (B6_of m c main_arg4 (by decide)).trans <| (B5_of m c main_arg4 (by decide)).trans <| (B4_in m c 4 rfl).trans <| (B3_of m c main_arg4 (by decide)).trans <| (B2_in m c 3 rfl).trans <| (B1_of m c main_arg4 (by decide)).trans <| rfl
theorem B7_main_arg5 (c : Dev nD) : B7 m c (Proc.devRef .tc main_arg5) = m ((c : Thread nD τ).loc main_arg5) :=
  (B7_of_ne m c main_arg5 (by decide)).trans <| (B6_of m c main_arg5 (by decide)).trans <| (B5_of m c main_arg5 (by decide)).trans <| (B4_of_ne m c main_arg5 (by decide)).trans <| (B3_of m c main_arg5 (by decide)).trans <| (B2_of_ne m c main_arg5 (by decide)).trans <| (B1_of m c main_arg5 (by decide)).trans <| rfl
theorem B7_main_arg6 (c : Dev nD) : B7 m c (Proc.devRef .tc main_arg6) = m ((c : Thread nD τ).loc main_arg6) :=
  (B7_of_ne m c main_arg6 (by decide)).trans <| (B6_of m c main_arg6 (by decide)).trans <| (B5_of m c main_arg6 (by decide)).trans <| (B4_of_ne m c main_arg6 (by decide)).trans <| (B3_of m c main_arg6 (by decide)).trans <| (B2_in m c 5 rfl).trans <| (B1_of m c main_arg6 (by decide)).trans <| rfl
theorem B7_main_arg7 (c : Dev nD) : B7 m c (Proc.devRef .tc main_arg7) = m ((c : Thread nD τ).loc main_arg7) :=
  (B7_of_ne m c main_arg7 (by decide)).trans <| (B6_of m c main_arg7 (by decide)).trans <| (B5_of m c main_arg7 (by decide)).trans <| (B4_of_ne m c main_arg7 (by decide)).trans <| (B3_of m c main_arg7 (by decide)).trans <| (B2_of_ne m c main_arg7 (by decide)).trans <| (B1_of m c main_arg7 (by decide)).trans <| rfl
theorem B7_main_arg8 (c : Dev nD) : B7 m c (Proc.devRef .tc main_arg8) = m ((c : Thread nD τ).loc main_arg8) :=
  (B7_of_ne m c main_arg8 (by decide)).trans <| (B6_of m c main_arg8 (by decide)).trans <| (B5_of m c main_arg8 (by decide)).trans <| (B4_of_ne m c main_arg8 (by decide)).trans <| (B3_of m c main_arg8 (by decide)).trans <| (B2_of_ne m c main_arg8 (by decide)).trans <| (B1_of m c main_arg8 (by decide)).trans <| rfl
theorem B7_main_arg9 (c : Dev nD) : B7 m c (Proc.devRef .tc main_arg9) = m ((c : Thread nD τ).loc main_arg9) :=
  (B7_of_ne m c main_arg9 (by decide)).trans <| (B6_of m c main_arg9 (by decide)).trans <| (B5_of m c main_arg9 (by decide)).trans <| (B4_of_ne m c main_arg9 (by decide)).trans <| (B3_of m c main_arg9 (by decide)).trans <| (B2_of_ne m c main_arg9 (by decide)).trans <| (B1_of m c main_arg9 (by decide)).trans <| rfl
theorem B7_main_arg10 (c : Dev nD) : B7 m c (Proc.devRef .tc main_arg10) = m ((c : Thread nD τ).loc main_arg10) :=
  (B7_in m c 2 rfl).trans <| (B6_of m c main_arg10 (by decide)).trans <| (B5_of m c main_arg10 (by decide)).trans <| (B4_of_ne m c main_arg10 (by decide)).trans <| (B3_of m c main_arg10 (by decide)).trans <| (B2_of_ne m c main_arg10 (by decide)).trans <| (B1_of m c main_arg10 (by decide)).trans <| rfl
theorem B7_main_arg11 (c : Dev nD) : B7 m c (Proc.devRef .tc main_arg11) = m ((c : Thread nD τ).loc main_arg11) :=
  (B7_of_ne m c main_arg11 (by decide)).trans <| (B6_of m c main_arg11 (by decide)).trans <| (B5_of m c main_arg11 (by decide)).trans <| (B4_of_ne m c main_arg11 (by decide)).trans <| (B3_of m c main_arg11 (by decide)).trans <| (B2_of_ne m c main_arg11 (by decide)).trans <| (B1_of m c main_arg11 (by decide)).trans <| rfl
theorem B7_main_arg12 (c : Dev nD) : B7 m c (Proc.devRef .tc main_arg12) = m ((c : Thread nD τ).loc main_arg12) :=
  (B7_in m c 4 rfl).trans <| (B6_of m c main_arg12 (by decide)).trans <| (B5_of m c main_arg12 (by decide)).trans <| (B4_of_ne m c main_arg12 (by decide)).trans <| (B3_of m c main_arg12 (by decide)).trans <| (B2_of_ne m c main_arg12 (by decide)).trans <| (B1_of m c main_arg12 (by decide)).trans <| rfl
theorem B7_main_arg13 (c : Dev nD) : B7 m c (Proc.devRef .tc main_arg13) = m ((c : Thread nD τ).loc main_arg13) :=
  (B7_of_ne m c main_arg13 (by decide)).trans <| (B6_of m c main_arg13 (by decide)).trans <| (B5_of m c main_arg13 (by decide)).trans <| (B4_of_ne m c main_arg13 (by decide)).trans <| (B3_of m c main_arg13 (by decide)).trans <| (B2_of_ne m c main_arg13 (by decide)).trans <| (B1_of m c main_arg13 (by decide)).trans <| rfl
theorem B7_main_arg14 (c : Dev nD) : B7 m c (Proc.devRef .tc main_arg14) = m ((c : Thread nD τ).loc main_arg14) :=
  (B7_in m c 6 rfl).trans <| (B6_of m c main_arg14 (by decide)).trans <| (B5_of m c main_arg14 (by decide)).trans <| (B4_of_ne m c main_arg14 (by decide)).trans <| (B3_of m c main_arg14 (by decide)).trans <| (B2_of_ne m c main_arg14 (by decide)).trans <| (B1_of m c main_arg14 (by decide)).trans <| rfl
theorem B7_main_arg15 (c : Dev nD) : B7 m c (Proc.devRef .tc main_arg15) = m ((c : Thread nD τ).loc main_arg15) :=
  (B7_of_ne m c main_arg15 (by decide)).trans <| (B6_of m c main_arg15 (by decide)).trans <| (B5_of m c main_arg15 (by decide)).trans <| (B4_of_ne m c main_arg15 (by decide)).trans <| (B3_of m c main_arg15 (by decide)).trans <| (B2_of_ne m c main_arg15 (by decide)).trans <| (B1_of m c main_arg15 (by decide)).trans <| rfl

/-! ## @main as segments, and the launch -/

/-- @main's seven items in order -/
abbrev segs : List (Pipeline.Seg (pcfgs (F := F)) adm (pdats m) () defs₀ 𝒱n Ln lvn) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .host (hseg hostOps2_1 hostOps2_1_sub hostOps2_1_fresh (B5 m)),
    .region (reg2 m) ]

set_option backward.isDefEq.respectTransparency.types false in
/-- THE RUN. From any memory with zero counters every weakly fair execution of @main terminates, nothing faulting, and every
    final state holds the four results at what pass 3's pipeline writes back and every argument as launched. -/
theorem run_named (ρ : Dev nD → PrngReg) :
    θ_run defs (onTc (τ := τ) (main (F := F))) ⟨m, fun _ => 0, ρ⟩ (fun r => ∀ c : Dev nD,
      r.2.mem ((c.tc : Thread nD τ).loc main_v15_0) = (dat2 (E6 m) c).arrAt 8 cfg2.N
      ∧ r.2.mem ((c.tc : Thread nD τ).loc main_v15_1) = (dat2 (E6 m) c).arrAt 9 cfg2.N
      ∧ r.2.mem ((c.tc : Thread nD τ).loc main_v15_2) = (dat2 (E6 m) c).arrAt 10 cfg2.N
      ∧ r.2.mem ((c.tc : Thread nD τ).loc main_v15_3) = (dat2 (E6 m) c).arrAt 11 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m) () cellOf_inj emb₁ defs₀ 𝒱n Ln lvn m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rr c)) (Tₙ := Tn m)
    (hch := ⟨fun _ => .rfl, fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c =>
      ⟨(h c _ (mem_uc main_v15_0 (by decide))).trans (B7_arr m c 8),
       (h c _ (mem_uc main_v15_1 (by decide))).trans (B7_arr m c 9),
       (h c _ (mem_uc main_v15_2 (by decide))).trans (B7_arr m c 10),
       (h c _ (mem_uc main_v15_3 (by decide))).trans (B7_arr m c 11),
       (h c _ (mem_uc main_arg0 (by decide))).trans (B7_main_arg0 m c),
       (h c _ (mem_uc main_arg1 (by decide))).trans (B7_main_arg1 m c),
       (h c _ (mem_uc main_arg2 (by decide))).trans (B7_main_arg2 m c),
       (h c _ (mem_uc main_arg3 (by decide))).trans (B7_main_arg3 m c),
       (h c _ (mem_uc main_arg4 (by decide))).trans (B7_main_arg4 m c),
       (h c _ (mem_uc main_arg5 (by decide))).trans (B7_main_arg5 m c),
       (h c _ (mem_uc main_arg6 (by decide))).trans (B7_main_arg6 m c),
       (h c _ (mem_uc main_arg7 (by decide))).trans (B7_main_arg7 m c),
       (h c _ (mem_uc main_arg8 (by decide))).trans (B7_main_arg8 m c),
       (h c _ (mem_uc main_arg9 (by decide))).trans (B7_main_arg9 m c),
       (h c _ (mem_uc main_arg10 (by decide))).trans (B7_main_arg10 m c),
       (h c _ (mem_uc main_arg11 (by decide))).trans (B7_main_arg11 m c),
       (h c _ (mem_uc main_arg12 (by decide))).trans (B7_main_arg12 m c),
       (h c _ (mem_uc main_arg13 (by decide))).trans (B7_main_arg13 m c),
       (h c _ (mem_uc main_arg14 (by decide))).trans (B7_main_arg14 m c),
       (h c _ (mem_uc main_arg15 (by decide))).trans (B7_main_arg15 m c)⟩)

/-- THE FRAME: the same run with the results dropped -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2.2.2.2) (run_named m ρ)

end Cert.Kernel.Fr

end
-- ==== Proof.KI.Base.lean ====
/-
  What the three kernel regions' proofs share: the two tests a body of passes 1 and 2 makes on its grid
  coordinate (is this the first point? the last?) in closed form over the eight points; where the conditional output
  window of each pass is idle; the staging and scratch memrefs a body is called with; and each region's
  invariant split at the call's own accumulator.
-/
import proofs.«142343_j22625887715845_1_alg».proof.Proof.Gen.KernelIdeal.Launch
import proofs.«142343_j22625887715845_1_alg».proof.Proof.Gen.KernelIdeal.Skeleton
import proofs.«142343_j22625887715845_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- every literal offset a body loads or stores at is the origin -/
theorem hz2 : (![0, 0] : Fin 2 → Nat) = fun _ => 0 := funext fun a => by fin_cases a <;> rfl

/-! ## Pass 1 (region 0) -/

/-- the body's test "this is the first grid point" (its accumulator is zeroed there) -/
abbrev first0 (i : grid0.Coords) : Prop := (Scalar.cmpi .ne (Scalar.extui (Scalar.cmpi .eq (BitVec.ofNat 32 (i 0).val) 0#32)) 0#32) = 1#1
/-- the body's test "this is the last grid point" (the mean is written out there) -/
abbrev last0 (i : grid0.Coords) : Prop := k0_cond2 i = 1#1
theorem hfirst0 : ∀ t : Fin cfg0.N, first0 (grid0.coords t) ↔ t.val = 0 :=
  (by decide +kernel : ∀ t : Fin grid0.N, first0 (grid0.coords t) ↔ t.val = 0)
theorem hlast0 : ∀ t : Fin cfg0.N, last0 (grid0.coords t) ↔ t.val = 7 :=
  (by decide +kernel : ∀ t : Fin grid0.N, last0 (grid0.coords t) ↔ t.val = 7)
/-- the inputs are never idle; the output window is idle, and not written back, except at the last point -/
theorem live0 : ∀ (w : Fin 8) (t : Fin cfg0.N), w.val < 7 → cfg0.idle w (grid0.coords t) = false := by decide +kernel
theorem idle0_7 : ∀ t : Fin cfg0.N, ¬last0 (grid0.coords t) → cfg0.idle 7 (grid0.coords t) = true := by decide +kernel
theorem noFlush0_7 : ∀ t : Fin cfg0.N, ¬last0 (grid0.coords t) → (cfg0.win 7).flush t = false := by decide +kernel
theorem live0_7 : ∀ t : Fin cfg0.N, last0 (grid0.coords t) → cfg0.idle 7 (grid0.coords t) = false := by decide +kernel

/-- the accumulator of pass 1 -/
abbrev sc0 : Memref sig .tc .vmem S1x32 .f32 := Memref.whole cc0_scratch0

/-- the region's invariant before the first point, with the accumulator split off the other scoped buffers -/
theorem PhiA0_eq (c : Dev nD) :
    (Pipeline.ΦA spec0 c : sProp 𝕄)
      = iprop(iprop((∃ d, owns (c : Thread nD τ) sc0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [sc0, owns_whole]; rfl

/-! ## Pass 2 (region 1) -/

abbrev first1 (i : grid1.Coords) : Prop := (Scalar.cmpi .ne (Scalar.extui (Scalar.cmpi .eq (BitVec.ofNat 32 (i 0).val) 0#32)) 0#32) = 1#1
abbrev last1 (i : grid1.Coords) : Prop := k1_cond2 i = 1#1
theorem hfirst1 : ∀ t : Fin cfg1.N, first1 (grid1.coords t) ↔ t.val = 0 :=
  (by decide +kernel : ∀ t : Fin grid1.N, first1 (grid1.coords t) ↔ t.val = 0)
theorem hlast1 : ∀ t : Fin cfg1.N, last1 (grid1.coords t) ↔ t.val = 7 :=
  (by decide +kernel : ∀ t : Fin grid1.N, last1 (grid1.coords t) ↔ t.val = 7)
theorem live1 : ∀ (w : Fin 7) (t : Fin cfg1.N), w.val < 6 → cfg1.idle w (grid1.coords t) = false := by decide +kernel
theorem idle1_6 : ∀ t : Fin cfg1.N, ¬last1 (grid1.coords t) → cfg1.idle 6 (grid1.coords t) = true := by decide +kernel
theorem noFlush1_6 : ∀ t : Fin cfg1.N, ¬last1 (grid1.coords t) → (cfg1.win 6).flush t = false := by decide +kernel
theorem live1_6 : ∀ t : Fin cfg1.N, last1 (grid1.coords t) → cfg1.idle 6 (grid1.coords t) = false := by decide +kernel

/-- the accumulator of pass 2 -/
abbrev sc1 : Memref sig .tc .vmem S1x128 .f32 := Memref.whole cc1_scratch0

theorem PhiA1_eq (c : Dev nD) :
    (Pipeline.ΦA spec1 c : sProp 𝕄)
      = iprop(iprop((∃ d, owns (c : Thread nD τ) sc1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [sc1, owns_whole]; rfl

/-! ## Pass 3 (region 2) -/

/-- no window of pass 3 is ever idle -/
theorem live2 : ∀ (w : Fin 12) (t : Fin cfg2.N), cfg2.idle w (grid2.coords t) = false := by decide +kernel

end Cert.KernelIdeal.Fr

end
-- ==== Proof.KI.Run0.lean ====
/-
  Pass 1's body, run once at a grid point: what it leaves in its accumulator and (at the last point) in its
  output staging buffer, as a function of what the seven input buffers and the accumulator held. Three cases
  by the body's two tests: the first point (the accumulator is zeroed before the step), a middle point, the
  last point (the scaled accumulator is written out after the step).
-/
import proofs.«142343_j22625887715845_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- one step of pass 1: the accumulator `s` plus the column sums of the row-normalised third layer's output -/
def step0 (x1 : Vec F S1024x64 .f32) (x2 : Vec F S64x128 .f32) (x3 : Vec F S1x128 .f32) (x4 : Vec F S128x128 .f32)
    (x5 : Vec F S1x128 .f32) (x6 : Vec F S128x32 .f32) (x7 : Vec F S1x32 .f32) (s : Vec F S1x32 .f32) : Vec F S1x32 .f32 :=
  k0_pay1 (k0_pay4 x1 x2 x3 x4 x5 x6 x7) (k0_pay5 x1 x2 x3 x4 x5 x6 x7) (k0_pay6 (F := F)) s

set_option maxHeartbeats 4000000 in
/-- the first point: whatever the accumulator held, it is zeroed, read back, and gains one step -/
theorem run0_first (c : Dev nD) (i : grid0.Coords)
    (a1 : Memref sig .tc .vmem S1024x64 .f32) (h1 : a1.IsWhole) (a2 : Memref sig .tc .vmem S64x128 .f32) (h2 : a2.IsWhole)
    (a3 : Memref sig .tc .vmem S1x128 .f32) (h3 : a3.IsWhole) (a4 : Memref sig .tc .vmem S128x128 .f32) (h4 : a4.IsWhole)
    (a5 : Memref sig .tc .vmem S1x128 .f32) (h5 : a5.IsWhole) (a6 : Memref sig .tc .vmem S128x32 .f32) (h6 : a6.IsWhole)
    (a7 : Memref sig .tc .vmem S1x32 .f32) (h7 : a7.IsWhole) (a8 : Memref sig .tc .vmem S1x32 .f32) (h8 : a8.IsWhole)
    (a9 : Memref sig .tc .vmem S1x32 .f32) (h9 : a9.IsWhole)
    (hf : first0 i) (hl : ¬last0 i)
    (x1 : Vec F S1024x64 .f32) (x2 : Vec F S64x128 .f32) (x3 : Vec F S1x128 .f32) (x4 : Vec F S128x128 .f32)
    (x5 : Vec F S1x128 .f32) (x6 : Vec F S128x32 .f32) (x7 : Vec F S1x32 .f32) (xo : Vec F S1x32 .f32)
    (E : Set ℕ) (K : PUnit → sProp 𝕄) :
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare x7
            ∗ owns (c : Thread nD τ) a8 fullShare xo ∗ (∃ d, owns (c : Thread nD τ) a9 fullShare d)
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5 ∗ owns (c : Thread nD τ) a6 fullShare x6
                ∗ owns (c : Thread nD τ) a7 fullShare x7
                ∗ owns (c : Thread nD τ) a8 fullShare xo
                ∗ owns (c : Thread nD τ) a9 fullShare (step0 x1 x2 x3 x4 x5 x6 x7 (k0_pay3 (F := F)))) -∗ K ⟨⟩))
          ⊢ wp frame (wpE (defs₀ (F := F)) Variants.none c none) E (cc0__pass1_kernel i a1 h1 a2 h2 a3 h3 a4 h4 a5 h5 a6 h6 a7 h7 a8 h8 a9 h9) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%d9, %fs, %hfs, HS⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hf | exact hl)
  sl_unfold_words
  sl_step
  iapply Hk
  isplitl [H1]; · iexists _; isplitr; · ipureintro; exact h1.read_unread _
                  iexact H1
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [HO]; · iexists fo; isplitr; · ipureintro; exact hfo
                  iexact HO
  iexists _; isplitr
  swap; · iexact HS
  ipureintro
  rw [View.read_writes_eq_canon _ _ _ (fun y => ⟨_, List.mem_cons_self, View.mem_set_unit_zero (S := S1x32) hz2 inb_S1x32_S1x32_0_0 y⟩),
    View.canon_cons_unit_zero (S := S1x32) hz2]
  simp only [step0, View.readCov_unit_zero (S := S1x32) _ hz2, View.readAt_eq_ld, h1.read_unread, h2.read_unread, h3.read_unread, h4.read_unread, h5.read_unread, h6.read_unread, h7.read_unread, h8.read_unread, h9.read_unread,
    View.ld_unit_zero (S := S1024x64) hz2, View.ld_unit_zero (S := S64x128) hz2, View.ld_unit_zero (S := S1x128) hz2, View.ld_unit_zero (S := S128x128) hz2,
    View.ld_unit_zero (S := S128x32) hz2, View.ld_unit_zero (S := S1x32) hz2]

set_option maxHeartbeats 4000000 in
/-- a middle point: the accumulator gains one step; the output staging buffer is not touched -/
theorem run0_mid (c : Dev nD) (i : grid0.Coords)
    (a1 : Memref sig .tc .vmem S1024x64 .f32) (h1 : a1.IsWhole) (a2 : Memref sig .tc .vmem S64x128 .f32) (h2 : a2.IsWhole)
    (a3 : Memref sig .tc .vmem S1x128 .f32) (h3 : a3.IsWhole) (a4 : Memref sig .tc .vmem S128x128 .f32) (h4 : a4.IsWhole)
    (a5 : Memref sig .tc .vmem S1x128 .f32) (h5 : a5.IsWhole) (a6 : Memref sig .tc .vmem S128x32 .f32) (h6 : a6.IsWhole)
    (a7 : Memref sig .tc .vmem S1x32 .f32) (h7 : a7.IsWhole) (a8 : Memref sig .tc .vmem S1x32 .f32) (h8 : a8.IsWhole)
    (a9 : Memref sig .tc .vmem S1x32 .f32) (h9 : a9.IsWhole)
    (hf : ¬first0 i) (hl : ¬last0 i)
    (x1 : Vec F S1024x64 .f32) (x2 : Vec F S64x128 .f32) (x3 : Vec F S1x128 .f32) (x4 : Vec F S128x128 .f32)
    (x5 : Vec F S1x128 .f32) (x6 : Vec F S128x32 .f32) (x7 : Vec F S1x32 .f32) (xo xs : Vec F S1x32 .f32)
    (E : Set ℕ) (K : PUnit → sProp 𝕄) :
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare x7
            ∗ owns (c : Thread nD τ) a8 fullShare xo ∗ owns (c : Thread nD τ) a9 fullShare xs
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5 ∗ owns (c : Thread nD τ) a6 fullShare x6
                ∗ owns (c : Thread nD τ) a7 fullShare x7
                ∗ owns (c : Thread nD τ) a8 fullShare xo
                ∗ owns (c : Thread nD τ) a9 fullShare (step0 x1 x2 x3 x4 x5 x6 x7 xs)) -∗ K ⟨⟩))
          ⊢ wp frame (wpE (defs₀ (F := F)) Variants.none c none) E (cc0__pass1_kernel i a1 h1 a2 h2 a3 h3 a4 h4 a5 h5 a6 h6 a7 h7 a8 h8 a9 h9) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fo, %hfo, HO⟩, ⟨%fs, %hfs, HS⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h7.eq_unread hf7
  obtain rfl := h9.eq_unread hfs
  sl_exec (disch := first | exact hf | exact hl)
  sl_step
  iapply Hk
  isplitl [H1]; · iexists _; isplitr; · ipureintro; exact h1.read_unread _
                  iexact H1
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [HO]; · iexists fo; isplitr; · ipureintro; exact hfo
                  iexact HO
  iexists _; isplitr
  swap; · iexact HS
  ipureintro
  rw [View.read_writes_eq_canon _ _ _ (View.cover_of_tiled _ S1x32.size (by rfl)), View.canon_unit_zero hz2]
  simp only [step0, View.readCov_unit_zero (S := S1x32) _ hz2, View.readAt_eq_ld, h1.read_unread, h2.read_unread, h3.read_unread, h4.read_unread, h5.read_unread, h6.read_unread, h7.read_unread, h8.read_unread, h9.read_unread,
    View.ld_unit_zero (S := S1024x64) hz2, View.ld_unit_zero (S := S64x128) hz2, View.ld_unit_zero (S := S1x128) hz2, View.ld_unit_zero (S := S128x128) hz2,
    View.ld_unit_zero (S := S128x32) hz2, View.ld_unit_zero (S := S1x32) hz2]

set_option maxHeartbeats 4000000 in
/-- the last point: the accumulator gains one step and is read back; its scaled contents go to the output staging buffer -/
theorem run0_last (c : Dev nD) (i : grid0.Coords)
    (a1 : Memref sig .tc .vmem S1024x64 .f32) (h1 : a1.IsWhole) (a2 : Memref sig .tc .vmem S64x128 .f32) (h2 : a2.IsWhole)
    (a3 : Memref sig .tc .vmem S1x128 .f32) (h3 : a3.IsWhole) (a4 : Memref sig .tc .vmem S128x128 .f32) (h4 : a4.IsWhole)
    (a5 : Memref sig .tc .vmem S1x128 .f32) (h5 : a5.IsWhole) (a6 : Memref sig .tc .vmem S128x32 .f32) (h6 : a6.IsWhole)
    (a7 : Memref sig .tc .vmem S1x32 .f32) (h7 : a7.IsWhole) (a8 : Memref sig .tc .vmem S1x32 .f32) (h8 : a8.IsWhole)
    (a9 : Memref sig .tc .vmem S1x32 .f32) (h9 : a9.IsWhole)
    (hf : ¬first0 i) (hl : last0 i)
    (x1 : Vec F S1024x64 .f32) (x2 : Vec F S64x128 .f32) (x3 : Vec F S1x128 .f32) (x4 : Vec F S128x128 .f32)
    (x5 : Vec F S1x128 .f32) (x6 : Vec F S128x32 .f32) (x7 : Vec F S1x32 .f32) (xs : Vec F S1x32 .f32)
    (E : Set ℕ) (K : PUnit → sProp 𝕄) :
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare x7
            ∗ (∃ d, owns (c : Thread nD τ) a8 fullShare d) ∗ owns (c : Thread nD τ) a9 fullShare xs
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5 ∗ owns (c : Thread nD τ) a6 fullShare x6
                ∗ owns (c : Thread nD τ) a7 fullShare x7
                ∗ owns (c : Thread nD τ) a8 fullShare (k0_pay2 (step0 x1 x2 x3 x4 x5 x6 x7 xs))
                ∗ owns (c : Thread nD τ) a9 fullShare (step0 x1 x2 x3 x4 x5 x6 x7 xs)) -∗ K ⟨⟩))
          ⊢ wp frame (wpE (defs₀ (F := F)) Variants.none c none) E (cc0__pass1_kernel i a1 h1 a2 h2 a3 h3 a4 h4 a5 h5 a6 h6 a7 h7 a8 h8 a9 h9) K := by
  simp only [cc0__pass1_kernel_eq_skeleton]; unfold cc0__pass1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %fo, %hfo, HO⟩, ⟨%fs, %hfs, HS⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h7.eq_unread hf7
  obtain rfl := h9.eq_unread hfs
  sl_exec (disch := first | exact hf | exact hl)
  sl_unfold_words
  sl_step
  iapply Hk
  isplitl [H1]; · iexists _; isplitr; · ipureintro; exact h1.read_unread _
                  iexact H1
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [HO]
  · iexists _; isplitr
    swap; · iexact HO
    ipureintro
    rw [View.read_writes_eq_canon _ _ _ (View.cover_of_tiled _ S1x32.size (by rfl)), View.canon_unit_zero hz2]
    simp only [step0, View.readCov_unit_zero (S := S1x32) _ hz2, View.readAt_eq_ld, h1.read_unread, h2.read_unread, h3.read_unread, h4.read_unread, h5.read_unread, h6.read_unread, h7.read_unread, h8.read_unread, h9.read_unread,
    View.ld_unit_zero (S := S1024x64) hz2, View.ld_unit_zero (S := S64x128) hz2, View.ld_unit_zero (S := S1x128) hz2, View.ld_unit_zero (S := S128x128) hz2,
    View.ld_unit_zero (S := S128x32) hz2, View.ld_unit_zero (S := S1x32) hz2]
  iexists _; isplitr
  swap; · iexact HS
  ipureintro
  rw [View.read_writes_eq_canon _ _ _ (View.cover_of_tiled _ S1x32.size (by rfl)), View.canon_unit_zero hz2]
  simp only [step0, View.readCov_unit_zero (S := S1x32) _ hz2, View.readAt_eq_ld, h1.read_unread, h2.read_unread, h3.read_unread, h4.read_unread, h5.read_unread, h6.read_unread, h7.read_unread, h8.read_unread, h9.read_unread,
    View.ld_unit_zero (S := S1024x64) hz2, View.ld_unit_zero (S := S64x128) hz2, View.ld_unit_zero (S := S1x128) hz2, View.ld_unit_zero (S := S128x128) hz2,
    View.ld_unit_zero (S := S128x32) hz2, View.ld_unit_zero (S := S1x32) hz2]

end Cert.KernelIdeal.Fr

end
-- ==== Proof.KI.Reg0.lean ====
/-
  Region 0 (pass 1's pipeline), at the buffer contents V the region is entered with: each window's block at a grid point; the
  accumulator's contents point by point (the per-tile step folded from the zero word); the invariant that carries the accumulator
  between points; the proof data; and the body obligation — the body run at the first, a middle and the last point.
-/
import proofs.«142343_j22625887715845_1_alg».proof.Proof.KI.Run0
import proofs.«142343_j22625887715845_1_alg».proof.Proof.Gen.KernelIdeal.Launch
import proofs.«142343_j22625887715845_1_alg».proof.Proof.Gen.KernelIdeal.Skeleton
import proofs.«142343_j22625887715845_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- window w's block at grid point t, read off its array as the region finds it -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- the accumulator after the body at point n: the per-tile step folded from the zero word over points 0 … n -/
def acc0 (c : Dev nD) : (n : ℕ) → n < cfg0.N → Vec F S1x32 .f32
  | 0, hn => step0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (k0_pay3 (F := F))
  | n + 1, hn => step0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (acc0 c n (Nat.lt_of_succ_lt hn))

/-- the accumulator at the first point: the step from the zero word -/
theorem acc0_first (c : Dev nD) (t : Fin cfg0.N) (hz : t.val = 0) :
    acc0 V c t.val t.isLt = step0 (iblk0 V c 0 t) (iblk0 V c 1 t) (iblk0 V c 2 t) (iblk0 V c 3 t) (iblk0 V c 4 t) (iblk0 V c 5 t) (iblk0 V c 6 t) (k0_pay3 (F := F)) := by
  obtain ⟨n, hn⟩ := t
  cases n with
  | zero => rfl
  | succ n => exact absurd hz (Nat.succ_ne_zero n)

/-- the accumulator at a later point: the step from what the point before left -/
theorem acc0_next (c : Dev nD) (t : Fin cfg0.N) (hz : t.val ≠ 0) :
    acc0 V c t.val t.isLt = step0 (iblk0 V c 0 t) (iblk0 V c 1 t) (iblk0 V c 2 t) (iblk0 V c 3 t) (iblk0 V c 4 t) (iblk0 V c 5 t) (iblk0 V c 6 t) (acc0 V c (t.val - 1) (Nat.lt_of_le_of_lt (Nat.sub_le _ _) t.isLt)) := by
  obtain ⟨n, hn⟩ := t
  cases n with
  | zero => exact absurd rfl hz
  | succ n => rfl

/-- the region's invariant before position n: before the first point the class's (the call's scoped rest at anything, the
    generator register); afterwards the accumulator at what the point before left, the other scoped buffers unopened -/
def Phi0 (c : Dev nD) : (n : ℕ) → n ≤ cfg0.N → sProp 𝕄
  | 0, _ => Pipeline.ΦA spec0 c
  | n + 1, hn => iprop(iprop(owns (c : Thread nD τ) sc0 fullShare (acc0 V c n hn) ∗ Pipeline.scopedRestBut (Ix := Unit) (Name := ℕ) (U := UR sig nD τ) (Lvl := ℕ) (Val := Elt F) spec0 c [cc0_scratch0]) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(owns (c : Thread nD τ) sc0 fullShare (acc0 V c n hn) ∗ Pipeline.scopedRestBut (Ix := Unit) (Name := ℕ) (U := UR sig nD τ) (Lvl := ℕ) (Val := Elt F) spec0 c [cc0_scratch0]) ∗ (∃ r, prngReg c r)) := rfl
theorem Phi0_pos (c : Dev nD) (n : ℕ) (h : n ≤ cfg0.N) (hz : n ≠ 0) :
    Phi0 V c n h = iprop(iprop(owns (c : Thread nD τ) sc0 fullShare (acc0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- the proof data of pass 1's pipeline on core c at the entry contents V: each input's buffer at its block; the output's at
    the mean taken from the accumulator (consulted at the last point only); the invariant carrying the accumulator -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay2 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem Phi0_castSucc (c : Dev nD) (t : Fin cfg0.N) : (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = k0_pay2 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- an input window hands its buffer back at its block -/
theorem leaves0_in (c : Dev nD) (w : Fin 8) (hw : w.val < 7) (t : Fin cfg0.N) :
    (dat0 V c).leavesExact w t = owns (c : Thread nD τ) ((cfg0.win w).stage (cfg0.slots t w)) fullShare ((dat0 V c).after w t) := by
  unfold Dat.leavesExact; rw [live0 w t hw]

/-- what the body is called with at point t -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
/-- the body at any point: the inputs' buffers hold their blocks; the point is the first, a middle one or the last; the
    invariant hands the accumulator over at what the point before left (anything at the first point) and takes it back at this
    point's step; the output window is handed back untouched except at the last point, where it gets the mean -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = Phi0 V c (t.val + 1) t.isLt from rfl, Phi0_succ]
  rw [leaves0_in V c 0 (by decide) t, leaves0_in V c 1 (by decide) t, leaves0_in V c 2 (by decide) t, leaves0_in V c 3 (by decide) t, leaves0_in V c 4 (by decide) t, leaves0_in V c 5 (by decide) t, leaves0_in V c 6 (by decide) t,
    after0_0, after0_1, after0_2, after0_3, after0_4, after0_5, after0_6]
  rw [Phi0_castSucc]
  have hN : t.val < 8 := lt_of_lt_of_eq t.isLt (show cfg0.N = 8 from N_0)
  by_cases hz : t.val = 0
  · have hf : first0 (grid0.coords t) := (hfirst0 t).mpr hz
    have hl : ¬last0 (grid0.coords t) := fun h => by have := (hlast0 t).mp h; omega
    rw [Phi0_zero V c _ _ hz, PhiA0_eq, acc0_first V c t hz,
      Dat.leavesExact_idle (dat0 V c) 7 t (idle0_7 t hl) (noFlush0_7 t hl)]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run0_first c (grid0.coords t) _ _ _ _ _ _ _ _ _ _ _ _ _ _ _ _ _ _ hf hl (iblk0 V c 0 t) (iblk0 V c 1 t) (iblk0 V c 2 t) (iblk0 V c 3 t) (iblk0 V c 4 t) (iblk0 V c 5 t) (iblk0 V c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h7 : t.val = 7
    · have hf : ¬first0 (grid0.coords t) := fun h => hz ((hfirst0 t).mp h)
      have hl : last0 (grid0.coords t) := (hlast0 t).mpr h7
      rw [show (dat0 V c).leavesExact 7 t = owns (c : Thread nD τ) (st0_7 t) fullShare ((dat0 V c).after 7 t) from by
        unfold Dat.leavesExact; rw [live0_7 t hl], after0_7]
      rw [Phi0_pos V c _ _ hz, acc0_next V c t hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_last c (grid0.coords t) _ _ _ _ _ _ _ _ _ _ _ _ _ _ _ _ _ _ hf hl (iblk0 V c 0 t) (iblk0 V c 1 t) (iblk0 V c 2 t) (iblk0 V c 3 t) (iblk0 V c 4 t) (iblk0 V c 5 t) (iblk0 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hf : ¬first0 (grid0.coords t) := fun h => hz ((hfirst0 t).mp h)
      have hl : ¬last0 (grid0.coords t) := fun h => h7 ((hlast0 t).mp h)
      rw [Phi0_pos V c _ _ hz, acc0_next V c t hz,
        Dat.leavesExact_idle (dat0 V c) 7 t (idle0_7 t hl) (noFlush0_7 t hl)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_mid c (grid0.coords t) _ _ _ _ _ _ _ _ _ _ _ _ _ _ _ _ _ _ hf hl (iblk0 V c 0 t) (iblk0 V c 1 t) (iblk0 V c 2 t) (iblk0 V c 3 t) (iblk0 V c 4 t) (iblk0 V c 5 t) (iblk0 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- the library's body obligation, at every point -/
theorem body_obligation0 (c : Dev nD) : BodyObligation (dat0 (F := F) V c) (defs₀ (F := F)) Variants.none () Set.univ := fun t => by
  rw [bigSep_W0, bigSep_W0]
  exact sound_body0 V c t

/-- what the launch hands the region is the invariant before the first point -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- after the last point the invariant gives the class's back: the accumulator's contents are forgotten -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 8 := N_0; omega), PhiA0_eq]
  iintro ⟨⟨HS, HR⟩, Hg⟩
  isplitl [HS HR]
  · isplitl [HS]
    · iexists _; iexact HS
    iexact HR
  iexact Hg

end Region0

end Cert.KernelIdeal.Fr

end
-- ==== Proof.KI.Run1.lean ====
/-
  Pass 2, one grid point: what the body leaves in its memrefs. The body reads its six inputs, adds the
  column sums of the second layer's output to the accumulator, and only at the last grid point writes the
  accumulator, scaled by 1/8192, into the output window. Three cases by the two tests on the grid
  coordinate: the first point (the accumulator is zeroed before the sum is added), a middle point, the last
  point (the mean is written out). At the first and middle points the output window is handed back at the
  contents it came with.
-/
import proofs.«142343_j22625887715845_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- one grid point's update of the accumulator: `s` plus the column sums of this point's block -/
def step1 (x1 : Vec F S1024x64 .f32) (x2 : Vec F S64x128 .f32) (x3 x4 : Vec F S1x128 .f32) (x5 : Vec F S128x128 .f32)
    (x6 : Vec F S1x128 .f32) (s : Vec F S1x128 .f32) : Vec F S1x128 .f32 :=
  k1_pay3 x1 x2 x4 x3 x5 x6 s

set_option maxHeartbeats 4000000 in
/-- the first point: the accumulator, whatever it held, is zeroed and then takes the block's column sums -/
theorem run1_first (c : Dev nD) (i : grid1.Coords)
    (a1 : Memref sig .tc .vmem S1024x64 .f32) (h1 : a1.IsWhole) (a2 : Memref sig .tc .vmem S64x128 .f32) (h2 : a2.IsWhole)
    (a3 : Memref sig .tc .vmem S1x128 .f32) (h3 : a3.IsWhole) (a4 : Memref sig .tc .vmem S1x128 .f32) (h4 : a4.IsWhole)
    (a5 : Memref sig .tc .vmem S128x128 .f32) (h5 : a5.IsWhole) (a6 : Memref sig .tc .vmem S1x128 .f32) (h6 : a6.IsWhole)
    (a7 : Memref sig .tc .vmem S1x128 .f32) (h7 : a7.IsWhole) (a8 : Memref sig .tc .vmem S1x128 .f32) (h8 : a8.IsWhole)
    (hf : first1 i) (hl : ¬last1 i)
    (x1 : Vec F S1024x64 .f32) (x2 : Vec F S64x128 .f32) (x3 : Vec F S1x128 .f32) (x4 : Vec F S1x128 .f32)
    (x5 : Vec F S128x128 .f32) (x6 : Vec F S1x128 .f32) (xo : Vec F S1x128 .f32)
    (E : Set ℕ) (K : PUnit → sProp 𝕄) :
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare xo ∗ (∃ d, owns (c : Thread nD τ) a8 fullShare d)
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5 ∗ owns (c : Thread nD τ) a6 fullShare x6
                ∗ owns (c : Thread nD τ) a7 fullShare xo
                ∗ owns (c : Thread nD τ) a8 fullShare (step1 x1 x2 x3 x4 x5 x6 (k1_pay2 (F := F)))) -∗ K ⟨⟩))
          ⊢ wp frame (wpE (defs₀ (F := F)) Variants.none c none) E (cc1__pass2_kernel i a1 h1 a2 h2 a3 h3 a4 h4 a5 h5 a6 h6 a7 h7 a8 h8) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %fs, %hfs, HS⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6
  sl_exec (disch := first | exact hf | exact hl)
  sl_step
  iapply Hk
  isplitl [H1]
  · iexists _; isplitr
    · ipureintro; exact h1.read_unread _
    · iexact H1
  isplitl [H2]
  · iexists _; isplitr
    · ipureintro; exact h2.read_unread _
    · iexact H2
  isplitl [H3]
  · iexists _; isplitr
    · ipureintro; exact h3.read_unread _
    · iexact H3
  isplitl [H4]
  · iexists _; isplitr
    · ipureintro; exact h4.read_unread _
    · iexact H4
  isplitl [H5]
  · iexists _; isplitr
    · ipureintro; exact h5.read_unread _
    · iexact H5
  isplitl [H6]
  · iexists _; isplitr
    · ipureintro; exact h6.read_unread _
    · iexact H6
  isplitl [H7]
  · iexists f7; isplitr
    · ipureintro; exact hf7
    · iexact H7
  iexists _; isplitr
  swap
  · iexact HS
  ipureintro
  sl_unfold_words
  rw [View.read_writes_eq_canon _ _ _ (View.cover_of_tiled _ S1x128.size (by rfl)), View.canon_cons_unit_zero (S := S1x128) hz2]
  simp only [step1, View.readCov_unit_zero (S := S1x128) _ hz2, View.readAt_eq_ld, h1.read_unread, h2.read_unread, h3.read_unread, h4.read_unread, h5.read_unread, h6.read_unread,
    View.ld_unit_zero (S := S1024x64) hz2, View.ld_unit_zero (S := S64x128) hz2, View.ld_unit_zero (S := S1x128) hz2, View.ld_unit_zero (S := S128x128) hz2]

set_option maxHeartbeats 4000000 in
/-- a middle point: the accumulator takes the block's column sums -/
theorem run1_mid (c : Dev nD) (i : grid1.Coords)
    (a1 : Memref sig .tc .vmem S1024x64 .f32) (h1 : a1.IsWhole) (a2 : Memref sig .tc .vmem S64x128 .f32) (h2 : a2.IsWhole)
    (a3 : Memref sig .tc .vmem S1x128 .f32) (h3 : a3.IsWhole) (a4 : Memref sig .tc .vmem S1x128 .f32) (h4 : a4.IsWhole)
    (a5 : Memref sig .tc .vmem S128x128 .f32) (h5 : a5.IsWhole) (a6 : Memref sig .tc .vmem S1x128 .f32) (h6 : a6.IsWhole)
    (a7 : Memref sig .tc .vmem S1x128 .f32) (h7 : a7.IsWhole) (a8 : Memref sig .tc .vmem S1x128 .f32) (h8 : a8.IsWhole)
    (hf : ¬first1 i) (hl : ¬last1 i)
    (x1 : Vec F S1024x64 .f32) (x2 : Vec F S64x128 .f32) (x3 : Vec F S1x128 .f32) (x4 : Vec F S1x128 .f32)
    (x5 : Vec F S128x128 .f32) (x6 : Vec F S1x128 .f32) (xo xs : Vec F S1x128 .f32)
    (E : Set ℕ) (K : PUnit → sProp 𝕄) :
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare xo ∗ owns (c : Thread nD τ) a8 fullShare xs
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5 ∗ owns (c : Thread nD τ) a6 fullShare x6
                ∗ owns (c : Thread nD τ) a7 fullShare xo
                ∗ owns (c : Thread nD τ) a8 fullShare (step1 x1 x2 x3 x4 x5 x6 xs)) -∗ K ⟨⟩))
          ⊢ wp frame (wpE (defs₀ (F := F)) Variants.none c none) E (cc1__pass2_kernel i a1 h1 a2 h2 a3 h3 a4 h4 a5 h5 a6 h6 a7 h7 a8 h8) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h8.eq_unread hfs
  sl_exec (disch := first | exact hf | exact hl)
  sl_step
  iapply Hk
  isplitl [H1]
  · iexists _; isplitr
    · ipureintro; exact h1.read_unread _
    · iexact H1
  isplitl [H2]
  · iexists _; isplitr
    · ipureintro; exact h2.read_unread _
    · iexact H2
  isplitl [H3]
  · iexists _; isplitr
    · ipureintro; exact h3.read_unread _
    · iexact H3
  isplitl [H4]
  · iexists _; isplitr
    · ipureintro; exact h4.read_unread _
    · iexact H4
  isplitl [H5]
  · iexists _; isplitr
    · ipureintro; exact h5.read_unread _
    · iexact H5
  isplitl [H6]
  · iexists _; isplitr
    · ipureintro; exact h6.read_unread _
    · iexact H6
  isplitl [H7]
  · iexists f7; isplitr
    · ipureintro; exact hf7
    · iexact H7
  iexists _; isplitr
  swap
  · iexact HS
  ipureintro
  rw [View.read_writes_eq_canon _ _ _ (View.cover_of_tiled _ S1x128.size (by rfl)), View.canon_unit_zero hz2]
  simp only [step1, View.readAt_eq_ld, h1.read_unread, h2.read_unread, h3.read_unread, h4.read_unread, h5.read_unread, h6.read_unread, h8.read_unread,
    View.ld_unit_zero (S := S1024x64) hz2, View.ld_unit_zero (S := S64x128) hz2, View.ld_unit_zero (S := S1x128) hz2, View.ld_unit_zero (S := S128x128) hz2]

set_option maxHeartbeats 4000000 in
/-- the last point: the accumulator takes the block's column sums, and the output window takes the mean -/
theorem run1_last (c : Dev nD) (i : grid1.Coords)
    (a1 : Memref sig .tc .vmem S1024x64 .f32) (h1 : a1.IsWhole) (a2 : Memref sig .tc .vmem S64x128 .f32) (h2 : a2.IsWhole)
    (a3 : Memref sig .tc .vmem S1x128 .f32) (h3 : a3.IsWhole) (a4 : Memref sig .tc .vmem S1x128 .f32) (h4 : a4.IsWhole)
    (a5 : Memref sig .tc .vmem S128x128 .f32) (h5 : a5.IsWhole) (a6 : Memref sig .tc .vmem S1x128 .f32) (h6 : a6.IsWhole)
    (a7 : Memref sig .tc .vmem S1x128 .f32) (h7 : a7.IsWhole) (a8 : Memref sig .tc .vmem S1x128 .f32) (h8 : a8.IsWhole)
    (hf : ¬first1 i) (hl : last1 i)
    (x1 : Vec F S1024x64 .f32) (x2 : Vec F S64x128 .f32) (x3 : Vec F S1x128 .f32) (x4 : Vec F S1x128 .f32)
    (x5 : Vec F S128x128 .f32) (x6 : Vec F S1x128 .f32) (xs : Vec F S1x128 .f32)
    (E : Set ℕ) (K : PUnit → sProp 𝕄) :
        iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ (∃ d, owns (c : Thread nD τ) a7 fullShare d) ∗ owns (c : Thread nD τ) a8 fullShare xs
            ∗ (iprop(owns (c : Thread nD τ) a1 fullShare x1 ∗ owns (c : Thread nD τ) a2 fullShare x2 ∗ owns (c : Thread nD τ) a3 fullShare x3
                ∗ owns (c : Thread nD τ) a4 fullShare x4 ∗ owns (c : Thread nD τ) a5 fullShare x5 ∗ owns (c : Thread nD τ) a6 fullShare x6
                ∗ owns (c : Thread nD τ) a7 fullShare (k1_pay1 (step1 x1 x2 x3 x4 x5 x6 xs))
                ∗ owns (c : Thread nD τ) a8 fullShare (step1 x1 x2 x3 x4 x5 x6 xs)) -∗ K ⟨⟩))
          ⊢ wp frame (wpE (defs₀ (F := F)) Variants.none c none) E (cc1__pass2_kernel i a1 h1 a2 h2 a3 h3 a4 h4 a5 h5 a6 h6 a7 h7 a8 h8) K := by
  simp only [cc1__pass2_kernel_eq_skeleton]; unfold cc1__pass2_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%fs, %hfs, HS⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h8.eq_unread hfs
  sl_exec (disch := first | exact hf | exact hl)
  sl_step
  iapply Hk
  isplitl [H1]
  · iexists _; isplitr
    · ipureintro; exact h1.read_unread _
    · iexact H1
  isplitl [H2]
  · iexists _; isplitr
    · ipureintro; exact h2.read_unread _
    · iexact H2
  isplitl [H3]
  · iexists _; isplitr
    · ipureintro; exact h3.read_unread _
    · iexact H3
  isplitl [H4]
  · iexists _; isplitr
    · ipureintro; exact h4.read_unread _
    · iexact H4
  isplitl [H5]
  · iexists _; isplitr
    · ipureintro; exact h5.read_unread _
    · iexact H5
  isplitl [H6]
  · iexists _; isplitr
    · ipureintro; exact h6.read_unread _
    · iexact H6
  isplitl [H7]
  · iexists _; isplitr
    swap
    · iexact H7
    ipureintro
    sl_unfold_words
    rw [View.read_writes_eq_canon _ _ _ (View.cover_of_tiled _ S1x128.size (by rfl)), View.canon_unit_zero (S := S1x128) hz2]
    simp only [step1, View.readCov_unit_zero (S := S1x128) _ hz2, View.readAt_eq_ld, h1.read_unread, h2.read_unread, h3.read_unread, h4.read_unread, h5.read_unread, h6.read_unread, h8.read_unread,
    View.ld_unit_zero (S := S1024x64) hz2, View.ld_unit_zero (S := S64x128) hz2, View.ld_unit_zero (S := S1x128) hz2, View.ld_unit_zero (S := S128x128) hz2]
  iexists _; isplitr
  swap
  · iexact HS
  ipureintro
  sl_unfold_words
  rw [View.read_writes_eq_canon _ _ _ (View.cover_of_tiled _ S1x128.size (by rfl)), View.canon_unit_zero (S := S1x128) hz2]
  simp only [step1, View.readCov_unit_zero (S := S1x128) _ hz2, View.readAt_eq_ld, h1.read_unread, h2.read_unread, h3.read_unread, h4.read_unread, h5.read_unread, h6.read_unread, h8.read_unread,
    View.ld_unit_zero (S := S1024x64) hz2, View.ld_unit_zero (S := S64x128) hz2, View.ld_unit_zero (S := S1x128) hz2, View.ld_unit_zero (S := S128x128) hz2]

end Cert.KernelIdeal.Fr

end
-- ==== Proof.KI.Reg1.lean ====
/-
  Pass 2's pipeline (region 1) on one core, at the buffer contents V the region is entered with: its proof data
  and the body obligation.

  The pipeline has seven windows. Windows 0 … 5 are inputs: the block of 1024 rows of states of the current grid
  point, and the five weight and bias arrays, whole. Window 6 is the output, one row of 128 numbers, written only at
  the last of the eight grid points. A scratch row, the accumulator, lives across the points: the first point zeroes
  it and adds its block's column sums, every later point adds its own, and the last point also writes the accumulator
  times 2^-13 to the output window. So the accumulator after point n is the per-point step folded from the zero row
  over the points 0 … n, and the region's invariant before point n + 1 says exactly that, the other scoped buffers and
  the generator register untouched. Each input's buffer holds its block of V's array at every point; the output
  window's buffer is handed back as it came except at the last point.
-/
import proofs.«142343_j22625887715845_1_alg».proof.Proof.KI.Run1
import proofs.«142343_j22625887715845_1_alg».proof.Proof.Gen.KernelIdeal.Launch
import proofs.«142343_j22625887715845_1_alg».proof.Proof.Gen.KernelIdeal.Skeleton
import proofs.«142343_j22625887715845_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- window w's block at grid point t, read off its array as the region finds it -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- an input window's buffer holds, before the body at any point, the block of its array: whatever proof data agree with V on
    that array and put the block in the buffer after each point -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- the accumulator after the body at point n: the per-point step folded from the zero row over points 0 … n -/
def acc1 (c : Dev nD) : (n : ℕ) → n < cfg1.N → Vec F S1x128 .f32
  | 0, hn => step1 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (k1_pay2 (F := F))
  | n + 1, hn => step1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (acc1 c n (Nat.lt_of_succ_lt hn))

/-- the accumulator at the first point: the step from the zero row -/
theorem acc1_first (c : Dev nD) (t : Fin cfg1.N) (hz : t.val = 0) :
    acc1 V c t.val t.isLt = step1 (iblk1 V c 0 t) (iblk1 V c 1 t) (iblk1 V c 2 t) (iblk1 V c 3 t) (iblk1 V c 4 t) (iblk1 V c 5 t) (k1_pay2 (F := F)) := by
  obtain ⟨n, hn⟩ := t
  cases n with
  | zero => rfl
  | succ n => exact absurd hz (Nat.succ_ne_zero n)

/-- the accumulator at a later point: the step from what the point before left -/
theorem acc1_next (c : Dev nD) (t : Fin cfg1.N) (hz : t.val ≠ 0) :
    acc1 V c t.val t.isLt = step1 (iblk1 V c 0 t) (iblk1 V c 1 t) (iblk1 V c 2 t) (iblk1 V c 3 t) (iblk1 V c 4 t) (iblk1 V c 5 t) (acc1 V c (t.val - 1) (Nat.lt_of_le_of_lt (Nat.sub_le _ _) t.isLt)) := by
  obtain ⟨n, hn⟩ := t
  cases n with
  | zero => exact absurd rfl hz
  | succ n => rfl

/-- the region's invariant before position n: before the first point the class's (the call's scoped rest at anything, the
    generator register); afterwards the accumulator at what the point before left, the other scoped buffers unopened -/
def Phi1 (c : Dev nD) : (n : ℕ) → n ≤ cfg1.N → sProp 𝕄
  | 0, _ => Pipeline.ΦA spec1 c
  | n + 1, hn => iprop(iprop(owns (c : Thread nD τ) sc1 fullShare (acc1 V c n hn) ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) sc1 fullShare (acc1 V c n hn) ∗ Pipeline.scopedRestBut (Ix := Unit) (Name := ℕ) (U := UR sig nD τ) (Lvl := ℕ) (Val := Elt F) spec1 c [cc1_scratch0]) ∗ (∃ r, prngReg c r)) := rfl
theorem Phi1_pos (c : Dev nD) (n : ℕ) (h : n ≤ cfg1.N) (hz : n ≠ 0) :
    Phi1 V c n h = iprop(iprop(owns (c : Thread nD τ) sc1 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- the proof data of pass 2's pipeline on core c at the entry contents V: each input's buffer at its block; the output's at
    the mean taken from the accumulator (consulted at the last point only); the invariant carrying the accumulator -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay1 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem Phi1_castSucc (c : Dev nD) (t : Fin cfg1.N) : (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay1 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- an input window hands its buffer back at its block -/
theorem leaves1_in (c : Dev nD) (w : Fin 7) (hw : w.val < 6) (t : Fin cfg1.N) :
    (dat1 V c).leavesExact w t = owns (c : Thread nD τ) ((cfg1.win w).stage (cfg1.slots t w)) fullShare ((dat1 V c).after w t) := by
  unfold Dat.leavesExact; rw [live1 w t hw]

/-- what the body is called with at point t -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- the body at any point: the inputs' buffers hold their blocks; the point is the first, a middle one or the last; the
    invariant hands the accumulator over at what the point before left (anything at the first point) and takes it back at this
    point's step; the output window is handed back untouched except at the last point, where it gets the mean -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [leaves1_in V c 0 (by decide) t, leaves1_in V c 1 (by decide) t, leaves1_in V c 2 (by decide) t, leaves1_in V c 3 (by decide) t, leaves1_in V c 4 (by decide) t, leaves1_in V c 5 (by decide) t,
    after1_0, after1_1, after1_2, after1_3, after1_4, after1_5]
  rw [Phi1_castSucc]
  have hN : t.val < 8 := lt_of_lt_of_eq t.isLt (show cfg1.N = 8 from N_1)
  by_cases hz : t.val = 0
  · -- the first point: the accumulator comes at anything and leaves at the step from the zero row
    have hf : first1 (grid1.coords t) := (hfirst1 t).mpr hz
    have hl : ¬last1 (grid1.coords t) := fun h => by have := (hlast1 t).mp h; omega
    rw [Phi1_zero V c _ _ hz, PhiA1_eq, acc1_first V c t hz,
      Dat.leavesExact_idle (dat1 V c) 6 t (idle1_6 t hl) (noFlush1_6 t hl)]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run1_first c (grid1.coords t) _ _ _ _ _ _ _ _ _ _ _ _ _ _ _ _ hf hl (iblk1 V c 0 t) (iblk1 V c 1 t) (iblk1 V c 2 t) (iblk1 V c 3 t) (iblk1 V c 4 t) (iblk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h7 : t.val = 7
    · -- the last point: the accumulator takes its step and the output window takes the mean
      have hf : ¬first1 (grid1.coords t) := fun h => hz ((hfirst1 t).mp h)
      have hl : last1 (grid1.coords t) := (hlast1 t).mpr h7
      rw [show (dat1 V c).leavesExact 6 t = owns (c : Thread nD τ) (st1_6 t) fullShare ((dat1 V c).after 6 t) from by
        unfold Dat.leavesExact; rw [live1_6 t hl], after1_6]
      rw [Phi1_pos V c _ _ hz, acc1_next V c t hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_last c (grid1.coords t) _ _ _ _ _ _ _ _ _ _ _ _ _ _ _ _ hf hl (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point: the accumulator takes its step, the output window is handed back as it came
      have hf : ¬first1 (grid1.coords t) := fun h => hz ((hfirst1 t).mp h)
      have hl : ¬last1 (grid1.coords t) := fun h => h7 ((hlast1 t).mp h)
      rw [Phi1_pos V c _ _ hz, acc1_next V c t hz,
        Dat.leavesExact_idle (dat1 V c) 6 t (idle1_6 t hl) (noFlush1_6 t hl)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_mid c (grid1.coords t) _ _ _ _ _ _ _ _ _ _ _ _ _ _ _ _ hf hl (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- the library's body obligation, at every point -/
theorem body_obligation1 (c : Dev nD) : BodyObligation (dat1 (F := F) V c) (defs₀ (F := F)) Variants.none () Set.univ := fun t => by
  rw [bigSep_W1, bigSep_W1]
  exact sound_body1 V c t

/-- what the launch hands the region is the invariant before the first point -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- after the last point the invariant gives the class's back: the accumulator's contents are forgotten -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 8 := N_1; omega), PhiA1_eq]
  iintro ⟨⟨HS, HR⟩, Hg⟩
  isplitl [HS HR]
  · isplitl [HS]
    · iexists _; iexact HS
    iexact HR
  iexact Hg

end Region1

end Cert.KernelIdeal.Fr

end
-- ==== Proof.KI.Run2.lean ====
/-
  Pass 3, one grid point: what the body leaves in its memrefs. The body has no test: it reads its eight
  inputs, normalizes the rows of the block shifted by the mean row, and stores four results, each over
  the whole of its output window: the normalized block, the first head's activations, the second head's
  column, and the third head's row-wise softmax. Each output window is read once before it is stored; the
  value read is not used.
-/
import proofs.«142343_j22625887715845_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- one grid point of pass 3: the four output windows, whatever they held, take the four results -/
theorem run2 (c : Dev nD) (i : grid2.Coords)
    (a1 : Memref sig .tc .vmem S1x128 .f32) (h1 : a1.IsWhole) (a2 : Memref sig .tc .vmem S1024x128 .f32) (h2 : a2.IsWhole)
    (a3 : Memref sig .tc .vmem S128x8 .f32) (h3 : a3.IsWhole) (a4 : Memref sig .tc .vmem S1x8 .f32) (h4 : a4.IsWhole)
    (a5 : Memref sig .tc .vmem S128x1 .f32) (h5 : a5.IsWhole) (a6 : Memref sig .tc .vmem S1x1 .f32) (h6 : a6.IsWhole)
    (a7 : Memref sig .tc .vmem S128x3 .f32) (h7 : a7.IsWhole) (a8 : Memref sig .tc .vmem S1x3 .f32) (h8 : a8.IsWhole)
    (a9 : Memref sig .tc .vmem S1024x128 .f32) (h9 : a9.IsWhole) (a10 : Memref sig .tc .vmem S1024x8 .f32) (h10 : a10.IsWhole)
    (a11 : Memref sig .tc .vmem S1024x1 .f32) (h11 : a11.IsWhole) (a12 : Memref sig .tc .vmem S1024x3 .f32) (h12 : a12.IsWhole)
    (x1 : Vec F S1x128 .f32) (x2 : Vec F S1024x128 .f32)
    (x3 : Vec F S128x8 .f32) (x4 : Vec F S1x8 .f32)
    (x5 : Vec F S128x1 .f32) (x6 : Vec F S1x1 .f32)
    (x7 : Vec F S128x3 .f32) (x8 : Vec F S1x3 .f32)
    (E : Set ℕ) (K : PUnit → sProp 𝕄) :
        iprop(owns (c : Thread nD τ) a1 fullShare x1 ∗ owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7 ∗ owns (c : Thread nD τ) a8 fullShare x8
            ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
            ∗ (iprop(owns (c : Thread nD τ) a1 fullShare x1 ∗ owns (c : Thread nD τ) a2 fullShare x2 ∗ owns (c : Thread nD τ) a3 fullShare x3 ∗ owns (c : Thread nD τ) a4 fullShare x4
                ∗ owns (c : Thread nD τ) a5 fullShare x5 ∗ owns (c : Thread nD τ) a6 fullShare x6 ∗ owns (c : Thread nD τ) a7 fullShare x7 ∗ owns (c : Thread nD τ) a8 fullShare x8
                ∗ owns (c : Thread nD τ) a9 fullShare (k2_pay2 x2 x1)
                ∗ owns (c : Thread nD τ) a10 fullShare (k2_pay4 x2 x1 x3 x4)
                ∗ owns (c : Thread nD τ) a11 fullShare (k2_pay5 x2 x1 x5 x6)
                ∗ owns (c : Thread nD τ) a12 fullShare (k2_pay1 (k2_pay3 x2 x1) x7 x8)) -∗ K ⟨⟩))
          ⊢ wp frame (wpE (defs₀ (F := F)) Variants.none c none) E (cc2__pass3_kernel i a1 h1 a2 h2 a3 h3 a4 h4 a5 h5 a6 h6 a7 h7 a8 h8 a9 h9 a10 h10 a11 h11 a12 h12) K := by
  simp only [cc2__pass3_kernel_eq_skeleton]; unfold cc2__pass3_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, ⟨%d11, %f11, %hf11, H11⟩, ⟨%d12, %f12, %hf12, H12⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h7.eq_unread hf7; obtain rfl := h8.eq_unread hf8
  sl_exec
  sl_step
  iapply Hk
  isplitl [H1]
  · iexists _; isplitr
    · ipureintro; exact h1.read_unread _
    · iexact H1
  isplitl [H2]
  · iexists _; isplitr
    · ipureintro; exact h2.read_unread _
    · iexact H2
  isplitl [H3]
  · iexists _; isplitr
    · ipureintro; exact h3.read_unread _
    · iexact H3
  isplitl [H4]
  · iexists _; isplitr
    · ipureintro; exact h4.read_unread _
    · iexact H4
  isplitl [H5]
  · iexists _; isplitr
    · ipureintro; exact h5.read_unread _
    · iexact H5
  isplitl [H6]
  · iexists _; isplitr
    · ipureintro; exact h6.read_unread _
    · iexact H6
  isplitl [H7]
  · iexists _; isplitr
    · ipureintro; exact h7.read_unread _
    · iexact H7
  isplitl [H8]
  · iexists _; isplitr
    · ipureintro; exact h8.read_unread _
    · iexact H8
  isplitl [H9]
  · iexists _; isplitr
    swap
    · iexact H9
    ipureintro
    sl_unfold_words
    rw [View.read_writes_eq_canon _ _ _ (View.cover_of_tiled _ S1024x128.size (by rfl)), View.canon_unit_zero (S := S1024x128) hz2]
    simp only [View.readAt_eq_ld, h1.read_unread, h2.read_unread, h3.read_unread, h4.read_unread, h5.read_unread, h6.read_unread, h7.read_unread, h8.read_unread,
      View.ld_unit_zero (S := S1x128) hz2, View.ld_unit_zero (S := S1024x128) hz2, View.ld_unit_zero (S := S128x8) hz2, View.ld_unit_zero (S := S1x8) hz2, View.ld_unit_zero (S := S128x1) hz2, View.ld_unit_zero (S := S1x1) hz2, View.ld_unit_zero (S := S128x3) hz2, View.ld_unit_zero (S := S1x3) hz2]
  isplitl [H10]
  · iexists _; isplitr
    swap
    · iexact H10
    ipureintro
    sl_unfold_words
    rw [View.read_writes_eq_canon _ _ _ (View.cover_of_tiled _ S1024x8.size (by rfl)), View.canon_unit_zero (S := S1024x8) hz2]
    simp only [View.readAt_eq_ld, h1.read_unread, h2.read_unread, h3.read_unread, h4.read_unread, h5.read_unread, h6.read_unread, h7.read_unread, h8.read_unread,
      View.ld_unit_zero (S := S1x128) hz2, View.ld_unit_zero (S := S1024x128) hz2, View.ld_unit_zero (S := S128x8) hz2, View.ld_unit_zero (S := S1x8) hz2, View.ld_unit_zero (S := S128x1) hz2, View.ld_unit_zero (S := S1x1) hz2, View.ld_unit_zero (S := S128x3) hz2, View.ld_unit_zero (S := S1x3) hz2]
  isplitl [H11]
  · iexists _; isplitr
    swap
    · iexact H11
    ipureintro
    sl_unfold_words
    rw [View.read_writes_eq_canon _ _ _ (View.cover_of_tiled _ S1024x1.size (by rfl)), View.canon_unit_zero (S := S1024x1) hz2]
    simp only [View.readAt_eq_ld, h1.read_unread, h2.read_unread, h3.read_unread, h4.read_unread, h5.read_unread, h6.read_unread, h7.read_unread, h8.read_unread,
      View.ld_unit_zero (S := S1x128) hz2, View.ld_unit_zero (S := S1024x128) hz2, View.ld_unit_zero (S := S128x8) hz2, View.ld_unit_zero (S := S1x8) hz2, View.ld_unit_zero (S := S128x1) hz2, View.ld_unit_zero (S := S1x1) hz2, View.ld_unit_zero (S := S128x3) hz2, View.ld_unit_zero (S := S1x3) hz2]
  iexists _; isplitr
  swap
  · iexact H12
  ipureintro
  sl_unfold_words
  rw [View.read_writes_eq_canon _ _ _ (View.cover_of_tiled _ S1024x3.size (by rfl)), View.canon_unit_zero (S := S1024x3) hz2]
  simp only [View.readAt_eq_ld, h1.read_unread, h2.read_unread, h3.read_unread, h4.read_unread, h5.read_unread, h6.read_unread, h7.read_unread, h8.read_unread,
    View.ld_unit_zero (S := S1x128) hz2, View.ld_unit_zero (S := S1024x128) hz2, View.ld_unit_zero (S := S128x8) hz2, View.ld_unit_zero (S := S1x8) hz2, View.ld_unit_zero (S := S128x1) hz2, View.ld_unit_zero (S := S1x1) hz2, View.ld_unit_zero (S := S128x3) hz2, View.ld_unit_zero (S := S1x3) hz2]

end Cert.KernelIdeal.Fr

end
-- ==== Proof.KI.Reg2.lean ====
/-
  Pass 3's pipeline (region 2), the frame half: the proof data of its twelve windows on one core, at the
  contents V the core's arrays hold when the region is entered, and the body's obligation at every grid
  point. The eight input windows hold their blocks of the arrays; the four output windows are stored whole by
  every point and written back at every point, so what a point leaves in each is a function of that point's
  input blocks alone. The region carries no accumulator: its invariant is the same before and after every
  point. No window is ever idle.
-/
import proofs.«142343_j22625887715845_1_alg».proof.Proof.KI.Run2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- window w's block at grid point t, read off its array as the region finds it -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window whose buffer the body leaves at its block holds that block wherever the body is handed it,
    fetched there or not: for any proof data over these arrays whose `after` at the window is the block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- the proof data of pass 3's pipeline on core c at the entry contents V: each input's buffer at its block; each
    output's at the body's result from this point's input blocks; the invariant is the region's own, unchanged -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => k2_pay2 (iblk2 V c 1 t) (iblk2 V c 0 t)
    | ⟨9, _⟩ => k2_pay4 (iblk2 V c 1 t) (iblk2 V c 0 t) (iblk2 V c 2 t) (iblk2 V c 3 t)
    | ⟨10, _⟩ => k2_pay5 (iblk2 V c 1 t) (iblk2 V c 0 t) (iblk2 V c 4 t) (iblk2 V c 5 t)
    | ⟨11, _⟩ => k2_pay1 (k2_pay3 (iblk2 V c 1 t) (iblk2 V c 0 t)) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = k2_pay2 (iblk2 V c 1 t) (iblk2 V c 0 t) := by dsimp only [dat2]
theorem after2_9 (c : Dev nD) (t : Fin cfg2.N) : (dat2 V c).after 9 t = k2_pay4 (iblk2 V c 1 t) (iblk2 V c 0 t) (iblk2 V c 2 t) (iblk2 V c 3 t) := by dsimp only [dat2]
theorem after2_10 (c : Dev nD) (t : Fin cfg2.N) : (dat2 V c).after 10 t = k2_pay5 (iblk2 V c 1 t) (iblk2 V c 0 t) (iblk2 V c 4 t) (iblk2 V c 5 t) := by dsimp only [dat2]
theorem after2_11 (c : Dev nD) (t : Fin cfg2.N) : (dat2 V c).after 11 t = k2_pay1 (k2_pay3 (iblk2 V c 1 t) (iblk2 V c 0 t)) (iblk2 V c 6 t) (iblk2 V c 7 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- every window hands its buffer back at what the body leaves in it: none is idle at any point -/
theorem leaves2 (c : Dev nD) (w : Fin 12) (t : Fin cfg2.N) :
    (dat2 V c).leavesExact w t = owns (c : Thread nD τ) ((cfg2.win w).stage (cfg2.slots t w)) fullShare ((dat2 V c).after w t) := by
  unfold Dat.leavesExact; rw [live2 w t]

/-- what the body is called with at point t -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d)))

/-- and what it returns -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t)

set_option maxHeartbeats 4000000 in
/-- the body at any point: the inputs' buffers hold their blocks and come back unchanged; the four outputs' buffers,
    whatever they held, come back at the body's results from those blocks; the invariant passes through unread -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = (dat2 V c).Φ t.castSucc from rfl]
  rw [leaves2 V c 0 t, leaves2 V c 1 t, leaves2 V c 2 t, leaves2 V c 3 t, leaves2 V c 4 t, leaves2 V c 5 t, leaves2 V c 6 t, leaves2 V c 7 t, leaves2 V c 8 t, leaves2 V c 9 t, leaves2 V c 10 t, leaves2 V c 11 t,
    after2_0, after2_1, after2_2, after2_3, after2_4, after2_5, after2_6, after2_7, after2_8, after2_9, after2_10, after2_11]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run2 c (grid2.coords t) _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- the library's body obligation, at every point -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Fr

end
-- ==== Proof.KI.Frame.lean ====
/-
  The run of @main as seven items — a stretch of host operations, pass 1's region, a host product, pass 2's region, two
  more stretches, pass 3's region — with the buffer contents at every boundary NAMED: a stretch leaves its operations'
  results, a region leaves its arrays at what its pipeline writes back. The launch then reads, off the last boundary, the four
  result arrays and the sixteen argument arrays.
-/
import proofs.«142343_j22625887715845_1_alg».proof.Proof.KI.Reg0
import proofs.«142343_j22625887715845_1_alg».proof.Proof.KI.Reg1
import proofs.«142343_j22625887715845_1_alg».proof.Proof.KI.Reg2
import proofs.«142343_j22625887715845_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- core c's buffers at launch -/
abbrev B0 (c : Dev nD) : Valuation τ sig (Elt F) := fun b => m (c, b)
/-- after the first host stretch (the two halves of the first weight matrix, the biases as rows) -/
abbrev B1 (c : Dev nD) : Valuation τ sig (Elt F) := StableHlo.after hostOps0 (B0 m c)
abbrev E1 : (c : Dev nD) → (b : Ref sig .tc) → Buf (Elt F) ((c : Thread nD τ).loc b) := fun c b => B1 m c b

/-- at region 0's exit: its arrays at what the pipeline leaves (an input as entered, an output's write-backs folded), every
    other buffer as entered -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- after the host product of the mean message with the lower half of the first weight matrix -/
abbrev B3 (c : Dev nD) : Valuation τ sig (Elt F) := StableHlo.after hostOps1 (B2 m c)
abbrev E3 : (c : Dev nD) → (b : Ref sig .tc) → Buf (Elt F) ((c : Thread nD τ).loc b) := fun c b => B3 m c b

/-- at region 1's exit: its arrays at what the pipeline leaves (an input as entered, an output's write-backs folded), every
    other buffer as entered -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- after the graph layer's product and bias, then its rectifier -/
abbrev B5 (c : Dev nD) : Valuation τ sig (Elt F) := StableHlo.after hostOps2 (B4 m c)
abbrev B6 (c : Dev nD) : Valuation τ sig (Elt F) := StableHlo.after hostOps2_1 (B5 m c)
abbrev E6 : (c : Dev nD) → (b : Ref sig .tc) → Buf (Elt F) ((c : Thread nD τ).loc b) := fun c b => B6 m c b

/-- at region 2's exit: its arrays at what the pipeline leaves (an input as entered, an output's write-backs folded), every
    other buffer as entered -/
def B7 (c : Dev nD) : Valuation τ sig (Elt F) :=
  Pipeline.withArrays spec2 c (B6 m c) fun w => (dat2 (E6 m) c).arrAt w cfg2.N
theorem B7_arr (c : Dev nD) (w : Fin cfg2.W) :
    B7 m c (Proc.devRef .tc (Pipeline.arrRef spec2 w)) = (dat2 (E6 m) c).arrAt w cfg2.N := by
  unfold B7; exact Pipeline.withArrays_arr spec2 launch2.win.arr_inj c _ _ w
theorem B7_of_ne (c : Dev nD) (b : Ref sig .tc) (hb : ∀ w, Pipeline.arrRef spec2 w ≠ b) :
    B7 m c (Proc.devRef .tc b) = B6 m c (Proc.devRef .tc b) := by
  unfold B7; exact Pipeline.withArrays_of_ne spec2 c _ _ b hb
abbrev E7 : (c : Dev nD) → (b : Ref sig .tc) → Buf (Elt F) ((c : Thread nD τ).loc b) := fun c b => B7 m c b
theorem hF2 (c : Dev nD) (w : Fin cfg2.W) : (dat2 (E6 m) c).arrAt w cfg2.N = E7 m c (Pipeline.arrRef spec2 w) :=
  (B7_arr m c w).symm
theorem hrest2 (c : Dev nD) : ∀ b, b ∉ Finset.univ.image (Pipeline.arrRef spec2) → E7 m c b = E6 m c b :=
  fun b hb => B7_of_ne m c b fun w e => hb (Finset.mem_image.mpr ⟨w, Finset.mem_univ _, e⟩)

/-! ## The proof data family and the thread state -/

/-- every pipeline's proof data, each at its region's entry contents -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E6 m) c
abbrev 𝒱n : Variants := Variants.none
/-- no core owes another anything: no level is assigned -/
abbrev Ln : GSem nD τ sig → Finset Unit := fun _ => ∅
abbrev lvn : GSem nD τ sig → Unit → ℕ := fun _ _ => 0
/-- what rides beside the buffers through every item: the generator register at some state, and the core owing nothing -/
abbrev Rr (c : Dev nD) : sProp 𝕄 := iprop((∃ r, prngReg c r) ∗ ∃ W, owes (c : Thread nD τ) (0 : CellTallies nD τ sig Unit) W)
/-- a host stretch as a segment from the contents W -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- the last thread state without the owes: every unscoped buffer at the last boundary's contents, the generator register -/
abbrev Tn (c : Dev nD) : sProp 𝕄 := iprop(StableHlo.held (c : Thread nD τ) (Pipeline.ucRefs τ sig) (B7 m c) ∗ ∃ r, prngReg c r)

/-! ## The regions as segments -/

set_option backward.isDefEq.respectTransparency.types false in
/-- region 0 over the thread state: entered with every unscoped buffer at the contents before it, left with the
    region's arrays at what the pipeline leaves and every other buffer as entered; the generator register into the
    invariant and out; nothing owed; no semaphore of the kernel's own -/
def reg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Ln lvn 0 fun _ _ => rfl
  pre c := iprop(StableHlo.held (c : Thread nD τ) (Pipeline.ucRefs τ sig) (B1 m c) ∗ Rr c)
  post c := iprop(StableHlo.held (c : Thread nD τ) (Pipeline.ucRefs τ sig) (B2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (E1 m) c)
    unfold Pipeline.ΦA
    iintro ⟨Hp, -, Hr⟩
    isplitl [Hr]; · iexact Hr
    iexact Hp
  hout c := by
    rw [Pipeline.ownSems0_none]
    refine (hout0 (E1 m) c).trans (show Pipeline.ΦA spec0 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- region 1 over the thread state: entered with every unscoped buffer at the contents before it, left with the
    region's arrays at what the pipeline leaves and every other buffer as entered; the generator register into the
    invariant and out; nothing owed; no semaphore of the kernel's own -/
def reg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Ln lvn 1 fun _ _ => rfl
  pre c := iprop(StableHlo.held (c : Thread nD τ) (Pipeline.ucRefs τ sig) (B3 m c) ∗ Rr c)
  post c := iprop(StableHlo.held (c : Thread nD τ) (Pipeline.ucRefs τ sig) (B4 m c) ∗ Rr c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (E3 m) c)
    unfold Pipeline.ΦA
    iintro ⟨Hp, -, Hr⟩
    isplitl [Hr]; · iexact Hr
    iexact Hp
  hout c := by
    rw [Pipeline.ownSems0_none]
    refine (hout1 (E3 m) c).trans (show Pipeline.ΦA spec1 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- region 2 over the thread state: entered with every unscoped buffer at the contents before it, left with the
    region's arrays at what the pipeline leaves and every other buffer as entered; the generator register into the
    invariant and out; nothing owed; no semaphore of the kernel's own -/
def reg2 : Pipeline.RegionSeg (pcfgs (F := F)) adm (pdats m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (E6 m) c).loose
  hwaits := Pipeline.hwaits_of_owed_zero _ _ _ _ Ln lvn 2 fun _ _ => rfl
  pre c := iprop(StableHlo.held (c : Thread nD τ) (Pipeline.ucRefs τ sig) (B6 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E6 m c) (E7 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## What each item leaves unchanged -/

theorem B1_of (c : Dev nD) (r : Ref sig .tc) (h : r ∉ hostOps0_W) : B1 m c (Proc.devRef .tc r) = B0 m c (Proc.devRef .tc r) :=
  StableHlo.after_of_writes_sub hostOps0 _ hostOps0_writes h
theorem B3_of (c : Dev nD) (r : Ref sig .tc) (h : r ∉ hostOps1_W) : B3 m c (Proc.devRef .tc r) = B2 m c (Proc.devRef .tc r) :=
  StableHlo.after_of_writes_sub hostOps1 _ hostOps1_writes h
theorem B5_of (c : Dev nD) (r : Ref sig .tc) (h : r ∉ hostOps2_W) : B5 m c (Proc.devRef .tc r) = B4 m c (Proc.devRef .tc r) :=
  StableHlo.after_of_writes_sub hostOps2 _ hostOps2_writes h
theorem B6_of (c : Dev nD) (r : Ref sig .tc) (h : r ∉ hostOps2_1_W) : B6 m c (Proc.devRef .tc r) = B5 m c (Proc.devRef .tc r) :=
  StableHlo.after_of_writes_sub hostOps2_1 _ hostOps2_1_writes h
/-- an input window's array leaves its region as it entered -/
theorem B2_in (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((dat0 (E1 m) c).arrAt_in w hw _).trans (A_eq0 (E1 m) c w))
theorem B4_in (c : Dev nD) (w : Fin cfg1.W) (hw : (cfg1.win w).isOut = false) :
    B4 m c (Proc.devRef .tc (Pipeline.arrRef spec1 w)) = B3 m c (Proc.devRef .tc (Pipeline.arrRef spec1 w)) :=
  (B4_arr m c w).trans (((dat1 (E3 m) c).arrAt_in w hw _).trans (A_eq1 (E3 m) c w))
theorem B7_in (c : Dev nD) (w : Fin cfg2.W) (hw : (cfg2.win w).isOut = false) :
    B7 m c (Proc.devRef .tc (Pipeline.arrRef spec2 w)) = B6 m c (Proc.devRef .tc (Pipeline.arrRef spec2 w)) :=
  (B7_arr m c w).trans (((dat2 (E6 m) c).arrAt_in w hw _).trans (A_eq2 (E6 m) c w))

/-! ## The arguments end as launched -/
theorem B7_main_arg0 (c : Dev nD) : B7 m c (Proc.devRef .tc main_arg0) = m ((c : Thread nD τ).loc main_arg0) :=
  (B7_of_ne m c main_arg0 (by decide)).trans <| (B6_of m c main_arg0 (by decide)).trans <| (B5_of m c main_arg0 (by decide)).trans <| (B4_in m c 0 rfl).trans <| (B3_of m c main_arg0 (by decide)).trans <| (B2_in m c 0 rfl).trans <| (B1_of m c main_arg0 (by decide)).trans <| rfl
theorem B7_main_arg1 (c : Dev nD) : B7 m c (Proc.devRef .tc main_arg1) = m ((c : Thread nD τ).loc main_arg1) :=
  (B7_in m c 1 rfl).trans <| (B6_of m c main_arg1 (by decide)).trans <| (B5_of m c main_arg1 (by decide)).trans <| (B4_of_ne m c main_arg1 (by decide)).trans <| (B3_of m c main_arg1 (by decide)).trans <| (B2_of_ne m c main_arg1 (by decide)).trans <| (B1_of m c main_arg1 (by decide)).trans <| rfl
theorem B7_main_arg2 (c : Dev nD) : B7 m c (Proc.devRef .tc main_arg2) = m ((c : Thread nD τ).loc main_arg2) :=
  (B7_of_ne m c main_arg2 (by decide)).trans <| (B6_of m c main_arg2 (by decide)).trans <| (B5_of m c main_arg2 (by decide)).trans <| (B4_of_ne m c main_arg2 (by decide)).trans <| (B3_of m c main_arg2 (by decide)).trans <| (B2_of_ne m c main_arg2 (by decide)).trans <| (B1_of m c main_arg2 (by decide)).trans <| rfl
theorem B7_main_arg3 (c : Dev nD) : B7 m c (Proc.devRef .tc main_arg3) = m ((c : Thread nD τ).loc main_arg3) :=
  (B7_of_ne m c main_arg3 (by decide)).trans <| (B6_of m c main_arg3 (by decide)).trans <| (B5_of m c main_arg3 (by decide)).trans <| (B4_of_ne m c main_arg3 (by decide)).trans <| (B3_of m c main_arg3 (by decide)).trans <| (B2_of_ne m c main_arg3 (by decide)).trans <| (B1_of m c main_arg3 (by decide)).trans <| rfl
theorem B7_main_arg4 (c : Dev nD) : B7 m c (Proc.devRef .tc main_arg4) = m ((c : Thread nD τ).loc main_arg4) :=
  (B7_of_ne m c main_arg4 (by decide)).trans <| (B6_of m c main_arg4 (by decide)).trans <| (B5_of m c main_arg4 (by decide)).trans <| (B4_in m c 4 rfl).trans <| (B3_of m c main_arg4 (by decide)).trans <| (B2_in m c 3 rfl).trans <| (B1_of m c main_arg4 (by decide)).trans <| rfl
theorem B7_main_arg5 (c : Dev nD) : B7 m c (Proc.devRef .tc main_arg5) = m ((c : Thread nD τ).loc main_arg5) :=
  (B7_of_ne m c main_arg5 (by decide)).trans <| (B6_of m c main_arg5 (by decide)).trans <| (B5_of m c main_arg5 (by decide)).trans <| (B4_of_ne m c main_arg5 (by decide)).trans <| (B3_of m c main_arg5 (by decide)).trans <| (B2_of_ne m c main_arg5 (by decide)).trans <| (B1_of m c main_arg5 (by decide)).trans <| rfl
theorem B7_main_arg6 (c : Dev nD) : B7 m c (Proc.devRef .tc main_arg6) = m ((c : Thread nD τ).loc main_arg6) :=
  (B7_of_ne m c main_arg6 (by decide)).trans <| (B6_of m c main_arg6 (by decide)).trans <| (B5_of m c main_arg6 (by decide)).trans <| (B4_of_ne m c main_arg6 (by decide)).trans <| (B3_of m c main_arg6 (by decide)).trans <| (B2_in m c 5 rfl).trans <| (B1_of m c main_arg6 (by decide)).trans <| rfl
theorem B7_main_arg7 (c : Dev nD) : B7 m c (Proc.devRef .tc main_arg7) = m ((c : Thread nD τ).loc main_arg7) :=
  (B7_of_ne m c main_arg7 (by decide)).trans <| (B6_of m c main_arg7 (by decide)).trans <| (B5_of m c main_arg7 (by decide)).trans <| (B4_of_ne m c main_arg7 (by decide)).trans <| (B3_of m c main_arg7 (by decide)).trans <| (B2_of_ne m c main_arg7 (by decide)).trans <| (B1_of m c main_arg7 (by decide)).trans <| rfl
theorem B7_main_arg8 (c : Dev nD) : B7 m c (Proc.devRef .tc main_arg8) = m ((c : Thread nD τ).loc main_arg8) :=
  (B7_of_ne m c main_arg8 (by decide)).trans <| (B6_of m c main_arg8 (by decide)).trans <| (B5_of m c main_arg8 (by decide)).trans <| (B4_of_ne m c main_arg8 (by decide)).trans <| (B3_of m c main_arg8 (by decide)).trans <| (B2_of_ne m c main_arg8 (by decide)).trans <| (B1_of m c main_arg8 (by decide)).trans <| rfl
theorem B7_main_arg9 (c : Dev nD) : B7 m c (Proc.devRef .tc main_arg9) = m ((c : Thread nD τ).loc main_arg9) :=
  (B7_of_ne m c main_arg9 (by decide)).trans <| (B6_of m c main_arg9 (by decide)).trans <| (B5_of m c main_arg9 (by decide)).trans <| (B4_of_ne m c main_arg9 (by decide)).trans <| (B3_of m c main_arg9 (by decide)).trans <| (B2_of_ne m c main_arg9 (by decide)).trans <| (B1_of m c main_arg9 (by decide)).trans <| rfl
theorem B7_main_arg10 (c : Dev nD) : B7 m c (Proc.devRef .tc main_arg10) = m ((c : Thread nD τ).loc main_arg10) :=
  (B7_in m c 2 rfl).trans <| (B6_of m c main_arg10 (by decide)).trans <| (B5_of m c main_arg10 (by decide)).trans <| (B4_of_ne m c main_arg10 (by decide)).trans <| (B3_of m c main_arg10 (by decide)).trans <| (B2_of_ne m c main_arg10 (by decide)).trans <| (B1_of m c main_arg10 (by decide)).trans <| rfl
theorem B7_main_arg11 (c : Dev nD) : B7 m c (Proc.devRef .tc main_arg11) = m ((c : Thread nD τ).loc main_arg11) :=
  (B7_of_ne m c main_arg11 (by decide)).trans <| (B6_of m c main_arg11 (by decide)).trans <| (B5_of m c main_arg11 (by decide)).trans <| (B4_of_ne m c main_arg11 (by decide)).trans <| (B3_of m c main_arg11 (by decide)).trans <| (B2_of_ne m c main_arg11 (by decide)).trans <| (B1_of m c main_arg11 (by decide)).trans <| rfl
theorem B7_main_arg12 (c : Dev nD) : B7 m c (Proc.devRef .tc main_arg12) = m ((c : Thread nD τ).loc main_arg12) :=
  (B7_in m c 4 rfl).trans <| (B6_of m c main_arg12 (by decide)).trans <| (B5_of m c main_arg12 (by decide)).trans <| (B4_of_ne m c main_arg12 (by decide)).trans <| (B3_of m c main_arg12 (by decide)).trans <| (B2_of_ne m c main_arg12 (by decide)).trans <| (B1_of m c main_arg12 (by decide)).trans <| rfl
theorem B7_main_arg13 (c : Dev nD) : B7 m c (Proc.devRef .tc main_arg13) = m ((c : Thread nD τ).loc main_arg13) :=
  (B7_of_ne m c main_arg13 (by decide)).trans <| (B6_of m c main_arg13 (by decide)).trans <| (B5_of m c main_arg13 (by decide)).trans <| (B4_of_ne m c main_arg13 (by decide)).trans <| (B3_of m c main_arg13 (by decide)).trans <| (B2_of_ne m c main_arg13 (by decide)).trans <| (B1_of m c main_arg13 (by decide)).trans <| rfl
theorem B7_main_arg14 (c : Dev nD) : B7 m c (Proc.devRef .tc main_arg14) = m ((c : Thread nD τ).loc main_arg14) :=
  (B7_in m c 6 rfl).trans <| (B6_of m c main_arg14 (by decide)).trans <| (B5_of m c main_arg14 (by decide)).trans <| (B4_of_ne m c main_arg14 (by decide)).trans <| (B3_of m c main_arg14 (by decide)).trans <| (B2_of_ne m c main_arg14 (by decide)).trans <| (B1_of m c main_arg14 (by decide)).trans <| rfl
theorem B7_main_arg15 (c : Dev nD) : B7 m c (Proc.devRef .tc main_arg15) = m ((c : Thread nD τ).loc main_arg15) :=
  (B7_of_ne m c main_arg15 (by decide)).trans <| (B6_of m c main_arg15 (by decide)).trans <| (B5_of m c main_arg15 (by decide)).trans <| (B4_of_ne m c main_arg15 (by decide)).trans <| (B3_of m c main_arg15 (by decide)).trans <| (B2_of_ne m c main_arg15 (by decide)).trans <| (B1_of m c main_arg15 (by decide)).trans <| rfl

/-! ## @main as segments, and the launch -/

/-- @main's seven items in order -/
abbrev segs : List (Pipeline.Seg (pcfgs (F := F)) adm (pdats m) () defs₀ 𝒱n Ln lvn) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .host (hseg hostOps2_1 hostOps2_1_sub hostOps2_1_fresh (B5 m)),
    .region (reg2 m) ]

set_option backward.isDefEq.respectTransparency.types false in
/-- THE RUN. From any memory with zero counters every weakly fair execution of @main terminates, nothing faulting, and every
    final state holds the four results at what pass 3's pipeline writes back and every argument as launched. -/
theorem run_named (ρ : Dev nD → PrngReg) :
    θ_run defs (onTc (τ := τ) (main (F := F))) ⟨m, fun _ => 0, ρ⟩ (fun r => ∀ c : Dev nD,
      r.2.mem ((c.tc : Thread nD τ).loc main_v15_0) = (dat2 (E6 m) c).arrAt 8 cfg2.N
      ∧ r.2.mem ((c.tc : Thread nD τ).loc main_v15_1) = (dat2 (E6 m) c).arrAt 9 cfg2.N
      ∧ r.2.mem ((c.tc : Thread nD τ).loc main_v15_2) = (dat2 (E6 m) c).arrAt 10 cfg2.N
      ∧ r.2.mem ((c.tc : Thread nD τ).loc main_v15_3) = (dat2 (E6 m) c).arrAt 11 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m) () cellOf_inj emb₁ defs₀ 𝒱n Ln lvn m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rr c)) (Tₙ := Tn m)
    (hch := ⟨fun _ => .rfl, fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c =>
      ⟨(h c _ (mem_uc main_v15_0 (by decide))).trans (B7_arr m c 8),
       (h c _ (mem_uc main_v15_1 (by decide))).trans (B7_arr m c 9),
       (h c _ (mem_uc main_v15_2 (by decide))).trans (B7_arr m c 10),
       (h c _ (mem_uc main_v15_3 (by decide))).trans (B7_arr m c 11),
       (h c _ (mem_uc main_arg0 (by decide))).trans (B7_main_arg0 m c),
       (h c _ (mem_uc main_arg1 (by decide))).trans (B7_main_arg1 m c),
       (h c _ (mem_uc main_arg2 (by decide))).trans (B7_main_arg2 m c),
       (h c _ (mem_uc main_arg3 (by decide))).trans (B7_main_arg3 m c),
       (h c _ (mem_uc main_arg4 (by decide))).trans (B7_main_arg4 m c),
       (h c _ (mem_uc main_arg5 (by decide))).trans (B7_main_arg5 m c),
       (h c _ (mem_uc main_arg6 (by decide))).trans (B7_main_arg6 m c),
       (h c _ (mem_uc main_arg7 (by decide))).trans (B7_main_arg7 m c),
       (h c _ (mem_uc main_arg8 (by decide))).trans (B7_main_arg8 m c),
       (h c _ (mem_uc main_arg9 (by decide))).trans (B7_main_arg9 m c),
       (h c _ (mem_uc main_arg10 (by decide))).trans (B7_main_arg10 m c),
       (h c _ (mem_uc main_arg11 (by decide))).trans (B7_main_arg11 m c),
       (h c _ (mem_uc main_arg12 (by decide))).trans (B7_main_arg12 m c),
       (h c _ (mem_uc main_arg13 (by decide))).trans (B7_main_arg13 m c),
       (h c _ (mem_uc main_arg14 (by decide))).trans (B7_main_arg14 m c),
       (h c _ (mem_uc main_arg15 (by decide))).trans (B7_main_arg15 m c)⟩)

/-- THE FRAME: the same run with the results dropped -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2.2.2.2) (run_named m ρ)

end Cert.KernelIdeal.Fr

end
-- ==== Proof.Spec.lean ====
/-
  What both programs compute, as functions on the extended reals, one row of agents at a time.

  A row of states x (64 numbers) goes through two affine maps with a rectifier between them, an affine map to
  32 numbers and a division by its own Euclidean norm floored at a small word; the 32-vector is averaged over
  all 8192 rows (a sum times 2^-13). The average enters a second pass as an extra bias (through the lower 32 rows
  of the first weight matrix); the second pass's 128-vector is averaged over all rows the same way, sent through
  one more affine map and rectifier, and the resulting single row g is added to a scaled noise row, normalized,
  and read out by three heads (tanh of an affine map; an affine map; a softmax of an affine map).
-/
import Idealize.ShloMosaic.PureOps.Ideal.Laws
import Idealize.ShloMosaic.Lib.ValueIdx

noncomputable section

open scoped BigOperators

namespace Cert.Spec

open Idealize.ShloMosaic Idealize.ShloMosaic.ValueIdx

/-- the floor of a norm, the noise scale, 2^-13 and minus infinity: the float words both programs print -/
abbrev eps : EReal := Ideal.ofBits .f32 0x2B8CBCCC#32
abbrev nscale : EReal := Ideal.ofBits .f32 0x3C23D70A#32
abbrev invN : EReal := Ideal.ofBits .f32 0x39000000#32
abbrev negInf : EReal := Ideal.ofBits .f32 0xFF800000#32

/-- a matrix and a vector of a literal shape as functions of their coordinates -/
abbrev mat {R C : ℕ} (A : (⟨2, ![R, C]⟩ : Shape).Idx → EReal) : Fin R → Fin C → EReal := fun r c => A (ix2 r c)
abbrev vec {C : ℕ} (b : (⟨1, ![C]⟩ : Shape).Idx → EReal) : Fin C → EReal := fun c => b (ix1 c)
/-- a one-row matrix as a function of its column -/
abbrev row {C : ℕ} (b : (⟨2, ![1, C]⟩ : Shape).Idx → EReal) : Fin C → EReal := fun c => b (ix2 (0 : Fin 1) c)

/-- an affine map of a row: sum over k of v k * W k c, plus b c -/
def lin {K C : ℕ} (W : Fin K → Fin C → EReal) (b : Fin C → EReal) (v : Fin K → EReal) (c : Fin C) : EReal :=
  (∑ k : Fin K, v k * W k c) + b c

/-- the rectifier -/
def relu {C : ℕ} (v : Fin C → EReal) (c : Fin C) : EReal := max (v c) 0

/-- the Euclidean norm of a row, floored at eps -/
def floorNorm {C : ℕ} (v : Fin C → EReal) : EReal := max (Ideal.sqrt (∑ q : Fin C, v q * v q)) eps

/-- a row divided by its floored norm -/
def unitRow {C : ℕ} (v : Fin C → EReal) (q : Fin C) : EReal := Ideal.div (v q) (floorNorm v)

section Passes

variable (W1a : Fin 64 → Fin 128 → EReal) (W1b : Fin 32 → Fin 128 → EReal) (b1 : Fin 128 → EReal)
  (W2 : Fin 128 → Fin 128 → EReal) (b2 : Fin 128 → EReal) (Wc : Fin 128 → Fin 32 → EReal) (bc : Fin 32 → EReal)
  (Wg : Fin 128 → Fin 128 → EReal) (bg : Fin 128 → EReal)

/-- first pass on one row of states: the message before normalization -/
def rawMsgRow (x : Fin 64 → EReal) : Fin 32 → EReal := lin Wc bc (lin W2 b2 (relu (lin W1a b1 x)))

/-- first pass on one row of states: the unit message -/
def msgRow (x : Fin 64 → EReal) : Fin 32 → EReal := unitRow (rawMsgRow W1a b1 W2 b2 Wc bc x)

/-- the mean message over the 8192 rows -/
def meanMsg (X : Fin 8192 → Fin 64 → EReal) (q : Fin 32) : EReal :=
  (∑ r : Fin 8192, msgRow W1a b1 W2 b2 Wc bc (X r) q) * invN

/-- the bias the mean message adds to the first layer -/
def commBias (mm : Fin 32 → EReal) (j : Fin 128) : EReal := ∑ q : Fin 32, mm q * W1b q j

/-- second pass on one row of states, under the extra bias cb -/
def coreRow (cb : Fin 128 → EReal) (x : Fin 64 → EReal) : Fin 128 → EReal :=
  lin W2 b2 (fun j => max (lin W1a b1 x j + cb j) 0)

/-- the mean of the second pass over the 8192 rows -/
def meanCore (cb : Fin 128 → EReal) (X : Fin 8192 → Fin 64 → EReal) (j : Fin 128) : EReal :=
  (∑ r : Fin 8192, coreRow W1a b1 W2 b2 cb (X r) j) * invN

/-- the graph layer applied to the mean row -/
def gnnRow (mh : Fin 128 → EReal) : Fin 128 → EReal := relu (lin Wg bg mh)

/-- the one row every agent shares before the noise -/
def sharedRow (X : Fin 8192 → Fin 64 → EReal) : Fin 128 → EReal :=
  gnnRow Wg bg (meanCore W1a b1 W2 b2 (commBias W1b (meanMsg W1a b1 W2 b2 Wc bc X)) X)

end Passes

section Heads

variable (Wp : Fin 128 → Fin 8 → EReal) (bp : Fin 8 → EReal) (Wv : Fin 128 → Fin 1 → EReal) (bv : Fin 1 → EReal)
  (Wr : Fin 128 → Fin 3 → EReal) (br : Fin 3 → EReal)

/-- the shared row plus scaled noise, normalized -/
def finalRow (g : Fin 128 → EReal) (n : Fin 128 → EReal) : Fin 128 → EReal := unitRow (fun j => g j + n j * nscale)

def actRow (h : Fin 128 → EReal) (a : Fin 8) : EReal := Ideal.tanh (lin Wp bp h a)

def valRow (h : Fin 128 → EReal) (u : Fin 1) : EReal := lin Wv bv h u

/-- the softmax as both programs spell it: the maximum taken from minus infinity twice -/
def softRow (l : Fin 3 → EReal) (s : Fin 3) : EReal :=
  Ideal.div (Ideal.exp (l s - max negInf ((Finset.univ : Finset (Fin 3)).fold max negInf l)))
    (∑ s' : Fin 3, Ideal.exp (l s' - max negInf ((Finset.univ : Finset (Fin 3)).fold max negInf l)))

def roleRow (h : Fin 128 → EReal) : Fin 3 → EReal := softRow (lin Wr br h)

end Heads

/-- the upper 64 and the lower 32 rows of the first weight matrix -/
def upper (W1 : Fin 96 → Fin 128 → EReal) : Fin 64 → Fin 128 → EReal := fun k j => W1 ⟨k.val, by have := k.isLt; omega⟩ j
def lower (W1 : Fin 96 → Fin 128 → EReal) : Fin 32 → Fin 128 → EReal := fun q j => W1 ⟨64 + q.val, by have := q.isLt; omega⟩ j

/-- the shared row from the sixteen argument arrays' relevant nine -/
def shared (X : Fin 8192 → Fin 64 → EReal) (W1 : Fin 96 → Fin 128 → EReal) (b1 : Fin 128 → EReal)
    (W2 : Fin 128 → Fin 128 → EReal) (b2 : Fin 128 → EReal) (Wc : Fin 128 → Fin 32 → EReal) (bc : Fin 32 → EReal)
    (Wg : Fin 128 → Fin 128 → EReal) (bg : Fin 128 → EReal) : Fin 128 → EReal :=
  sharedRow (upper W1) (lower W1) b1 W2 b2 Wc bc Wg bg X

end Cert.Spec

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.RefA.lean ====
/-
  The reference program's first pass, read one entry at a time over the extended reals.

  The reference joins each row of states x (64 numbers) with 32 zeros and multiplies the joined row by the whole
  first weight matrix: the zeros meet the lower 32 rows of the matrix and contribute nothing, so the product is x
  times the upper 64 rows. A bias, the rectifier, a second affine map and a third one to 32 numbers follow; the
  32-row is divided by its Euclidean norm floored at a small word; the quotient is summed over the 8192 rows from the
  zero word and divided by the word for 8192. Division by 8192 is multiplication by 2^-13, and a sum started at zero
  is the sum, so the result is the mean message of the specification.

  The general facts come first: the two float words, the split of a sum over 96 = 64 + 32 terms against the first
  weight matrix, and two arrays joined side by side read in either part.
-/
import proofs.«142343_j22625887715845_1_alg».proof.Proof.Gen.ReferenceIdeal.Read
import proofs.«142343_j22625887715845_1_alg».proof.Proof.Spec
import proofs.«142343_j22625887715845_1_alg».proof.Proof.LibBiasRow
import Idealize.ShloMosaic.Lib.Pipeline.Value
import Idealize.ShloMosaic.Lib.ValueIdx
import Idealize.ShloMosaic.PureOps.Ideal.Laws
import Mathlib.Data.EReal.Operations
import Mathlib.Algebra.BigOperators.Fin

noncomputable section

open scoped BigOperators

namespace Cert.ReferenceIdeal.RefValue

open Cert.ReferenceIdeal Cert.ReferenceIdeal.Gen Cert.ReferenceIdeal.Read Cert.Spec Idealize.ShloMosaic
  Idealize.ShloMosaic.ValueIdx

/-! ## General facts -/

section General

/-- The word 0x46000000 is the real number 8192. -/
theorem ofBits_8192 : Ideal.ofBits .f32 0x46000000#32 = ((8192 : ℝ) : EReal) := by
  simp [Ideal.ofBits, Ideal.ieee, -EReal.coe_mul]; norm_num

/-- The word 0x39000000 is the real number 1/8192, that is 2^-13. -/
theorem invN_eq : invN = ((1 / 8192 : ℝ) : EReal) := by
  simp [Ideal.ofBits, Ideal.ieee, -EReal.coe_mul]; norm_num

/-- Dividing by the word for 8192 is multiplying by the word for 2^-13, for every extended real. -/
theorem div_8192 (x : EReal) : Ideal.div x (Ideal.ofBits .f32 0x46000000#32) = x * invN := by
  rw [ofBits_8192, invN_eq]
  exact Ideal.div_coe (by norm_num) x

/-- A sum over 96 = 64 + 32 terms against the first weight matrix splits into the sum over its upper 64 rows and the
    sum over its lower 32 rows, once the 96-row is known to be a 64-row x followed by a 32-row u. -/
theorem sum96_split (f : Fin 96 → EReal) (x : Fin 64 → EReal) (u : Fin 32 → EReal)
    (W1 : Fin 96 → Fin 128 → EReal) (j : Fin 128)
    (hx : ∀ k : Fin 64, f ⟨k.val, by have := k.isLt; omega⟩ = x k)
    (hu : ∀ q : Fin 32, f ⟨64 + q.val, by have := q.isLt; omega⟩ = u q) :
    ∑ k : Fin 96, f k * W1 k j
      = ∑ k : Fin 64, x k * upper W1 k j + ∑ q : Fin 32, u q * lower W1 q j := by
  -- 96 terms are the first 64 followed by the last 32
  have h := Fin.sum_univ_add (a := 64) (b := 32) (fun k : Fin (64 + 32) => f k * W1 k j)
  refine h.trans ?_
  congr 1
  · exact Finset.sum_congr rfl fun k _ => by rw [← hx k]; rfl
  · exact Finset.sum_congr rfl fun q _ => by rw [← hu q]; rfl

/-- With nothing in the lower part the sum is the sum over the upper 64 rows alone. -/
theorem sum96_upper (f : Fin 96 → EReal) (x : Fin 64 → EReal)
    (W1 : Fin 96 → Fin 128 → EReal) (j : Fin 128)
    (hx : ∀ k : Fin 64, f ⟨k.val, by have := k.isLt; omega⟩ = x k)
    (hu : ∀ q : Fin 32, f ⟨64 + q.val, by have := q.isLt; omega⟩ = 0) :
    ∑ k : Fin 96, f k * W1 k j = ∑ k : Fin 64, x k * upper W1 k j := by
  rw [sum96_split f x (fun _ => 0) W1 j hx hu]
  simp only [zero_mul, Finset.sum_const_zero, add_zero]

/-- Two arrays joined side by side, [8192, 64] then [8192, 32], read in the left part: column k < 64 of row r is the
    left array's entry (r, k). -/
theorem join_left {α : Type} (h : Shape.Concatenates [(⟨2, ![8192, 64]⟩ : Shape), ⟨2, ![8192, 32]⟩] ⟨2, ![8192, 96]⟩ 1)
    (a : (⟨2, ![8192, 64]⟩ : Shape).Idx → α) (b : (⟨2, ![8192, 32]⟩ : Shape).Idx → α) (r : Fin 8192) (k : Fin 64) :
    concatenate ⟨2, ![8192, 96]⟩ 1 [⟨⟨2, ![8192, 64]⟩, a⟩, ⟨⟨2, ![8192, 32]⟩, b⟩] h
        (ix2 r (⟨k.val, by have := k.isLt; omega⟩ : Fin 96)) = a (ix2 r k) := by
  refine concatenate_pair_apply_left 1 a b h _ rfl (ix2 r k) fun c => ?_
  match c with
  | ⟨0, _⟩ => rfl
  | ⟨1, _⟩ => rfl

/-- … and in the right part: column 64 + q of row r is the right array's entry (r, q). -/
theorem join_right {α : Type} (h : Shape.Concatenates [(⟨2, ![8192, 64]⟩ : Shape), ⟨2, ![8192, 32]⟩] ⟨2, ![8192, 96]⟩ 1)
    (a : (⟨2, ![8192, 64]⟩ : Shape).Idx → α) (b : (⟨2, ![8192, 32]⟩ : Shape).Idx → α) (r : Fin 8192) (q : Fin 32) :
    concatenate ⟨2, ![8192, 96]⟩ 1 [⟨⟨2, ![8192, 64]⟩, a⟩, ⟨⟨2, ![8192, 32]⟩, b⟩] h
        (ix2 r (⟨64 + q.val, by have := q.isLt; omega⟩ : Fin 96)) = b (ix2 r q) := by
  refine concatenate_pair_apply_right 1 a b h _ rfl rfl (ix2 r q) (fun c hc => ?_) ?_
  · match c with
    | ⟨0, _⟩ => rfl
    | ⟨1, _⟩ => exact absurd rfl hc
  · show q.val + 64 = 64 + q.val
    omega

end General

/-! ## The first pass, layer by layer -/

section FirstPass

variable (x0 : (⟨S8192x64, .f32⟩ : BufTy).Contents (Elt Ideal)) (x2 : (⟨S96x128, .f32⟩ : BufTy).Contents (Elt Ideal))
  (x3 : (⟨S128, .f32⟩ : BufTy).Contents (Elt Ideal)) (x4 : (⟨S128x128, .f32⟩ : BufTy).Contents (Elt Ideal))
  (x5 : (⟨S128, .f32⟩ : BufTy).Contents (Elt Ideal)) (x6 : (⟨S128x32, .f32⟩ : BufTy).Contents (Elt Ideal))
  (x7 : (⟨S32, .f32⟩ : BufTy).Contents (Elt Ideal))

/-- The communication of the first pass is zero everywhere. -/
theorem ref_v0 (i : S8192x32.Idx) : val_main_v0 (F := Ideal) i = 0 := by
  rw [val_main_v0_apply, val_main_cst_apply]
  exact Ideal.ofBits_zero_f32

/-- The joined row, in its first 64 columns, is the row of states. -/
theorem ref_v1_left (r : Fin 8192) (k : Fin 64) :
    val_main_v1 (F := Ideal) x0 (ix2 r (⟨k.val, by have := k.isLt; omega⟩ : Fin 96)) = x0 (ix2 r k) := by
  unfold val_main_v1
  exact join_left _ x0 _ r k

/-- The joined row, in its last 32 columns, is zero. -/
theorem ref_v1_right (r : Fin 8192) (q : Fin 32) :
    val_main_v1 (F := Ideal) x0 (ix2 r (⟨64 + q.val, by have := q.isLt; omega⟩ : Fin 96)) = 0 := by
  unfold val_main_v1
  rw [join_right]
  exact ref_v0 _

/-- The joined row times the whole first weight matrix is the row of states times its upper 64 rows. -/
theorem ref_v2 (r : Fin 8192) (j : Fin 128) :
    val_main_v2 (F := Ideal) x0 x2 (ix2 r j) = ∑ k : Fin 64, x0 (ix2 r k) * upper (mat x2) k j := by
  rw [val_main_v2_apply]
  have el : ∀ k : Fin 96, lidx_main_v2 (ix2 r j) k = ix2 r k := fun k =>
    funext fun a => Fin.ext (by match a with | ⟨0, _⟩ => rfl | ⟨1, _⟩ => rfl)
  have er : ∀ k : Fin 96, ridx_main_v2 (ix2 r j) k = ix2 k j := fun k =>
    funext fun a => Fin.ext (by match a with | ⟨0, _⟩ => rfl | ⟨1, _⟩ => rfl)
  simp only [el, er]
  exact sum96_upper (fun k => val_main_v1 (F := Ideal) x0 (ix2 r k)) (fun k => x0 (ix2 r k)) (mat x2) j
    (ref_v1_left x0 r) (ref_v1_right x0 r)

/-- The first bias, laid out over the rows. -/
theorem ref_v4 (r : Fin 8192) (j : Fin 128) : val_main_v4 (F := Ideal) x3 (ix2 r j) = x3 (ix1 j) := by
  unfold val_main_v4 val_main_v3
  exact Cert.BiasRow.layout_layout_apply _ _ x3 r j

/-- The first affine map of a row of states. -/
theorem ref_v5 (r : Fin 8192) (j : Fin 128) :
    val_main_v5 (F := Ideal) x0 x2 x3 (ix2 r j) = lin (upper (mat x2)) (vec x3) (mat x0 r) j := by
  rw [val_main_v5_apply, ref_v2, ref_v4]
  rfl

/-- … and its rectifier. -/
theorem ref_v6 (r : Fin 8192) (j : Fin 128) :
    val_main_v6 (F := Ideal) x0 x2 x3 (ix2 r j) = relu (lin (upper (mat x2)) (vec x3) (mat x0 r)) j := by
  rw [val_main_v6_apply, ref_v5, val_main_call0_v0_apply, val_main_call0_cst_apply]
  show max _ (Ideal.ofBits .f32 0x00000000#32) = _
  rw [Ideal.ofBits_zero_f32]
  rfl

/-- The second bias, laid out over the rows. -/
theorem ref_v9 (r : Fin 8192) (j : Fin 128) : val_main_v9 (F := Ideal) x5 (ix2 r j) = x5 (ix1 j) := by
  unfold val_main_v9 val_main_v8
  exact Cert.BiasRow.layout_layout_apply _ _ x5 r j

/-- The second affine map: the first core of a row of states. -/
theorem ref_v10 (r : Fin 8192) (j : Fin 128) :
    val_main_v10 (F := Ideal) x0 x2 x3 x4 x5 (ix2 r j)
      = lin (mat x4) (vec x5) (relu (lin (upper (mat x2)) (vec x3) (mat x0 r))) j := by
  rw [val_main_v10_apply, val_main_v7_apply, ref_v9]
  have el : ∀ k : Fin 128, lidx_main_v7 (ix2 r j) k = ix2 r k := fun k =>
    funext fun a => Fin.ext (by match a with | ⟨0, _⟩ => rfl | ⟨1, _⟩ => rfl)
  have er : ∀ k : Fin 128, ridx_main_v7 (ix2 r j) k = ix2 k j := fun k =>
    funext fun a => Fin.ext (by match a with | ⟨0, _⟩ => rfl | ⟨1, _⟩ => rfl)
  simp only [el, er, ref_v6]
  rfl

/-- The message bias, laid out over the rows. -/
theorem ref_v13 (r : Fin 8192) (q : Fin 32) : val_main_v13 (F := Ideal) x7 (ix2 r q) = x7 (ix1 q) := by
  unfold val_main_v13 val_main_v12
  exact Cert.BiasRow.layout_layout_apply _ _ x7 r q

/-- The message of a row of states before its normalization. -/
theorem ref_v14 (r : Fin 8192) (q : Fin 32) :
    val_main_v14 (F := Ideal) x0 x2 x3 x4 x5 x6 x7 (ix2 r q)
      = rawMsgRow (upper (mat x2)) (vec x3) (mat x4) (vec x5) (mat x6) (vec x7) (mat x0 r) q := by
  rw [val_main_v14_apply, val_main_v11_apply, ref_v13]
  have el : ∀ k : Fin 128, lidx_main_v11 (ix2 r q) k = ix2 r k := fun k =>
    funext fun a => Fin.ext (by match a with | ⟨0, _⟩ => rfl | ⟨1, _⟩ => rfl)
  have er : ∀ k : Fin 128, ridx_main_v11 (ix2 r q) k = ix2 k q := fun k =>
    funext fun a => Fin.ext (by match a with | ⟨0, _⟩ => rfl | ⟨1, _⟩ => rfl)
  simp only [el, er, ref_v10]
  rfl

/-- The Euclidean norm of the message: the square root of the sum of its squares, the sum started at the zero word. -/
theorem ref_v15 (r : Fin 8192) :
    val_main_v15 (F := Ideal) x0 x2 x3 x4 x5 x6 x7 (ix2 r (0 : Fin 1))
      = Ideal.sqrt (∑ q : Fin 32,
          rawMsgRow (upper (mat x2)) (vec x3) (mat x4) (vec x5) (mat x6) (vec x7) (mat x0 r) q
            * rawMsgRow (upper (mat x2)) (vec x3) (mat x4) (vec x5) (mat x6) (vec x7) (mat x0 r) q) := by
  rw [val_main_v15_apply, val_main_call1_v2_apply, val_main_call1_v1_apply, val_main_call1_cst_apply]
  have e : ∀ k : Fin 32, idx_main_call1_v1 (idx_main_call1_v2 (ix2 r (0 : Fin 1))) k = ix2 r k := fun k =>
    funext fun a => Fin.ext (by match a with | ⟨0, _⟩ => rfl | ⟨1, _⟩ => rfl)
  simp only [e, val_main_call1_v0_apply, ref_v14]
  show Ideal.sqrt (Ideal.ofBits .f32 0x00000000#32 + _) = _
  rw [Ideal.ofBits_zero_f32, zero_add]
  rfl

/-- The norm floored at the small word. -/
theorem ref_v17 (r : Fin 8192) :
    val_main_v17 (F := Ideal) x0 x2 x3 x4 x5 x6 x7 (ix2 r (0 : Fin 1))
      = floorNorm (rawMsgRow (upper (mat x2)) (vec x3) (mat x4) (vec x5) (mat x6) (vec x7) (mat x0 r)) := by
  rw [val_main_v17_apply, ref_v15, val_main_v16_apply, val_main_cst_0_apply]
  rfl

/-- The unit message of a row of states. -/
theorem ref_v19 (r : Fin 8192) (q : Fin 32) :
    val_main_v19 (F := Ideal) x0 x2 x3 x4 x5 x6 x7 (ix2 r q)
      = msgRow (upper (mat x2)) (vec x3) (mat x4) (vec x5) (mat x6) (vec x7) (mat x0 r) q := by
  rw [val_main_v19_apply, val_main_v18_apply]
  have e : idx_main_v18 (ix2 r q) = ix2 r (0 : Fin 1) :=
    funext fun a => Fin.ext (by match a with | ⟨0, _⟩ => rfl | ⟨1, _⟩ => rfl)
  rw [e, ref_v14, ref_v17]
  rfl

/-- The unit messages summed over the 8192 rows, from the zero word. -/
theorem ref_v20 (q : Fin 32) :
    val_main_v20 (F := Ideal) x0 x2 x3 x4 x5 x6 x7 (ix1 q)
      = ∑ r : Fin 8192, msgRow (upper (mat x2)) (vec x3) (mat x4) (vec x5) (mat x6) (vec x7) (mat x0 r) q := by
  rw [val_main_v20_apply, val_main_cst_1_apply]
  have e : ∀ r : Fin 8192, idx_main_v20 (ix1 q) r = ix2 r q := fun r =>
    funext fun a => Fin.ext (by match a with | ⟨0, _⟩ => rfl | ⟨1, _⟩ => rfl)
  simp only [e, ref_v19]
  show Ideal.ofBits .f32 0x00000000#32 + _ = _
  rw [Ideal.ofBits_zero_f32, zero_add]

/-- The mean message: the reference's sum divided by 8192 is the specification's sum times 2^-13. -/
theorem ref_v23 (q : Fin 32) :
    val_main_v23 (F := Ideal) x0 x2 x3 x4 x5 x6 x7 (ix2 (0 : Fin 1) q)
      = meanMsg (upper (mat x2)) (vec x3) (mat x4) (vec x5) (mat x6) (vec x7) (mat x0) q := by
  rw [val_main_v23_apply, val_main_v21_apply, val_main_v22_apply, val_main_cst_2_apply]
  have e : idx_main_v21 (ix2 (0 : Fin 1) q) = ix1 q :=
    funext fun a => Fin.ext (by match a with | ⟨0, _⟩ => rfl)
  rw [e, ref_v20]
  show Ideal.div _ (Ideal.ofBits .f32 0x46000000#32) = _
  rw [div_8192]
  rfl

end FirstPass

end Cert.ReferenceIdeal.RefValue

end
-- ==== Proof.RefB.lean ====
/-
  The reference's second pass and graph layer, read one entry at a time over the extended reals.

  Second pass. Each row of states x (64 numbers) is joined with the mean message mm (32 numbers, the same for every
  row) into a row of 96 numbers and multiplied by the first weight matrix W1 (96 rows). A sum over the 96 joined
  columns is the sum over the 64 state columns plus the sum over the 32 message columns, so

      [x, mm] · W1 = x · (upper 64 rows of W1) + mm · (lower 32 rows of W1),

  the second term being the bias the mean message adds. The reference adds the bias row b1 after both products,
  (x·W1a + mm·W1b) + b1; the row function adds it before the message term, (x·W1a + b1) + mm·W1b: addition of
  extended reals is commutative and associative, so the two agree. The rectifier and the second affine map follow
  entry by entry.

  Graph layer. The adjacency matrix is the word 1.0 divided by the word 8192.0 in every entry, which is the word 2^-13.
  Row i of the adjacency times the second pass H is therefore  Σ_r 2^-13 · H(r, j)  whatever i is. The factor 2^-13 is
  a nonnegative real, and a nonnegative real factor distributes over a sum of extended reals (a negative or an
  infinite one need not: ⊤ + ⊥ = ⊥), so the row is  (Σ_r H(r, j)) · 2^-13 , the mean of the second pass. One more
  affine map and rectifier give a result all of whose rows are the same shared row.
-/
import proofs.«142343_j22625887715845_1_alg».proof.Proof.Gen.ReferenceIdeal.Read
import proofs.«142343_j22625887715845_1_alg».proof.Proof.Spec
import proofs.«142343_j22625887715845_1_alg».proof.Proof.LibDense
import proofs.«142343_j22625887715845_1_alg».proof.Proof.LibBiasRow
import proofs.«142343_j22625887715845_1_alg».proof.Proof.RefA
import Idealize.ShloMosaic.Lib.Pipeline.Value
import Idealize.ShloMosaic.Lib.ValueIdx
import Idealize.ShloMosaic.PureOps.Ideal.Laws
import Mathlib.Algebra.BigOperators.Fin
import Mathlib.Data.EReal.Operations

noncomputable section

open scoped BigOperators

namespace Cert.ReferenceIdeal.RefValue

open Cert.ReferenceIdeal Cert.ReferenceIdeal.Gen Cert.ReferenceIdeal.Read Cert.Spec Idealize.ShloMosaic Idealize.ShloMosaic.ValueIdx

/-! ## Arithmetic on the extended reals -/

/-- A nonnegative real factor moves through a finite sum: every partial sum is multiplied by a factor that is
    neither negative nor infinite, which is when the product distributes over a sum of extended reals. -/
theorem pass2_coe_mul_sum {ι : Type} (s : Finset ι) (c : ℝ) (hc : 0 ≤ c) (f : ι → EReal) :
    ∑ i ∈ s, (c : EReal) * f i = (c : EReal) * ∑ i ∈ s, f i := by
  classical
  induction s using Finset.induction_on with
  | empty => rw [Finset.sum_empty, Finset.sum_empty, mul_zero]
  | insert a s ha ih =>
    rw [Finset.sum_insert ha, Finset.sum_insert ha, ih,
      EReal.left_distrib_of_nonneg_of_ne_top (EReal.coe_nonneg.2 hc) (EReal.coe_ne_top c)]

/-- column k of the 64 state columns among the 96 joined columns -/
abbrev colL (k : Fin 64) : Fin 96 := ⟨k.val, by have := k.isLt; omega⟩
/-- column q of the 32 message columns among the 96 joined columns -/
abbrev colR (q : Fin 32) : Fin 96 := ⟨64 + q.val, by have := q.isLt; omega⟩

/-- A sum over the 96 joined columns is the sum over the 64 state columns plus the sum over the 32 message columns. -/
theorem pass2_sum_split {M : Type} [AddCommMonoid M] (f : Fin 96 → M) :
    ∑ t : Fin 96, f t = (∑ k : Fin 64, f (colL k)) + ∑ q : Fin 32, f (colR q) :=
  Fin.sum_univ_add (a := 64) (b := 32) f

/-! ## The three float words of the uniform adjacency -/

/-- the word 1.0 denotes the number 1 -/
theorem pass2_word_one : Ideal.ofBits .f32 0x3F800000#32 = ((1 : ℝ) : EReal) := by
  simp [Ideal.ofBits, Ideal.ieee, -EReal.coe_mul]; norm_num

/-- the word 8192.0 denotes the number 8192 -/
theorem pass2_word_n : Ideal.ofBits .f32 0x46000000#32 = ((8192 : ℝ) : EReal) := by
  simp [Ideal.ofBits, Ideal.ieee, -EReal.coe_mul]; norm_num

/-- the word 2^-13 denotes the number 1 / 8192 -/
theorem pass2_invN : invN = ((1 / 8192 : ℝ) : EReal) := by
  simp [invN, Ideal.ofBits, Ideal.ieee, -EReal.coe_mul]; norm_num

/-- 1.0 divided by 8192.0 is 2^-13 -/
theorem pass2_adj_word : Ideal.div (Ideal.ofBits .f32 0x3F800000#32) (Ideal.ofBits .f32 0x46000000#32) = invN := by
  rw [pass2_word_one, pass2_word_n, Ideal.div_coe (by norm_num), pass2_invN, ← EReal.coe_mul, one_mul]

/-! ## The second pass, one operation at a time -/

section SecondPass

variable (x0 : (⟨S8192x64, .f32⟩ : BufTy).Contents (Elt Ideal)) (x2 : (⟨S96x128, .f32⟩ : BufTy).Contents (Elt Ideal))
  (x3 : (⟨S128, .f32⟩ : BufTy).Contents (Elt Ideal)) (x4 : (⟨S128x128, .f32⟩ : BufTy).Contents (Elt Ideal))
  (x5 : (⟨S128, .f32⟩ : BufTy).Contents (Elt Ideal)) (x6 : (⟨S128x32, .f32⟩ : BufTy).Contents (Elt Ideal))
  (x7 : (⟨S32, .f32⟩ : BufTy).Contents (Elt Ideal)) (x8 : (⟨S128x128, .f32⟩ : BufTy).Contents (Elt Ideal))
  (x9 : (⟨S128, .f32⟩ : BufTy).Contents (Elt Ideal))

/-- the mean message of the first pass, over the argument arrays -/
abbrev meanMsgOf : Fin 32 → EReal :=
  meanMsg (upper (mat x2)) (vec x3) (mat x4) (vec x5) (mat x6) (vec x7) (mat x0)

/-- the bias the mean message adds to the first layer, over the argument arrays -/
abbrev commBiasOf : Fin 128 → EReal := commBias (lower (mat x2)) (meanMsgOf x0 x2 x3 x4 x5 x6 x7)

/-- every row of the broadcast mean message is the mean message -/
theorem pass2_v24 (r : Fin 8192) (q : Fin 32) :
    val_main_v24 (F := Ideal) x0 x2 x3 x4 x5 x6 x7 (ix2 r q) = meanMsgOf x0 x2 x3 x4 x5 x6 x7 q := by
  have e : idx_main_v24 (ix2 r q) = ix2 (0 : Fin 1) q :=
    funext fun a => Fin.ext (by match a with | ⟨0, _⟩ => rfl | ⟨1, _⟩ => rfl)
  rw [val_main_v24_apply, e, ref_v23]

/-- the joined row at one of its 64 state columns is the state -/
theorem pass2_v25_left (r : Fin 8192) (k : Fin 64) :
    val_main_v25 (F := Ideal) x0 x2 x3 x4 x5 x6 x7 (ix2 r (colL k)) = x0 (ix2 r k) := by
  unfold val_main_v25
  refine concatenate_pair_apply_left 1 _ _ concatenates_S8192x64_S8192x32_S8192x96_d1 (ix2 r (colL k)) rfl (ix2 r k)
    fun b => ?_
  match b with
  | ⟨0, _⟩ => rfl
  | ⟨1, _⟩ => rfl

/-- the joined row at one of its 32 message columns is the mean message -/
theorem pass2_v25_right (r : Fin 8192) (q : Fin 32) :
    val_main_v25 (F := Ideal) x0 x2 x3 x4 x5 x6 x7 (ix2 r (colR q)) = meanMsgOf x0 x2 x3 x4 x5 x6 x7 q := by
  rw [← pass2_v24 x0 x2 x3 x4 x5 x6 x7 r q]
  unfold val_main_v25
  refine concatenate_pair_apply_right 1 _ _ concatenates_S8192x64_S8192x32_S8192x96_d1 (ix2 r (colR q)) rfl rfl (ix2 r q)
    (fun b hb => ?_) ?_
  · match b with
    | ⟨0, _⟩ => rfl
    | ⟨1, _⟩ => exact absurd rfl hb
  · show q.val + 64 = 64 + q.val
    omega

/-- the first layer's product on the joined row: the state times the upper 64 rows of the weights, plus the bias of
    the mean message through the lower 32 rows -/
theorem pass2_v26 (r : Fin 8192) (j : Fin 128) :
    val_main_v26 (F := Ideal) x0 x2 x3 x4 x5 x6 x7 (ix2 r j)
      = (∑ k : Fin 64, x0 (ix2 r k) * upper (mat x2) k j) + commBiasOf x0 x2 x3 x4 x5 x6 x7 j := by
  have e : val_main_v26 (F := Ideal) x0 x2 x3 x4 x5 x6 x7 (ix2 r j)
      = ∑ t : Fin 96, val_main_v25 (F := Ideal) x0 x2 x3 x4 x5 x6 x7 (ix2 r t) * x2 (ix2 t j) := by
    unfold val_main_v26
    exact Cert.Dense.dotGeneral_plain_apply dot_S8192x96_S96x128_S8192x128_1_0_0_1_n_n rfl rfl rfl rfl rfl rfl none _ x2 r j
  rw [e, pass2_sum_split]
  simp only [pass2_v25_left, pass2_v25_right]
  rfl

/-- the first layer's bias row, laid out over the rows -/
theorem pass2_v28 (r : Fin 8192) (j : Fin 128) : val_main_v28 (F := Ideal) x3 (ix2 r j) = x3 (ix1 j) := by
  unfold val_main_v28 val_main_v27
  exact Cert.BiasRow.layout_layout_apply bcast_S128_S1x128_1 bcast_S1x128_S8192x128_0_1 x3 r j

/-- the first layer before its rectifier: the reference adds the bias row after both products, the row function adds it
    before the message term -/
theorem pass2_v29 (r : Fin 8192) (j : Fin 128) :
    val_main_v29 (F := Ideal) x0 x2 x3 x4 x5 x6 x7 (ix2 r j)
      = lin (upper (mat x2)) (vec x3) (fun k => x0 (ix2 r k)) j + commBiasOf x0 x2 x3 x4 x5 x6 x7 j := by
  rw [val_main_v29_apply, pass2_v26, pass2_v28]
  exact add_right_comm _ _ _

/-- the first layer's rectifier -/
theorem pass2_v30 (r : Fin 8192) (j : Fin 128) :
    val_main_v30 (F := Ideal) x0 x2 x3 x4 x5 x6 x7 (ix2 r j)
      = max (lin (upper (mat x2)) (vec x3) (fun k => x0 (ix2 r k)) j + commBiasOf x0 x2 x3 x4 x5 x6 x7 j) 0 := by
  rw [← pass2_v29]
  unfold val_main_v30 val_main_call2_v0 val_main_call2_cst
  exact Cert.Dense.host_relu_apply bcast_S_S8192x128 _ (ix2 r j)

/-- the second layer's bias row, laid out over the rows -/
theorem pass2_v33 (r : Fin 8192) (j : Fin 128) : val_main_v33 (F := Ideal) x5 (ix2 r j) = x5 (ix1 j) := by
  unfold val_main_v33 val_main_v32
  exact Cert.BiasRow.layout_layout_apply bcast_S128_S1x128_1 bcast_S1x128_S8192x128_0_1 x5 r j

/-- The second pass on row r is the row function coreRow under the bias of the mean message. -/
theorem ref_v34 (r : Fin 8192) (j : Fin 128) :
    val_main_v34 (F := Ideal) x0 x2 x3 x4 x5 x6 x7 (ix2 r j)
      = coreRow (upper (mat x2)) (vec x3) (mat x4) (vec x5)
          (commBias (lower (mat x2)) (meanMsg (upper (mat x2)) (vec x3) (mat x4) (vec x5) (mat x6) (vec x7) (mat x0)))
          (fun k => x0 (ix2 r k)) j := by
  have e : val_main_v31 (F := Ideal) x0 x2 x3 x4 x5 x6 x7 (ix2 r j)
      = ∑ k : Fin 128, val_main_v30 (F := Ideal) x0 x2 x3 x4 x5 x6 x7 (ix2 r k) * x4 (ix2 k j) := by
    unfold val_main_v31
    exact Cert.Dense.dotGeneral_plain_apply dot_S8192x128_S128x128_S8192x128_1_0_0_1_n_n rfl rfl rfl rfl rfl rfl none _ x4 r j
  rw [val_main_v34_apply, e, pass2_v33]
  simp only [pass2_v30]
  rfl

end SecondPass

/-! ## The graph layer: the uniform adjacency averages the rows -/

section GraphLayer

variable (x0 : (⟨S8192x64, .f32⟩ : BufTy).Contents (Elt Ideal)) (x2 : (⟨S96x128, .f32⟩ : BufTy).Contents (Elt Ideal))
  (x3 : (⟨S128, .f32⟩ : BufTy).Contents (Elt Ideal)) (x4 : (⟨S128x128, .f32⟩ : BufTy).Contents (Elt Ideal))
  (x5 : (⟨S128, .f32⟩ : BufTy).Contents (Elt Ideal)) (x6 : (⟨S128x32, .f32⟩ : BufTy).Contents (Elt Ideal))
  (x7 : (⟨S32, .f32⟩ : BufTy).Contents (Elt Ideal)) (x8 : (⟨S128x128, .f32⟩ : BufTy).Contents (Elt Ideal))
  (x9 : (⟨S128, .f32⟩ : BufTy).Contents (Elt Ideal))

/-- every entry of the adjacency matrix is 2^-13 -/
theorem graph_v37 (r s : Fin 8192) : val_main_v37 (F := Ideal) (ix2 r s) = invN := by
  rw [val_main_v37_apply, val_main_v35_apply, val_main_v36_apply, val_main_cst_3_apply, val_main_cst_4_apply]
  exact pass2_adj_word

/-- the mean of the second pass over the rows, over the argument arrays -/
abbrev meanCoreOf : Fin 128 → EReal :=
  meanCore (upper (mat x2)) (vec x3) (mat x4) (vec x5) (commBiasOf x0 x2 x3 x4 x5 x6 x7) (mat x0)

/-- Every row of the adjacency times the second pass is the mean of the second pass: each term carries the same
    nonnegative real factor 2^-13, which moves through the sum over the 8192 rows. -/
theorem graph_v38 (r : Fin 8192) (k : Fin 128) :
    val_main_v38 (F := Ideal) x0 x2 x3 x4 x5 x6 x7 (ix2 r k) = meanCoreOf x0 x2 x3 x4 x5 x6 x7 k := by
  have e : val_main_v38 (F := Ideal) x0 x2 x3 x4 x5 x6 x7 (ix2 r k)
      = ∑ s : Fin 8192, val_main_v37 (F := Ideal) (ix2 r s) * val_main_v34 (F := Ideal) x0 x2 x3 x4 x5 x6 x7 (ix2 s k) := by
    unfold val_main_v38
    exact Cert.Dense.dotGeneral_plain_apply dot_S8192x8192_S8192x128_S8192x128_1_0_0_1_n_n rfl rfl rfl rfl rfl rfl none _ _ r k
  rw [e]
  simp only [graph_v37, ref_v34]
  rw [pass2_invN, pass2_coe_mul_sum _ _ (by norm_num), ← pass2_invN, mul_comm]
  rfl

/-- the graph layer's bias row, laid out over the rows -/
theorem graph_v41 (r : Fin 8192) (j : Fin 128) : val_main_v41 (F := Ideal) x9 (ix2 r j) = x9 (ix1 j) := by
  unfold val_main_v41 val_main_v40
  exact Cert.BiasRow.layout_layout_apply bcast_S128_S1x128_1 bcast_S1x128_S8192x128_0_1 x9 r j

/-- the graph layer before its rectifier -/
theorem graph_v42 (r : Fin 8192) (j : Fin 128) :
    val_main_v42 (F := Ideal) x0 x2 x3 x4 x5 x6 x7 x8 x9 (ix2 r j)
      = lin (mat x8) (vec x9) (meanCoreOf x0 x2 x3 x4 x5 x6 x7) j := by
  have e : val_main_v39 (F := Ideal) x0 x2 x3 x4 x5 x6 x7 x8 (ix2 r j)
      = ∑ k : Fin 128, val_main_v38 (F := Ideal) x0 x2 x3 x4 x5 x6 x7 (ix2 r k) * x8 (ix2 k j) := by
    unfold val_main_v39
    exact Cert.Dense.dotGeneral_plain_apply dot_S8192x128_S128x128_S8192x128_1_0_0_1_n_n rfl rfl rfl rfl rfl rfl none _ x8 r j
  rw [val_main_v42_apply, e, graph_v41]
  simp only [graph_v38]
  rfl

/-- Every row of the graph layer's result is the one shared row. -/
theorem ref_v43 (r : Fin 8192) (j : Fin 128) :
    val_main_v43 (F := Ideal) x0 x2 x3 x4 x5 x6 x7 x8 x9 (ix2 r j)
      = shared (mat x0) (mat x2) (vec x3) (mat x4) (vec x5) (mat x6) (vec x7) (mat x8) (vec x9) j := by
  have e : val_main_v43 (F := Ideal) x0 x2 x3 x4 x5 x6 x7 x8 x9 (ix2 r j)
      = max (val_main_v42 (F := Ideal) x0 x2 x3 x4 x5 x6 x7 x8 x9 (ix2 r j)) 0 := by
    unfold val_main_v43 val_main_call3_v0 val_main_call3_cst
    exact Cert.Dense.host_relu_apply bcast_S_S8192x128 _ (ix2 r j)
  rw [e, graph_v42]
  rfl

end GraphLayer

end Cert.ReferenceIdeal.RefValue

end
-- ==== Proof.RefC.lean ====
/-
  The tail of the reference program, one row of agents at a time.

  Every agent's row starts from the same shared row g. The reference adds to it the agent's own noise row times the
  noise scale, divides the sum by its Euclidean norm floored at a small word (the squares are summed from the zero
  word, so the sum is 0 + the sum of squares), and reads the resulting row h out three times: an affine map to 8
  numbers under the hyperbolic tangent, an affine map to one number, and an affine map to 3 numbers under a softmax.
  The softmax takes the row's maximum by a fold of max from minus infinity over the three entries, takes the maximum
  with minus infinity once more, subtracts it, exponentiates, sums the three exponentials from the zero word and
  divides. Each step is read at an entry (r, j): a layout operation reads its operand at a computed index, which is
  identified here with the entry's own coordinates; a product with a weight matrix is the sum over k of h k times
  the weight at (k, c). No algebra is used beyond 0 + x = x: the row functions mirror the order of the operations.
-/
import proofs.«142343_j22625887715845_1_alg».proof.Proof.Gen.ReferenceIdeal.Read
import proofs.«142343_j22625887715845_1_alg».proof.Proof.Spec
import proofs.«142343_j22625887715845_1_alg».proof.Proof.RefB
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Cert.Spec Idealize.ShloMosaic Idealize.ShloMosaic.ValueIdx

/-! ## Where the composed layouts read -/

/-- the sum of squares of row r reads the squared array at (r, k) -/
theorem idx_sq (r : Fin 8192) (k : Fin 128) :
    idx_main_call4_v1 (idx_main_call4_v2 (ix2 r (0 : Fin 1))) k = ix2 r k :=
  funext fun a => Fin.ext (by match a with | ⟨0, _⟩ => rfl | ⟨1, _⟩ => rfl)

/-- the norm column laid out over the 128 columns reads (r, 0) -/
theorem idx_norm (r : Fin 8192) (j : Fin 128) : idx_main_v50 (ix2 r j) = ix2 r (0 : Fin 1) :=
  funext fun a => Fin.ext (by match a with | ⟨0, _⟩ => rfl | ⟨1, _⟩ => rfl)

/-- the three products read row r of the left operand at column k and row k of the weights at the entry's column -/
theorem lidx_act (r : Fin 8192) (a : Fin 8) (k : Fin 128) : lidx_main_v52 (ix2 r a) k = ix2 r k :=
  funext fun a => Fin.ext (by match a with | ⟨0, _⟩ => rfl | ⟨1, _⟩ => rfl)
theorem ridx_act (r : Fin 8192) (a : Fin 8) (k : Fin 128) : ridx_main_v52 (ix2 r a) k = ix2 k a :=
  funext fun a => Fin.ext (by match a with | ⟨0, _⟩ => rfl | ⟨1, _⟩ => rfl)
theorem lidx_val (r : Fin 8192) (u : Fin 1) (k : Fin 128) : lidx_main_v57 (ix2 r u) k = ix2 r k :=
  funext fun a => Fin.ext (by match a with | ⟨0, _⟩ => rfl | ⟨1, _⟩ => rfl)
theorem ridx_val (r : Fin 8192) (u : Fin 1) (k : Fin 128) : ridx_main_v57 (ix2 r u) k = ix2 k u :=
  funext fun a => Fin.ext (by match a with | ⟨0, _⟩ => rfl | ⟨1, _⟩ => rfl)
theorem lidx_role (r : Fin 8192) (s : Fin 3) (k : Fin 128) : lidx_main_v61 (ix2 r s) k = ix2 r k :=
  funext fun a => Fin.ext (by match a with | ⟨0, _⟩ => rfl | ⟨1, _⟩ => rfl)
theorem ridx_role (r : Fin 8192) (s : Fin 3) (k : Fin 128) : ridx_main_v61 (ix2 r s) k = ix2 k s :=
  funext fun a => Fin.ext (by match a with | ⟨0, _⟩ => rfl | ⟨1, _⟩ => rfl)

/-- a bias row laid out over the rows reads its entry at the column -/
theorem idx_bias_act (r : Fin 8192) (a : Fin 8) : idx_main_v53 (idx_main_v54 (ix2 r a)) = ix1 a :=
  funext fun a => Fin.ext (by match a with | ⟨0, _⟩ => rfl)
theorem idx_bias_val (r : Fin 8192) (u : Fin 1) : idx_main_v58 (idx_main_v59 (ix2 r u)) = ix1 u :=
  funext fun a => Fin.ext (by
    match a with
    | ⟨0, _⟩ =>
      have h := u.isLt
      show 0 = u.val
      omega)
theorem idx_bias_role (r : Fin 8192) (s : Fin 3) : idx_main_v62 (idx_main_v63 (ix2 r s)) = ix1 s :=
  funext fun a => Fin.ext (by match a with | ⟨0, _⟩ => rfl)

/-- the row maximum and the row sum, laid out as a column and then over the three columns, read row r -/
theorem idx_rowmax (r : Fin 8192) (s : Fin 3) : idx_main_v68 (idx_main_v69 (ix2 r s)) = ix1 r :=
  funext fun a => Fin.ext (by match a with | ⟨0, _⟩ => rfl)
theorem idx_rowsum (r : Fin 8192) (s : Fin 3) : idx_main_v73 (idx_main_v74 (ix2 r s)) = ix1 r :=
  funext fun a => Fin.ext (by match a with | ⟨0, _⟩ => rfl)

/-- the sum of the exponentials of row r reads the exponentials at (r, k) -/
theorem idx_exp (r : Fin 8192) (k : Fin 3) : idx_main_v72 (ix1 r) k = ix2 r k :=
  funext fun a => Fin.ext (by match a with | ⟨0, _⟩ => rfl | ⟨1, _⟩ => rfl)

/-- the reduced index r with the column k put back is (r, k) -/
theorem lift_row (h : S8192x3.Reduces [1] S8192) (r : Fin 8192) (k : Fin (S8192x3.size 1)) :
    h.lift (ix1 r) k = ix2 r (⟨k.val, k.isLt⟩ : Fin 3) :=
  funext fun a => Fin.ext (by match a with | ⟨0, _⟩ => rfl | ⟨1, _⟩ => rfl)

/-! ## The maximum of a row of three, from minus infinity -/

/-- the reduce with a maximum body along axis 1, from the minus-infinity word, at row r: the fold of max over the
    three columns -/
theorem rowMax_apply (y : (⟨S8192x3, .f32⟩ : BufTy).Contents (Elt Ideal)) (r : Fin 8192) :
    Host.reduce (α := Ideal .f32) (s := S8192x3) (t := S8192) (u := S_) (FloatOps.maximumf (F := Ideal) (φ := .f32)) y
        (val_main_cst_7 (F := Ideal)) reducesTo_S8192x3_S8192_d1 h_S_ (ix1 r)
      = (Finset.univ : Finset (Fin 3)).fold max negInf (fun s => y (ix2 r s)) := by
  have h : S8192x3.Reduces [1] S8192 := by decide
  refine (Host.reduce_eq_fold_single (α := Ideal .f32) (s := S8192x3) (t := S8192) (u := S_)
    (FloatOps.maximumf (F := Ideal) (φ := .f32)) y (val_main_cst_7 (F := Ideal)) reducesTo_S8192x3_S8192_d1 h h_S_ (ix1 r)).trans ?_
  have hf : (y ∘ h.lift (ix1 r)) = fun k : Fin 3 => y (ix2 r k) := funext fun k => congrArg y (lift_row h r k)
  exact congrArg (fun f => Finset.fold max negInf f (Finset.univ : Finset (Fin 3))) hf

section Rows

variable (x0 : (⟨S8192x64, .f32⟩ : BufTy).Contents (Elt Ideal)) (x1 : (⟨S8192x128, .f32⟩ : BufTy).Contents (Elt Ideal)) (x2 : (⟨S96x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x32, .f32⟩ : BufTy).Contents (Elt Ideal)) (x7 : (⟨S32, .f32⟩ : BufTy).Contents (Elt Ideal)) (x8 : (⟨S128x128, .f32⟩ : BufTy).Contents (Elt Ideal)) (x9 : (⟨S128, .f32⟩ : BufTy).Contents (Elt Ideal)) (x10 : (⟨S128x8, .f32⟩ : BufTy).Contents (Elt Ideal)) (x11 : (⟨S8, .f32⟩ : BufTy).Contents (Elt Ideal)) (x12 : (⟨S128x1, .f32⟩ : BufTy).Contents (Elt Ideal)) (x13 : (⟨S1, .f32⟩ : BufTy).Contents (Elt Ideal)) (x14 : (⟨S128x3, .f32⟩ : BufTy).Contents (Elt Ideal)) (x15 : (⟨S3, .f32⟩ : BufTy).Contents (Elt Ideal))

/-! ## The noise, the norm and the division -/

/-- the shared row plus the scaled noise, at (r, j) -/
theorem ref_v46 (r : Fin 8192) (j : Fin 128) :
    val_main_v46 (F := Ideal) x0 x1 x2 x3 x4 x5 x6 x7 x8 x9 (ix2 r j)
      = shared (mat x0) (mat x2) (vec x3) (mat x4) (vec x5) (mat x6) (vec x7) (mat x8) (vec x9) j + x1 (ix2 r j) * nscale := by
  rw [val_main_v46_apply, val_main_v45_apply, val_main_v44_apply, val_main_cst_5_apply, ref_v43]
  rfl

/-- the floored norm of the noisy row r: the squares summed from the zero word, the root, the maximum with the floor -/
theorem ref_v49 (r : Fin 8192) :
    val_main_v49 (F := Ideal) x0 x1 x2 x3 x4 x5 x6 x7 x8 x9 (ix2 r (0 : Fin 1))
      = floorNorm (fun j => shared (mat x0) (mat x2) (vec x3) (mat x4) (vec x5) (mat x6) (vec x7) (mat x8) (vec x9) j + x1 (ix2 r j) * nscale) := by
  rw [val_main_v49_apply, val_main_v47_apply, val_main_call4_v2_apply, val_main_call4_v1_apply,
    val_main_call4_cst_apply, val_main_v48_apply, val_main_cst_6_apply]
  have hs : ∑ k : Fin 128, (val_main_call4_v0 (F := Ideal) x0 x1 x2 x3 x4 x5 x6 x7 x8 x9) (idx_main_call4_v1 (idx_main_call4_v2 (ix2 r (0 : Fin 1))) k)
      = ∑ q : Fin 128, (shared (mat x0) (mat x2) (vec x3) (mat x4) (vec x5) (mat x6) (vec x7) (mat x8) (vec x9) q + x1 (ix2 r q) * nscale) * (shared (mat x0) (mat x2) (vec x3) (mat x4) (vec x5) (mat x6) (vec x7) (mat x8) (vec x9) q + x1 (ix2 r q) * nscale) :=
    Finset.sum_congr rfl fun k _ => by
      rw [idx_sq r k, val_main_call4_v0_apply, ref_v46]
      rfl
  rw [hs]
  show max (Ideal.sqrt (Ideal.ofBits .f32 0x00000000#32 + _)) eps = _
  rw [Ideal.ofBits_zero_f32, zero_add]
  rfl

/-- the normalized noisy row, at (r, j) -/
theorem ref_v51 (r : Fin 8192) (j : Fin 128) :
    val_main_v51 (F := Ideal) x0 x1 x2 x3 x4 x5 x6 x7 x8 x9 (ix2 r j)
      = finalRow (shared (mat x0) (mat x2) (vec x3) (mat x4) (vec x5) (mat x6) (vec x7) (mat x8) (vec x9)) (fun j => x1 (ix2 r j)) j := by
  rw [val_main_v51_apply, val_main_v50_apply, idx_norm r j, ref_v49, ref_v46]
  rfl

/-! ## The three heads -/

/-- the action head before its bias: the sum over k of the row times the weights -/
theorem ref_v52 (r : Fin 8192) (a : Fin 8) :
    val_main_v52 (F := Ideal) x0 x1 x2 x3 x4 x5 x6 x7 x8 x9 x10 (ix2 r a)
      = ∑ k : Fin 128, finalRow (shared (mat x0) (mat x2) (vec x3) (mat x4) (vec x5) (mat x6) (vec x7) (mat x8) (vec x9)) (fun j => x1 (ix2 r j)) k * x10 (ix2 k a) := by
  rw [val_main_v52_apply]
  refine Finset.sum_congr rfl fun k _ => ?_
  rw [lidx_act r a k, ridx_act r a k, ref_v51]

/-- the action head -/
theorem ref_v56 (r : Fin 8192) (a : Fin 8) :
    val_main_v56 (F := Ideal) x0 x1 x2 x3 x4 x5 x6 x7 x8 x9 x10 x11 (ix2 r a)
      = actRow (mat x10) (vec x11) (finalRow (shared (mat x0) (mat x2) (vec x3) (mat x4) (vec x5) (mat x6) (vec x7) (mat x8) (vec x9)) (fun j => x1 (ix2 r j))) a := by
  rw [val_main_v56_apply, val_main_v55_apply, ref_v52, val_main_v54_apply, val_main_v53_apply, idx_bias_act r a]
  rfl

/-- the value head before its bias -/
theorem ref_v57 (r : Fin 8192) (u : Fin 1) :
    val_main_v57 (F := Ideal) x0 x1 x2 x3 x4 x5 x6 x7 x8 x9 x12 (ix2 r u)
      = ∑ k : Fin 128, finalRow (shared (mat x0) (mat x2) (vec x3) (mat x4) (vec x5) (mat x6) (vec x7) (mat x8) (vec x9)) (fun j => x1 (ix2 r j)) k * x12 (ix2 k u) := by
  rw [val_main_v57_apply]
  refine Finset.sum_congr rfl fun k _ => ?_
  rw [lidx_val r u k, ridx_val r u k, ref_v51]

/-- the value head -/
theorem ref_v60 (r : Fin 8192) (u : Fin 1) :
    val_main_v60 (F := Ideal) x0 x1 x2 x3 x4 x5 x6 x7 x8 x9 x12 x13 (ix2 r u)
      = valRow (mat x12) (vec x13) (finalRow (shared (mat x0) (mat x2) (vec x3) (mat x4) (vec x5) (mat x6) (vec x7) (mat x8) (vec x9)) (fun j => x1 (ix2 r j))) u := by
  rw [val_main_v60_apply, ref_v57, val_main_v59_apply, val_main_v58_apply, idx_bias_val r u]
  rfl

/-- the role head before its bias -/
theorem ref_v61 (r : Fin 8192) (s : Fin 3) :
    val_main_v61 (F := Ideal) x0 x1 x2 x3 x4 x5 x6 x7 x8 x9 x14 (ix2 r s)
      = ∑ k : Fin 128, finalRow (shared (mat x0) (mat x2) (vec x3) (mat x4) (vec x5) (mat x6) (vec x7) (mat x8) (vec x9)) (fun j => x1 (ix2 r j)) k * x14 (ix2 k s) := by
  rw [val_main_v61_apply]
  refine Finset.sum_congr rfl fun k _ => ?_
  rw [lidx_role r s k, ridx_role r s k, ref_v51]

/-- the role head's logits -/
theorem ref_v64 (r : Fin 8192) (s : Fin 3) :
    val_main_v64 (F := Ideal) x0 x1 x2 x3 x4 x5 x6 x7 x8 x9 x14 x15 (ix2 r s)
      = lin (mat x14) (vec x15) (finalRow (shared (mat x0) (mat x2) (vec x3) (mat x4) (vec x5) (mat x6) (vec x7) (mat x8) (vec x9)) (fun j => x1 (ix2 r j))) s := by
  rw [val_main_v64_apply, ref_v61, val_main_v63_apply, val_main_v62_apply, idx_bias_role r s]
  rfl

/-- the logits' maximum over the row, from minus infinity, and the maximum with minus infinity once more -/
theorem ref_v67 (r : Fin 8192) :
    val_main_v67 (F := Ideal) x0 x1 x2 x3 x4 x5 x6 x7 x8 x9 x14 x15 (ix1 r)
      = max negInf ((Finset.univ : Finset (Fin 3)).fold max negInf (lin (mat x14) (vec x15) (finalRow (shared (mat x0) (mat x2) (vec x3) (mat x4) (vec x5) (mat x6) (vec x7) (mat x8) (vec x9)) (fun j => x1 (ix2 r j))))) := by
  rw [val_main_v67_apply, val_main_v66_apply, val_main_cst_8_apply]
  unfold val_main_v65
  rw [rowMax_apply,
    show (fun s : Fin 3 => val_main_v64 (F := Ideal) x0 x1 x2 x3 x4 x5 x6 x7 x8 x9 x14 x15 (ix2 r s)) = lin (mat x14) (vec x15) (finalRow (shared (mat x0) (mat x2) (vec x3) (mat x4) (vec x5) (mat x6) (vec x7) (mat x8) (vec x9)) (fun j => x1 (ix2 r j)))
      from funext fun s => ref_v64 x0 x1 x2 x3 x4 x5 x6 x7 x8 x9 x14 x15 r s]
  rfl

/-- the exponential of a logit less the row's maximum -/
theorem ref_v71 (r : Fin 8192) (s : Fin 3) :
    val_main_v71 (F := Ideal) x0 x1 x2 x3 x4 x5 x6 x7 x8 x9 x14 x15 (ix2 r s)
      = Ideal.exp ((lin (mat x14) (vec x15) (finalRow (shared (mat x0) (mat x2) (vec x3) (mat x4) (vec x5) (mat x6) (vec x7) (mat x8) (vec x9)) (fun j => x1 (ix2 r j)))) s - (max negInf ((Finset.univ : Finset (Fin 3)).fold max negInf (lin (mat x14) (vec x15) (finalRow (shared (mat x0) (mat x2) (vec x3) (mat x4) (vec x5) (mat x6) (vec x7) (mat x8) (vec x9)) (fun j => x1 (ix2 r j))))))) := by
  rw [val_main_v71_apply, val_main_v70_apply, ref_v64, val_main_v69_apply, val_main_v68_apply, idx_rowmax r s, ref_v67]
  rfl

/-- the sum of the row's three exponentials, from the zero word -/
theorem ref_v72 (r : Fin 8192) :
    val_main_v72 (F := Ideal) x0 x1 x2 x3 x4 x5 x6 x7 x8 x9 x14 x15 (ix1 r)
      = ∑ s' : Fin 3, Ideal.exp ((lin (mat x14) (vec x15) (finalRow (shared (mat x0) (mat x2) (vec x3) (mat x4) (vec x5) (mat x6) (vec x7) (mat x8) (vec x9)) (fun j => x1 (ix2 r j)))) s' - (max negInf ((Finset.univ : Finset (Fin 3)).fold max negInf (lin (mat x14) (vec x15) (finalRow (shared (mat x0) (mat x2) (vec x3) (mat x4) (vec x5) (mat x6) (vec x7) (mat x8) (vec x9)) (fun j => x1 (ix2 r j))))))) := by
  rw [val_main_v72_apply, val_main_cst_9_apply]
  have hs : ∑ k : Fin 3, (val_main_v71 (F := Ideal) x0 x1 x2 x3 x4 x5 x6 x7 x8 x9 x14 x15) (idx_main_v72 (ix1 r) k)
      = ∑ s' : Fin 3, Ideal.exp ((lin (mat x14) (vec x15) (finalRow (shared (mat x0) (mat x2) (vec x3) (mat x4) (vec x5) (mat x6) (vec x7) (mat x8) (vec x9)) (fun j => x1 (ix2 r j)))) s' - (max negInf ((Finset.univ : Finset (Fin 3)).fold max negInf (lin (mat x14) (vec x15) (finalRow (shared (mat x0) (mat x2) (vec x3) (mat x4) (vec x5) (mat x6) (vec x7) (mat x8) (vec x9)) (fun j => x1 (ix2 r j))))))) :=
    Finset.sum_congr rfl fun k _ => by rw [idx_exp r k, ref_v71]
  rw [hs]
  show Ideal.ofBits .f32 0x00000000#32 + _ = _
  rw [Ideal.ofBits_zero_f32, zero_add]

/-- the role head: the softmax of the logits -/
theorem ref_v75 (r : Fin 8192) (s : Fin 3) :
    val_main_v75 (F := Ideal) x0 x1 x2 x3 x4 x5 x6 x7 x8 x9 x14 x15 (ix2 r s)
      = roleRow (mat x14) (vec x15) (finalRow (shared (mat x0) (mat x2) (vec x3) (mat x4) (vec x5) (mat x6) (vec x7) (mat x8) (vec x9)) (fun j => x1 (ix2 r j))) s := by
  rw [val_main_v75_apply, ref_v71, val_main_v74_apply, val_main_v73_apply, idx_rowsum r s, ref_v72]
  rfl

end Rows

end Cert.ReferenceIdeal.RefValue

end
-- ==== Proof.KI.Res.lean ====
/-
  The four results as functions of the launch memory of a core, on the extended reals: the row every agent shares (the Spec's
  `shared` of the states and the first nine weight arrays), each agent's normalized noisy row, and the three heads read off it.
-/
import proofs.«142343_j22625887715845_1_alg».proof.KernelIdeal
import proofs.«142343_j22625887715845_1_alg».proof.Proof.Spec

noncomputable section

namespace Cert.KernelIdeal.Fr

open Cert.KernelIdeal Cert.Spec Idealize.ShloMosaic Idealize.ShloMosaic.ValueIdx Idealize.SL.Sem

variable (m : (ℓ : Loc nD τ sig) → Buf (Elt Ideal) ℓ)

/-- the row all agents share before the noise -/
def gOf (c : Dev nD) : Fin 128 → EReal :=
  shared (mat (m ((c.tc : Thread nD τ).loc main_arg0))) (mat (m ((c.tc : Thread nD τ).loc main_arg2))) (vec (m ((c.tc : Thread nD τ).loc main_arg3))) (mat (m ((c.tc : Thread nD τ).loc main_arg4))) (vec (m ((c.tc : Thread nD τ).loc main_arg5))) (mat (m ((c.tc : Thread nD τ).loc main_arg6))) (vec (m ((c.tc : Thread nD τ).loc main_arg7))) (mat (m ((c.tc : Thread nD τ).loc main_arg8))) (vec (m ((c.tc : Thread nD τ).loc main_arg9)))

/-- agent n's final hidden row -/
def hOf (c : Dev nD) (n : Fin 8192) : Fin 128 → EReal :=
  finalRow (gOf m c) (fun j => (m ((c.tc : Thread nD τ).loc main_arg1)) (ix2 n j))

def res0 (c : Dev nD) : Buf (Elt Ideal) ((c.tc : Thread nD τ).loc main_v15_0) := fun i => hOf m c (i 0) (i 1)
def res1 (c : Dev nD) : Buf (Elt Ideal) ((c.tc : Thread nD τ).loc main_v15_1) := fun i => actRow (mat (m ((c.tc : Thread nD τ).loc main_arg10))) (vec (m ((c.tc : Thread nD τ).loc main_arg11))) (hOf m c (i 0)) (i 1)
def res2 (c : Dev nD) : Buf (Elt Ideal) ((c.tc : Thread nD τ).loc main_v15_2) := fun i => valRow (mat (m ((c.tc : Thread nD τ).loc main_arg12))) (vec (m ((c.tc : Thread nD τ).loc main_arg13))) (hOf m c (i 0)) (i 1)
def res3 (c : Dev nD) : Buf (Elt Ideal) ((c.tc : Thread nD τ).loc main_v15_3) := fun i => roleRow (mat (m ((c.tc : Thread nD τ).loc main_arg14))) (vec (m ((c.tc : Thread nD τ).loc main_arg15))) (hOf m c (i 0)) (i 1)

end Cert.KernelIdeal.Fr

end
-- ==== Proof.KI.Keep.lean ====
/-
  Which buffers each item of @main leaves unchanged, read along the named boundaries of the run: a host
  stretch changes only the buffers its operations write; a region changes only its output windows' arrays,
  handing its input windows' arrays back as entered and touching no buffer that is no window of it. So an
  argument array reaches every later boundary as launched, and a result of the first host stretch reaches
  the entry of the region that reads it as that stretch left it.
-/
import proofs.«142343_j22625887715845_1_alg».proof.Proof.KI.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (c : Dev nD)

/-! ## After the first host stretch: an argument it does not write is as launched -/
theorem E1_arg0 : B1 m c (Proc.devRef .tc main_arg0) = m ((c : Thread nD τ).loc main_arg0) :=
  (B1_of m c main_arg0 (by decide)).trans <| rfl
theorem E1_arg4 : B1 m c (Proc.devRef .tc main_arg4) = m ((c : Thread nD τ).loc main_arg4) :=
  (B1_of m c main_arg4 (by decide)).trans <| rfl
theorem E1_arg6 : B1 m c (Proc.devRef .tc main_arg6) = m ((c : Thread nD τ).loc main_arg6) :=
  (B1_of m c main_arg6 (by decide)).trans <| rfl
/-! ## Across region 0 -/
/-- the upper half of the first weight matrix is no window of region 0 -/
theorem B2_v1 : B2 m c (Proc.devRef .tc main_v1) = B1 m c (Proc.devRef .tc main_v1) :=
  B2_of_ne m c main_v1 (by decide)
/-! ## Up to region 1's entry: region 0 hands its input arrays back as entered, and the host product writes only its own result -/
theorem E3_arg0 : B3 m c (Proc.devRef .tc main_arg0) = m ((c : Thread nD τ).loc main_arg0) :=
  (B3_of m c main_arg0 (by decide)).trans <| (B2_in m c 0 rfl).trans <| (B1_of m c main_arg0 (by decide)).trans <| rfl
theorem E3_arg4 : B3 m c (Proc.devRef .tc main_arg4) = m ((c : Thread nD τ).loc main_arg4) :=
  (B3_of m c main_arg4 (by decide)).trans <| (B2_in m c 3 rfl).trans <| (B1_of m c main_arg4 (by decide)).trans <| rfl
theorem E3_v0 : B3 m c (Proc.devRef .tc main_v0) = B1 m c (Proc.devRef .tc main_v0) :=
  (B3_of m c main_v0 (by decide)).trans (B2_in m c 1 rfl)
theorem E3_v2 : B3 m c (Proc.devRef .tc main_v2) = B1 m c (Proc.devRef .tc main_v2) :=
  (B3_of m c main_v2 (by decide)).trans (B2_in m c 2 rfl)
theorem E3_v3 : B3 m c (Proc.devRef .tc main_v3) = B1 m c (Proc.devRef .tc main_v3) :=
  (B3_of m c main_v3 (by decide)).trans (B2_in m c 4 rfl)
/-! ## Up to region 1's exit: buffers that are no window of regions 0 and 1 -/
theorem B4_arg8 : B4 m c (Proc.devRef .tc main_arg8) = m ((c : Thread nD τ).loc main_arg8) :=
  (B4_of_ne m c main_arg8 (by decide)).trans <| (B3_of m c main_arg8 (by decide)).trans <| (B2_of_ne m c main_arg8 (by decide)).trans <| (B1_of m c main_arg8 (by decide)).trans <| rfl
theorem B4_v5 : B4 m c (Proc.devRef .tc main_v5) = B1 m c (Proc.devRef .tc main_v5) :=
  (B4_of_ne m c main_v5 (by decide)).trans <| (B3_of m c main_v5 (by decide)).trans <| (B2_of_ne m c main_v5 (by decide))
/-! ## Up to region 2's entry: its input arrays that no earlier item writes after the first host stretch -/
theorem E6_arg1 : B6 m c (Proc.devRef .tc main_arg1) = m ((c : Thread nD τ).loc main_arg1) :=
  (B6_of m c main_arg1 (by decide)).trans <| (B5_of m c main_arg1 (by decide)).trans <| (B4_of_ne m c main_arg1 (by decide)).trans <| (B3_of m c main_arg1 (by decide)).trans <| (B2_of_ne m c main_arg1 (by decide)).trans <| (B1_of m c main_arg1 (by decide)).trans <| rfl
theorem E6_arg10 : B6 m c (Proc.devRef .tc main_arg10) = m ((c : Thread nD τ).loc main_arg10) :=
  (B6_of m c main_arg10 (by decide)).trans <| (B5_of m c main_arg10 (by decide)).trans <| (B4_of_ne m c main_arg10 (by decide)).trans <| (B3_of m c main_arg10 (by decide)).trans <| (B2_of_ne m c main_arg10 (by decide)).trans <| (B1_of m c main_arg10 (by decide)).trans <| rfl
theorem E6_arg12 : B6 m c (Proc.devRef .tc main_arg12) = m ((c : Thread nD τ).loc main_arg12) :=
  (B6_of m c main_arg12 (by decide)).trans <| (B5_of m c main_arg12 (by decide)).trans <| (B4_of_ne m c main_arg12 (by decide)).trans <| (B3_of m c main_arg12 (by decide)).trans <| (B2_of_ne m c main_arg12 (by decide)).trans <| (B1_of m c main_arg12 (by decide)).trans <| rfl
theorem E6_arg14 : B6 m c (Proc.devRef .tc main_arg14) = m ((c : Thread nD τ).loc main_arg14) :=
  (B6_of m c main_arg14 (by decide)).trans <| (B5_of m c main_arg14 (by decide)).trans <| (B4_of_ne m c main_arg14 (by decide)).trans <| (B3_of m c main_arg14 (by decide)).trans <| (B2_of_ne m c main_arg14 (by decide)).trans <| (B1_of m c main_arg14 (by decide)).trans <| rfl
theorem E6_v6 : B6 m c (Proc.devRef .tc main_v6) = B1 m c (Proc.devRef .tc main_v6) :=
  (B6_of m c main_v6 (by decide)).trans <| (B5_of m c main_v6 (by decide)).trans <| (B4_of_ne m c main_v6 (by decide)).trans <| (B3_of m c main_v6 (by decide)).trans <| (B2_of_ne m c main_v6 (by decide))
theorem E6_v7 : B6 m c (Proc.devRef .tc main_v7) = B1 m c (Proc.devRef .tc main_v7) :=
  (B6_of m c main_v7 (by decide)).trans <| (B5_of m c main_v7 (by decide)).trans <| (B4_of_ne m c main_v7 (by decide)).trans <| (B3_of m c main_v7 (by decide)).trans <| (B2_of_ne m c main_v7 (by decide))
theorem E6_v8 : B6 m c (Proc.devRef .tc main_v8) = B1 m c (Proc.devRef .tc main_v8) :=
  (B6_of m c main_v8 (by decide)).trans <| (B5_of m c main_v8 (by decide)).trans <| (B4_of_ne m c main_v8 (by decide)).trans <| (B3_of m c main_v8 (by decide)).trans <| (B2_of_ne m c main_v8 (by decide))

end Cert.KernelIdeal.Fr

end
-- ==== Proof.KI.HostVals.lean ====
/-
  What the host stretches of the program leave in the arrays the three kernel regions read, at an index, whatever
  the arrays held before. The first stretch only lays arrays out: the upper 64 and the lower 32 rows of the first
  weight matrix, and seven vectors each viewed as a one-row matrix. The second is one product of a row with a
  matrix; the third a product of a row with a matrix plus a bias row, followed by the rectifier max(·, 0).
-/
import proofs.«142343_j22625887715845_1_alg».proof.Proof.Gen.KernelIdeal.Launch
import proofs.«142343_j22625887715845_1_alg».proof.Proof.Spec
import proofs.«142343_j22625887715845_1_alg».proof.Proof.LibDense
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Fr

open Cert.KernelIdeal Cert.KernelIdeal.Gen Cert.Spec Idealize.ShloMosaic Idealize.ShloMosaic.ValueIdx

variable {F : FTy → Type} [FloatOps F]

/-! ## The first stretch: slices and one-row views (any float model) -/

/-- the upper 64 rows of the first weight matrix -/
theorem h0_v0 (W : Valuation τ sig (Elt F)) (k : Fin 64) (j : Fin 128) :
    StableHlo.after hostOps0 W (Proc.devRef .tc main_v0) (ix2 k j)
      = W (Proc.devRef .tc main_arg2) (ix2 (⟨k.val, by have := k.isLt; omega⟩ : Fin 96) j) := by
  have e : (StableHlo.after hostOps0 W (Proc.devRef .tc main_v0) : S64x128.Idx → Elt F .f32)
      = extractStridedSlice S64x128 ![0, 0] (W (Proc.devRef .tc main_arg2)) slices_S96x128_S64x128_0_0 := by
    after_results
  rw [e]
  refine extractStridedSlice_apply _ _ _ _ _ fun a => ?_
  match a with
  | ⟨0, _⟩ => exact (Nat.zero_add _).symm
  | ⟨1, _⟩ => exact (Nat.zero_add _).symm

/-- the lower 32 rows of the first weight matrix -/
theorem h0_v1 (W : Valuation τ sig (Elt F)) (q : Fin 32) (j : Fin 128) :
    StableHlo.after hostOps0 W (Proc.devRef .tc main_v1) (ix2 q j)
      = W (Proc.devRef .tc main_arg2) (ix2 (⟨64 + q.val, by have := q.isLt; omega⟩ : Fin 96) j) := by
  have e : (StableHlo.after hostOps0 W (Proc.devRef .tc main_v1) : S32x128.Idx → Elt F .f32)
      = extractStridedSlice S32x128 ![64, 0] (W (Proc.devRef .tc main_arg2)) slices_S96x128_S32x128_64_0 := by
    after_results
  rw [e]
  refine extractStridedSlice_apply _ _ _ _ _ fun a => ?_
  match a with
  | ⟨0, _⟩ => rfl
  | ⟨1, _⟩ => exact (Nat.zero_add _).symm

/-- the first bias vector as a one-row matrix -/
theorem h0_v2 (W : Valuation τ sig (Elt F)) (j : Fin 128) :
    StableHlo.after hostOps0 W (Proc.devRef .tc main_v2) (ix2 (0 : Fin 1) j) = W (Proc.devRef .tc main_arg3) (ix1 j) := by
  have e : (StableHlo.after hostOps0 W (Proc.devRef .tc main_v2) : S1x128.Idx → Elt F .f32)
      = shapeCast S1x128 (W (Proc.devRef .tc main_arg3)) shapeCasts_S128_S1x128 := by
    after_results; rfl
  rw [e]
  exact (shapeCast_addUnit_apply ![128] _ shapeCasts_S128_S1x128 (ix2 (0 : Fin 1) j)).trans
    (congrArg _ (funext fun a => match a with | ⟨0, _⟩ => rfl))

/-- the second bias vector as a one-row matrix -/
theorem h0_v3 (W : Valuation τ sig (Elt F)) (j : Fin 128) :
    StableHlo.after hostOps0 W (Proc.devRef .tc main_v3) (ix2 (0 : Fin 1) j) = W (Proc.devRef .tc main_arg5) (ix1 j) := by
  have e : (StableHlo.after hostOps0 W (Proc.devRef .tc main_v3) : S1x128.Idx → Elt F .f32)
      = shapeCast S1x128 (W (Proc.devRef .tc main_arg5)) shapeCasts_S128_S1x128 := by
    after_results; rfl
  rw [e]
  exact (shapeCast_addUnit_apply ![128] _ shapeCasts_S128_S1x128 (ix2 (0 : Fin 1) j)).trans
    (congrArg _ (funext fun a => match a with | ⟨0, _⟩ => rfl))

/-- the message layer's bias vector as a one-row matrix -/
theorem h0_v4 (W : Valuation τ sig (Elt F)) (q : Fin 32) :
    StableHlo.after hostOps0 W (Proc.devRef .tc main_v4) (ix2 (0 : Fin 1) q) = W (Proc.devRef .tc main_arg7) (ix1 q) := by
  have e : (StableHlo.after hostOps0 W (Proc.devRef .tc main_v4) : S1x32.Idx → Elt F .f32)
      = shapeCast S1x32 (W (Proc.devRef .tc main_arg7)) shapeCasts_S32_S1x32 := by
    after_results; rfl
  rw [e]
  exact (shapeCast_addUnit_apply ![32] _ shapeCasts_S32_S1x32 (ix2 (0 : Fin 1) q)).trans
    (congrArg _ (funext fun a => match a with | ⟨0, _⟩ => rfl))

/-- the graph layer's bias vector as a one-row matrix -/
theorem h0_v5 (W : Valuation τ sig (Elt F)) (j : Fin 128) :
    StableHlo.after hostOps0 W (Proc.devRef .tc main_v5) (ix2 (0 : Fin 1) j) = W (Proc.devRef .tc main_arg9) (ix1 j) := by
  have e : (StableHlo.after hostOps0 W (Proc.devRef .tc main_v5) : S1x128.Idx → Elt F .f32)
      = shapeCast S1x128 (W (Proc.devRef .tc main_arg9)) shapeCasts_S128_S1x128 := by
    after_results; rfl
  rw [e]
  exact (shapeCast_addUnit_apply ![128] _ shapeCasts_S128_S1x128 (ix2 (0 : Fin 1) j)).trans
    (congrArg _ (funext fun a => match a with | ⟨0, _⟩ => rfl))

/-- the action head's bias vector as a one-row matrix -/
theorem h0_v6 (W : Valuation τ sig (Elt F)) (a : Fin 8) :
    StableHlo.after hostOps0 W (Proc.devRef .tc main_v6) (ix2 (0 : Fin 1) a) = W (Proc.devRef .tc main_arg11) (ix1 a) := by
  have e : (StableHlo.after hostOps0 W (Proc.devRef .tc main_v6) : S1x8.Idx → Elt F .f32)
      = shapeCast S1x8 (W (Proc.devRef .tc main_arg11)) shapeCasts_S8_S1x8 := by
    after_results; rfl
  rw [e]
  exact (shapeCast_addUnit_apply ![8] _ shapeCasts_S8_S1x8 (ix2 (0 : Fin 1) a)).trans
    (congrArg _ (funext fun a => match a with | ⟨0, _⟩ => rfl))

/-- the value head's bias vector as a one-row matrix -/
theorem h0_v7 (W : Valuation τ sig (Elt F)) (u : Fin 1) :
    StableHlo.after hostOps0 W (Proc.devRef .tc main_v7) (ix2 (0 : Fin 1) u) = W (Proc.devRef .tc main_arg13) (ix1 u) := by
  have e : (StableHlo.after hostOps0 W (Proc.devRef .tc main_v7) : S1x1.Idx → Elt F .f32)
      = shapeCast S1x1 (W (Proc.devRef .tc main_arg13)) shapeCasts_S1_S1x1 := by
    after_results; rfl
  rw [e]
  exact (shapeCast_addUnit_apply ![1] _ shapeCasts_S1_S1x1 (ix2 (0 : Fin 1) u)).trans
    (congrArg _ (funext fun a => match a with | ⟨0, _⟩ => rfl))

/-- the role head's bias vector as a one-row matrix -/
theorem h0_v8 (W : Valuation τ sig (Elt F)) (s : Fin 3) :
    StableHlo.after hostOps0 W (Proc.devRef .tc main_v8) (ix2 (0 : Fin 1) s) = W (Proc.devRef .tc main_arg15) (ix1 s) := by
  have e : (StableHlo.after hostOps0 W (Proc.devRef .tc main_v8) : S1x3.Idx → Elt F .f32)
      = shapeCast S1x3 (W (Proc.devRef .tc main_arg15)) shapeCasts_S3_S1x3 := by
    after_results; rfl
  rw [e]
  exact (shapeCast_addUnit_apply ![3] _ shapeCasts_S3_S1x3 (ix2 (0 : Fin 1) s)).trans
    (congrArg _ (funext fun a => match a with | ⟨0, _⟩ => rfl))

/-! ## The second and third stretches: products of a row with a matrix (over the extended reals) -/

/-- the mean message times the lower rows of the first weight matrix -/
theorem h1_v10 (W : Valuation τ sig (Elt Ideal)) (j : Fin 128) :
    StableHlo.after hostOps1 W (Proc.devRef .tc main_v10) (ix2 (0 : Fin 1) j)
      = ∑ q : Fin 32, row (W (Proc.devRef .tc main_v9)) q * mat (W (Proc.devRef .tc main_v1)) q j := by
  have e : (StableHlo.after hostOps1 W (Proc.devRef .tc main_v10) : S1x128.Idx → EReal)
      = Host.dotGeneral (F := Ideal) (φ₁ := .f32) (φ₂ := .f32) dot_S1x32_S32x128_S1x128_1_0_0_1_n_n none (W (Proc.devRef .tc main_v9)) (W (Proc.devRef .tc main_v1)) := by
    after_results
  rw [e]
  exact Cert.Dense.dotGeneral_plain_apply dot_S1x32_S32x128_S1x128_1_0_0_1_n_n rfl rfl rfl rfl rfl rfl none _ _ (0 : Fin 1) j

/-- the graph layer on the mean row: the product plus the bias row, then the rectifier -/
theorem h2_v14 (W : Valuation τ sig (Elt Ideal)) (j : Fin 128) :
    StableHlo.after hostOps2_1 (StableHlo.after hostOps2 W) (Proc.devRef .tc main_v14) (ix2 (0 : Fin 1) j)
      = max ((∑ k : Fin 128, row (W (Proc.devRef .tc main_v11)) k * mat (W (Proc.devRef .tc main_arg8)) k j) + row (W (Proc.devRef .tc main_v5)) j) 0 := by
  have e : (StableHlo.after hostOps2_1 (StableHlo.after hostOps2 W) (Proc.devRef .tc main_v14) : S1x128.Idx → EReal)
      = maximumf (F := Ideal) (addf (F := Ideal) (Host.dotGeneral (F := Ideal) (φ₁ := .f32) (φ₂ := .f32) dot_S1x128_S128x128_S1x128_1_0_0_1_n_n none (W (Proc.devRef .tc main_v11)) (W (Proc.devRef .tc main_arg8)))
            (W (Proc.devRef .tc main_v5)))
          (broadcastInDim S1x128 ![] bcast_S_S1x128 (constant (F := Ideal) S_ .f32 0x00000000#32)) := by
    after_results; rfl
  rw [e, Cert.Dense.host_relu_apply bcast_S_S1x128, addf_apply,
    Cert.Dense.dotGeneral_plain_apply dot_S1x128_S128x128_S1x128_1_0_0_1_n_n rfl rfl rfl rfl rfl rfl none _ _ (0 : Fin 1) j]

end Cert.KernelIdeal.Fr

end
-- ==== Proof.LibKeepdimsColumn.lean ====
/-
  The layout steps of a row statistic kept as a column (a sum over the last axis with the reduced axis kept at size one),
  read at an index given by coordinates, for any element type and any extents:
  a vector of length a laid out as an [a, 1] column reads, at (i, u), the vector at i;
  an [a, 1] column spread over the b columns of an [a, b] matrix reads, at (i, c), the column at (i, 0);
  and, on the extended reals, the sum over the last axis of an [a, b] matrix reads, at i, the sum over c of the matrix at (i, c).
-/
import Idealize.ShloMosaic.Lib.ValueLayout
import Idealize.ShloMosaic.PureOps.Ideal.Laws

open scoped BigOperators

namespace Cert.LibKeepdimsColumn

open Idealize.ShloMosaic Idealize.ShloMosaic.ValueIdx

variable {α : Type}

/-- A vector of length `a` laid out as an `[a, 1]` column: the entry at `(i, u)` is the vector's entry at `i`,
    whatever the unit coordinate `u` (both have row-major position `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over the columns of an `[a, b]` matrix: the entry at `(i, c)` is the column's entry in
    row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- On the extended reals, the sum over the last axis of an `[a, b]` matrix, started from the zero word: the entry at `i`
    is the sum over the columns `c` of the matrix's entry at `(i, c)`. (The start word's evidence is typed as a printed
    program carries it: the word equal to itself, which is what the neutral word of a sum unfolds to.) -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ c : Fin b, src (ix2 i c) := by
  refine (Ideal.multiReduction_add_single src 0x00000000#32 h hφ hacc (ix1 i)).trans ?_
  refine Finset.sum_congr rfl fun c _ => congrArg src ?_
  funext ax
  match ax with
  | ⟨0, _⟩ => rfl
  | ⟨1, _⟩ => rfl

end Cert.LibKeepdimsColumn
-- ==== Proof.LibColSum.lean ====
/-
  The sum over the FIRST axis of an [a, b] matrix on the extended reals, started from the zero word, read at a column j:
  the sum over the rows r of the matrix's entry at (r, j). (The companion of the sum over the last axis; with the
  [b] → [1, b] cast this is a column statistic kept as a row.)
-/
import Idealize.ShloMosaic.Lib.ValueLayout
import Idealize.ShloMosaic.PureOps.Ideal.Laws

open scoped BigOperators

namespace Cert.LibColSum

open Idealize.ShloMosaic Idealize.ShloMosaic.ValueIdx

/-- On the extended reals, the sum over the first axis of an `[a, b]` matrix, started from the zero word: the entry at
    `j` is the sum over the rows `r` of the matrix's entry at `(r, j)`. (The start word's evidence is typed as a printed
    program carries it: the word equal to itself.) -/
theorem colSum_apply {a b : ℕ} (src : FVec Ideal (⟨2, ![a, b]⟩ : Shape) .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ r : Fin a, src (ix2 r j) := by
  refine (Ideal.multiReduction_add_single src 0x00000000#32 h hφ hacc (ix1 j)).trans ?_
  refine Finset.sum_congr rfl fun r _ => congrArg src ?_
  funext ax
  match ax with
  | ⟨0, _⟩ => rfl
  | ⟨1, _⟩ => rfl

end Cert.LibColSum
-- ==== Proof.KI.Val0.lean ====
/-
  Pass 1's values read at an index, over the extended reals.

  One row of states goes through three dense layers (the first followed by the rectifier); the resulting row of
  32 numbers is divided by its Euclidean norm floored at a small word, and the 1024 rows of a block are summed onto
  the accumulator. Each layer is a product into zeros plus a bias row repeated over the rows, so at the entry (r, c) it is
  the affine map of row r; the norm column is the square root of the lane sum of squares; the block's contribution
  at column q is the sum over the rows of the unit message's entry q.
-/
import proofs.«142343_j22625887715845_1_alg».proof.Proof.Gen.KernelIdeal.Skeleton
import proofs.«142343_j22625887715845_1_alg».proof.Proof.Spec
import proofs.«142343_j22625887715845_1_alg».proof.Proof.LibDense
import proofs.«142343_j22625887715845_1_alg».proof.Proof.LibBiasRow
import proofs.«142343_j22625887715845_1_alg».proof.Proof.LibKeepdimsColumn
import proofs.«142343_j22625887715845_1_alg».proof.Proof.LibColSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Cert.Spec Idealize.ShloMosaic Idealize.ShloMosaic.ValueIdx

/-- One dense layer as the kernel spells it — both operands narrowed (the identity on the extended reals), the product
    into zeros, the bias a [1, C] row repeated over the R rows and added — is, at (r, c), the affine map of row r. -/
theorem layer_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨2, ![1, C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨2, ![1, C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = lin (mat W) (row b) (fun k => X (ix2 r k)) c := by
  -- the sum over k at (r, c), plus the bias row's entry c
  rw [addf_apply, Cert.Dense.matmul_zero_plain_apply d h1 h2 h3 h4 h5 h6, shapeCast_self,
    Cert.BiasRow.stretch_row_apply hbc b r c]
  rfl

section Pass1

variable (v3 : Vec Ideal S1024x64 .f32) (v5 : Vec Ideal S64x128 .f32) (v9 : Vec Ideal S1x128 .f32)
  (v15 : Vec Ideal S128x128 .f32) (v19 : Vec Ideal S1x128 .f32) (v23 : Vec Ideal S128x32 .f32)
  (v27 : Vec Ideal S1x32 .f32)

/-- The message before normalization, at (r, q): the three layers applied to row r of the states. -/
theorem pay4_apply (r : Fin 1024) (q : Fin 32) :
    k0_pay4 v3 v5 v9 v15 v19 v23 v27 (ix2 r q)
      = rawMsgRow (mat v5) (row v9) (mat v15) (row v19) (mat v23) (row v27) (fun k => v3 (ix2 r k)) q := by
  unfold k0_pay4 rawMsgRow
  -- the third layer, whose input row is the second layer's output row
  refine (layer_apply _ rfl rfl rfl rfl rfl rfl _ _ _ _ _ _ r q).trans ?_
  refine congrArg (fun v => lin (mat v23) (row v27) v q) (funext fun k => ?_)
  -- the second layer, whose input row is the rectified first layer's output row
  refine (layer_apply _ rfl rfl rfl rfl rfl rfl _ _ _ _ _ _ r k).trans ?_
  refine congrArg (fun v => lin (mat v15) (row v19) v k) (funext fun j => ?_)
  -- the rectifier, then the first layer (its weight read through a cast to its own shape)
  refine (Cert.Dense.kernel_relu_apply _ (ix2 r j)).trans ?_
  show max _ 0 = max _ 0
  refine congrArg (fun x => max x 0) ?_
  rw [shapeCast_self]
  exact layer_apply _ rfl rfl rfl rfl rfl rfl _ _ _ _ _ _ r j

/-- The norm column before the floor, at row r: the square root of the lane sum of the message's squares. -/
theorem pay5_apply (r : Fin 1024) :
    k0_pay5 v3 v5 v9 v15 v19 v23 v27 (ix2 r (0 : Fin 1))
      = Ideal.sqrt (∑ q : Fin 32,
          rawMsgRow (mat v5) (row v9) (mat v15) (row v19) (mat v23) (row v27) (fun k => v3 (ix2 r k)) q
            * rawMsgRow (mat v5) (row v9) (mat v15) (row v19) (mat v23) (row v27) (fun k => v3 (ix2 r k)) q) := by
  unfold k0_pay5
  show Ideal.sqrt _ = _
  refine congrArg Ideal.sqrt ?_
  -- the column's entry in row r is the vector's entry r, which is the sum over the 32 lanes
  refine (Cert.LibKeepdimsColumn.shapeCast_a_a1_apply _ _ r (0 : Fin 1)).trans ?_
  refine (Cert.LibKeepdimsColumn.rowSum_apply _ _ _ _ r).trans ?_
  refine Finset.sum_congr rfl fun q _ => ?_
  rw [mulf_apply, pay4_apply]

/-- One block's step on the accumulator, at column q: the accumulator's entry plus the sum over the block's 1024 rows of
    the unit message's entry q (the message divided by its norm floored at the small word). -/
theorem step0_apply (s : Vec Ideal S1x32 .f32) (q : Fin 32) :
    k0_pay1 (k0_pay4 v3 v5 v9 v15 v19 v23 v27) (k0_pay5 v3 v5 v9 v15 v19 v23 v27) (k0_pay6 (F := Ideal)) s
        (ix2 (0 : Fin 1) q)
      = s (ix2 (0 : Fin 1) q)
        + ∑ r : Fin 1024,
            msgRow (mat v5) (row v9) (mat v15) (row v19) (mat v23) (row v27) (fun k => v3 (ix2 r k)) q := by
  unfold k0_pay1
  rw [shapeCast_self, addf_apply]
  refine congrArg (fun x => s (ix2 (0 : Fin 1) q) + x) ?_
  -- the [32] vector laid out as a [1, 32] row, and the sum over the rows
  refine (Cert.BiasRow.cast_row_apply _ _ q).trans ?_
  refine (Cert.LibColSum.colSum_apply _ _ _ _ q).trans ?_
  refine Finset.sum_congr rfl fun r _ => ?_
  -- row r: the message's entry over the floored norm, the norm column spread over the 32 lanes
  rw [divf_apply]
  unfold msgRow unitRow floorNorm
  refine congrArg₂ Ideal.div (pay4_apply v3 v5 v9 v15 v19 v23 v27 r q) ?_
  refine (Cert.LibKeepdimsColumn.broadcastTo_a1_ab_apply _ _ r q).trans ?_
  rw [maximumf_apply]
  refine congrArg₂ max (pay5_apply v3 v5 v9 v15 v19 v23 v27 r) ?_
  rfl

end Pass1

/-- The accumulator's first value: the zero word everywhere. -/
theorem pay3_apply (q : Fin 32) : k0_pay3 (F := Ideal) (ix2 (0 : Fin 1) q) = 0 := by
  unfold k0_pay3
  rw [shapeCast_self, broadcast_apply]
  exact Ideal.ofBits_zero_f32

/-- The mean written out at the last block: the accumulator times 2^-13. -/
theorem pay2_apply (s : Vec Ideal S1x32 .f32) (q : Fin 32) :
    k0_pay2 s (ix2 (0 : Fin 1) q) = s (ix2 (0 : Fin 1) q) * invN := by
  unfold k0_pay2
  rfl

end Cert.KernelIdeal.Val

end
-- ==== Proof.LibBlockSum.lean ====
/-
  A sum over Fin N taken block by block: the terms below B·(k+1) are the terms below B·k and the B terms of block k.
-/
import Mathlib.Algebra.BigOperators.Fin
import Mathlib.Algebra.BigOperators.Intervals

open scoped BigOperators

namespace Cert.BlockSum

/-- The sum of f over the indices below B·(k+1) is the sum over the indices below B·k plus the sum over block k,
    whose j-th index is B·k + j. For any commutative additive monoid (the extended reals included). -/
theorem sum_below_succ {M : Type*} [AddCommMonoid M] {N : ℕ} (B k : ℕ) (hj : ∀ j : Fin B, B * k + j.val < N) (f : Fin N → M) :
    ∑ n ∈ Finset.univ.filter (fun n : Fin N => n.val < B * (k + 1)), f n
      = ∑ n ∈ Finset.univ.filter (fun n : Fin N => n.val < B * k), f n
        + ∑ j : Fin B, f ⟨B * k + j.val, hj j⟩ := by
  -- below B·(k+1) and below B·k is below B·k
  have hlow : Finset.univ.filter (fun n : Fin N => n.val < B * (k + 1) ∧ n.val < B * k)
      = Finset.univ.filter (fun n : Fin N => n.val < B * k) :=
    Finset.filter_congr fun n _ => by
      rw [Nat.mul_succ]
      exact ⟨fun h => h.2, fun h => ⟨by omega, h⟩⟩
  -- below B·(k+1) and not below B·k is block k: the B indices B·k + j
  have hblock : Finset.univ.filter (fun n : Fin N => n.val < B * (k + 1) ∧ ¬ n.val < B * k)
      = Finset.univ.image (fun j : Fin B => (⟨B * k + j.val, hj j⟩ : Fin N)) := by
    ext n
    rw [Finset.mem_filter, Finset.mem_image, Nat.mul_succ]
    constructor
    · rintro ⟨_, h1, h2⟩
      exact ⟨⟨n.val - B * k, by omega⟩, Finset.mem_univ _,
        Fin.ext (by show B * k + (n.val - B * k) = n.val; omega)⟩
    · rintro ⟨j, _, rfl⟩
      have hjB := j.isLt
      exact ⟨Finset.mem_univ _, by show B * k + j.val < B * k + B; omega,
        by show ¬ B * k + j.val < B * k; omega⟩
  rw [← Finset.sum_filter_add_sum_filter_not (Finset.univ.filter (fun n : Fin N => n.val < B * (k + 1)))
      (fun n : Fin N => n.val < B * k) f,
    Finset.filter_filter, Finset.filter_filter, hlow, hblock, Finset.sum_image]
  -- j ↦ B·k + j is injective
  intro a _ b _ h
  have hv : B * k + a.val = B * k + b.val := congrArg Fin.val h
  exact Fin.ext (by omega)

/-- Nothing lies below zero. -/
theorem sum_below_zero {M : Type*} [AddCommMonoid M] {N : ℕ} (B : ℕ) (f : Fin N → M) :
    ∑ n ∈ Finset.univ.filter (fun n : Fin N => n.val < B * 0), f n = 0 := by
  rw [Finset.filter_eq_empty_iff.mpr (fun n _ => by rw [Nat.mul_zero]; exact Nat.not_lt_zero _), Finset.sum_empty]

/-- Everything lies below N. -/
theorem sum_below_all {M : Type*} [AddCommMonoid M] {N : ℕ} (b : ℕ) (hb : N ≤ b) (f : Fin N → M) :
    ∑ n ∈ Finset.univ.filter (fun n : Fin N => n.val < b), f n = ∑ n : Fin N, f n := by
  rw [Finset.filter_true_of_mem (fun n _ => lt_of_lt_of_le n.isLt hb)]

end Cert.BlockSum
-- ==== Proof.Tiles.lean ====
/-
  A sum over 8192 rows taken in eight tiles of 1024, as a running total.

  The running total starts from zero, the total written first: after tile 0 it is 0 + S 0, after tile n + 1 it is the
  total after tile n plus S (n + 1). When S t is the sum of f over the 1024 rows of tile t, the total after tile n is
  the sum of f over the rows below 1024 · (n + 1), by induction on n; after tile 7 every row lies below, so the total is
  the sum over all rows. This holds in any commutative additive monoid. On the extended reals multiplication does not
  distribute over addition in general, but a nonnegative real factor does move through a finite sum.
-/
import proofs.«142343_j22625887715845_1_alg».proof.Proof.LibBlockSum
import Mathlib.Algebra.BigOperators.Fin
import Mathlib.Algebra.BigOperators.Intervals
import Mathlib.Data.EReal.Operations

open scoped BigOperators

namespace Cert.Tiles

/-- the running total after tile n: tile sums folded from zero, the total FIRST (0 + S 0, then total + S (n+1)) -/
def run {M : Type*} [AddCommMonoid M] (S : ℕ → M) : ℕ → M
  | 0 => 0 + S 0
  | n + 1 => run S n + S (n + 1)

/-- After tile n, the running total is the sum over the rows below 1024 · (n + 1). -/
theorem run_eq_below {M : Type*} [AddCommMonoid M] (f : Fin 8192 → M) (S : ℕ → M)
    (hS : ∀ t (ht : t < 8), S t = ∑ r : Fin 1024, f ⟨1024 * t + r.val, by have := r.isLt; omega⟩) :
    ∀ n, n < 8 → run S n = ∑ m ∈ Finset.univ.filter (fun m : Fin 8192 => m.val < 1024 * (n + 1)), f m
  | 0, h => by
    -- the rows below 1024 are no rows and then tile 0
    rw [run, Cert.BlockSum.sum_below_succ 1024 0 (fun j => by have := j.isLt; omega) f,
      Cert.BlockSum.sum_below_zero, hS 0 h]
  | n + 1, h => by
    -- the rows below 1024 · (n + 2) are the rows below 1024 · (n + 1) and then tile n + 1
    rw [run, run_eq_below f S hS n (by omega),
      Cert.BlockSum.sum_below_succ 1024 (n + 1) (fun j => by have := j.isLt; omega) f, hS (n + 1) h]

/-- After the eighth tile the running total is the sum over all 8192 rows. -/
theorem run_eq_sum {M : Type*} [AddCommMonoid M] (f : Fin 8192 → M) (S : ℕ → M)
    (hS : ∀ t (ht : t < 8), S t = ∑ r : Fin 1024, f ⟨1024 * t + r.val, by have := r.isLt; omega⟩) :
    run S 7 = ∑ n : Fin 8192, f n := by
  rw [run_eq_below f S hS 7 (by omega)]
  exact Cert.BlockSum.sum_below_all (1024 * (7 + 1)) (by omega) f

/-- A nonnegative real factor moves through a finite sum on the extended reals. -/
theorem mul_sum_nonneg (c : ℝ) (hc : 0 ≤ c) {ι : Type*} (s : Finset ι) (g : ι → EReal) :
    (∑ i ∈ s, g i) * (c : EReal) = ∑ i ∈ s, g i * (c : EReal) := by
  induction s using Finset.cons_induction with
  | empty => rw [Finset.sum_empty, Finset.sum_empty, zero_mul]
  | cons a s ha ih =>
    -- a nonnegative factor that is not the top element distributes over a sum of two
    rw [Finset.sum_cons, Finset.sum_cons,
      EReal.right_distrib_of_nonneg_of_ne_top (EReal.coe_nonneg.mpr hc) (EReal.coe_ne_top c), ih]

end Cert.Tiles
-- ==== Proof.KI.Mean0.lean ====
/-
  Region 0's output array as the mean message.

  Every window of pass 1 but the states' sits at the origin of its array and is the whole array; the states' window at
  point t is rows 1024·t … 1024·t + 1023. The accumulator after point n, at column q, is therefore the running total of
  the tile sums of the unit message's entry q, tile t being those rows; after the eighth point it is the sum over all
  8192 rows. The output window is written back once, at the last point, with the accumulator times 2^-13, and its one
  block is the whole array: so the array ends holding the mean message.
-/
import proofs.«142343_j22625887715845_1_alg».proof.Proof.KI.Reg0
import proofs.«142343_j22625887715845_1_alg».proof.Proof.KI.Val0
import proofs.«142343_j22625887715845_1_alg».proof.Proof.Tiles
import proofs.«142343_j22625887715845_1_alg».proof.Proof.Spec
import proofs.«142343_j22625887715845_1_alg».proof.Proof.Gen.KernelIdeal.Points
import proofs.«142343_j22625887715845_1_alg».proof.Proof.Gen.KernelIdeal.Launch
import Idealize.ShloMosaic.Lib.Pipeline.Value
import Idealize.ShloMosaic.Lib.ValueIdx

set_option maxRecDepth 16384

noncomputable section

open scoped BigOperators

namespace Cert.KernelIdeal.Fr

open Cert.KernelIdeal Cert.KernelIdeal.Gen Cert.Spec
open Idealize.ShloMosaic Idealize.ShloMosaic.TcCoe Idealize.ShloMosaic.ValueIdx
open Idealize.ShloMosaic.Pipeline (Dat)

variable {F : FTy → Type} [FloatOps F]

/-- the grid of pass 1 has eight points -/
theorem lt8 (t : Fin cfg0.N) : t.val < 8 := lt_of_lt_of_eq t.isLt (show cfg0.N = 8 from N_0)

/-- The index maps of pass 1, decided over its eight points: the states' block moves down one block of rows per point,
    every other window's block index is zero on both axes. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

section Region0
variable (V : (c : Dev nD) → (b : Ref sig .tc) → Buf (Elt F) ((c : Thread nD τ).loc b))

/-- The states' block at point t is rows 1024·t … 1024·t + 1023 of the states. -/
theorem iblk0_0_apply (c : Dev nD) (t : Fin cfg0.N) (r : Fin 1024) (k : Fin 64) :
    iblk0 V c 0 t (ix2 r k)
      = V c main_arg0 (ix2 (⟨1024 * t.val + r.val, by have := lt8 t; have := r.isLt; omega⟩ : Fin 8192) k) := by
  unfold iblk0
  rw [View.read_apply]
  show V c main_arg0 _ = V c main_arg0 _
  refine congrArg (V c main_arg0) (funext fun a => Fin.ext ?_)
  obtain ⟨e0, e1, -⟩ := idx0 t
  match a with
  | ⟨0, _⟩ => show win0_0.index t (0 : Fin 2) * 1024 + 1 * r.val = 1024 * t.val + r.val; omega
  | ⟨1, _⟩ => show win0_0.index t (1 : Fin 2) * 64 + 1 * k.val = k.val; omega

/-- The first weight matrix's block at any point is the whole matrix. -/
theorem iblk0_1_eq (c : Dev nD) (t : Fin cfg0.N) : iblk0 V c 1 t = V c main_v0 := by
  funext j
  unfold iblk0
  rw [View.read_apply]
  show V c main_v0 _ = V c main_v0 j
  refine congrArg (V c main_v0) (funext fun a => Fin.ext ?_)
  obtain ⟨-, -, e0, e1, -⟩ := idx0 t
  match a with
  | ⟨0, _⟩ => show win0_1.index t (0 : Fin 2) * 64 + 1 * (j 0).val = (j 0).val; omega
  | ⟨1, _⟩ => show win0_1.index t (1 : Fin 2) * 128 + 1 * (j 1).val = (j 1).val; omega

/-- The first bias row's block at any point is the whole row. -/
theorem iblk0_2_eq (c : Dev nD) (t : Fin cfg0.N) : iblk0 V c 2 t = V c main_v2 := by
  funext j
  unfold iblk0
  rw [View.read_apply]
  show V c main_v2 _ = V c main_v2 j
  refine congrArg (V c main_v2) (funext fun a => Fin.ext ?_)
  obtain ⟨-, -, -, -, e0, e1, -⟩ := idx0 t
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- The second weight matrix's block at any point is the whole matrix. -/
theorem iblk0_3_eq (c : Dev nD) (t : Fin cfg0.N) : iblk0 V c 3 t = V c main_arg4 := by
  funext j
  unfold iblk0
  rw [View.read_apply]
  show V c main_arg4 _ = V c main_arg4 j
  refine congrArg (V c main_arg4) (funext fun a => Fin.ext ?_)
  obtain ⟨-, -, -, -, -, -, e0, e1, -⟩ := idx0 t
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- The second bias row's block at any point is the whole row. -/
theorem iblk0_4_eq (c : Dev nD) (t : Fin cfg0.N) : iblk0 V c 4 t = V c main_v3 := by
  funext j
  unfold iblk0
  rw [View.read_apply]
  show V c main_v3 _ = V c main_v3 j
  refine congrArg (V c main_v3) (funext fun a => Fin.ext ?_)
  obtain ⟨-, -, -, -, -, -, -, -, e0, e1, -⟩ := idx0 t
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- The third weight matrix's block at any point is the whole matrix. -/
theorem iblk0_5_eq (c : Dev nD) (t : Fin cfg0.N) : iblk0 V c 5 t = V c main_arg6 := by
  funext j
  unfold iblk0
  rw [View.read_apply]
  show V c main_arg6 _ = V c main_arg6 j
  refine congrArg (V c main_arg6) (funext fun a => Fin.ext ?_)
  obtain ⟨-, -, -, -, -, -, -, -, -, -, e0, e1, -⟩ := idx0 t
  match a with
  | ⟨0, _⟩ => show win0_5.index t (0 : Fin 2) * 128 + 1 * (j 0).val = (j 0).val; omega
  | ⟨1, _⟩ => show win0_5.index t (1 : Fin 2) * 32 + 1 * (j 1).val = (j 1).val; omega

/-- The third bias row's block at any point is the whole row. -/
theorem iblk0_6_eq (c : Dev nD) (t : Fin cfg0.N) : iblk0 V c 6 t = V c main_v4 := by
  funext j
  unfold iblk0
  rw [View.read_apply]
  show V c main_v4 _ = V c main_v4 j
  refine congrArg (V c main_v4) (funext fun a => Fin.ext ?_)
  obtain ⟨-, -, -, -, -, -, -, -, -, -, -, -, e0, e1, -⟩ := idx0 t
  match a with
  | ⟨0, _⟩ => show win0_6.index t (0 : Fin 2) * 1 + 1 * (j 0).val = (j 0).val; omega
  | ⟨1, _⟩ => show win0_6.index t (1 : Fin 2) * 32 + 1 * (j 1).val = (j 1).val; omega

/-- The output array after the run: the one write-back, at the last point, writes the accumulator times 2^-13 through a
    block that is the whole array. -/
theorem out0_eq (c : Dev nD) :
    (dat0 V c).arrAt 7 cfg0.N = k0_pay2 (acc0 V c 7 (by have : cfg0.N = 8 := N_0; omega)) := by
  refine (dat0 V c).arrAt_eq_of_cover 7 _ (fun t hf => ?_) (fun i => ?_)
  · -- only the last point writes back; its block sits at the origin, so reading the row through it changes nothing
    have h7 : t.val = 7 := by have := (flush0_7 t).mp hf; have := lt8 t; omega
    obtain ⟨n, hn⟩ := t
    obtain rfl : n = 7 := h7
    obtain ⟨-, -, -, -, -, -, -, -, -, -, -, -, -, -, e0, e1⟩ := idx0 ⟨7, hn⟩
    show (cfg0.win 7).cut (grid0.coords ⟨7, hn⟩) ((dat0 V c).after 7 ⟨7, hn⟩) = _
    rw [after0_7]
    funext j
    rw [View.read_apply]
    show k0_pay2 (acc0 V c 7 _) _ = k0_pay2 (acc0 V c 7 _) _
    refine congrArg (k0_pay2 (acc0 V c 7 _)) (funext fun a => Fin.ext ?_)
    match a with
    | ⟨0, _⟩ => show (j 0).val = win0_7.index ⟨7, hn⟩ (0 : Fin 2) * 1 + 1 * (j 0).val; omega
    | ⟨1, _⟩ => show (j 1).val = win0_7.index ⟨7, hn⟩ (1 : Fin 2) * 32 + 1 * (j 1).val; omega
  · -- every index of the row lies in the last point's block
    have hn : 7 < cfg0.N := by have : cfg0.N = 8 := N_0; omega
    obtain ⟨-, -, -, -, -, -, -, -, -, -, -, -, -, -, e0, e1⟩ := idx0 ⟨7, hn⟩
    refine ⟨⟨7, hn⟩, (flush0_7 ⟨7, hn⟩).mpr rfl, ?_⟩
    show i ∈ ((View.whole main_v9).slice (win0_7.rect ⟨7, hn⟩)).set
    rw [View.set_slice_whole, Rect.mem_set_unit]
    intro a
    have h0 : (i 0).val < 1 := (i 0).isLt
    have h1 : (i 1).val < 32 := (i 1).isLt
    match a with
    | ⟨0, _⟩ =>
      show win0_7.index ⟨7, hn⟩ (0 : Fin 2) * 1 ≤ (i 0).val ∧ (i 0).val < win0_7.index ⟨7, hn⟩ (0 : Fin 2) * 1 + 1
      omega
    | ⟨1, _⟩ =>
      show win0_7.index ⟨7, hn⟩ (1 : Fin 2) * 32 ≤ (i 1).val ∧ (i 1).val < win0_7.index ⟨7, hn⟩ (1 : Fin 2) * 32 + 32
      omega

end Region0

/-! ## On the extended reals -/

section Value
variable (V : (c : Dev nD) → (b : Ref sig .tc) → Buf (Elt Ideal) ((c : Thread nD τ).loc b))

/-- the unit message's entry q on row n of the states -/
def msg0 (c : Dev nD) (q : Fin 32) (n : Fin 8192) : EReal :=
  msgRow (mat (V c main_v0)) (row (V c main_v2)) (mat (V c main_arg4)) (row (V c main_v3)) (mat (V c main_arg6))
    (row (V c main_v4)) (mat (V c main_arg0) n) q

/-- the sum of the unit message's entry q over the 1024 rows of tile t -/
def tile0 (c : Dev nD) (q : Fin 32) (t : ℕ) : EReal :=
  if ht : t < 8 then ∑ r : Fin 1024, msg0 V c q ⟨1024 * t + r.val, by have := r.isLt; omega⟩ else 0

/-- One step at point t adds tile t's sum to the accumulator's entry q. -/
theorem step0_tile (c : Dev nD) (t : Fin cfg0.N) (s : Vec Ideal S1x32 .f32) (q : Fin 32) :
    step0 (iblk0 V c 0 t) (iblk0 V c 1 t) (iblk0 V c 2 t) (iblk0 V c 3 t) (iblk0 V c 4 t) (iblk0 V c 5 t) (iblk0 V c 6 t) s
        (ix2 (0 : Fin 1) q)
      = s (ix2 (0 : Fin 1) q) + tile0 V c q t.val := by
  unfold step0
  refine (Val.step0_apply _ _ _ _ _ _ _ s q).trans ?_
  refine congrArg (fun x => s (ix2 (0 : Fin 1) q) + x) ?_
  unfold tile0
  rw [dif_pos (lt8 t)]
  refine Finset.sum_congr rfl fun r _ => ?_
  -- the weights' blocks are the weights; the states' block is tile t's rows
  rw [iblk0_1_eq V c t, iblk0_2_eq V c t, iblk0_3_eq V c t, iblk0_4_eq V c t, iblk0_5_eq V c t, iblk0_6_eq V c t]
  unfold msg0
  exact congrArg (fun x => msgRow (mat (V c main_v0)) (row (V c main_v2)) (mat (V c main_arg4)) (row (V c main_v3))
    (mat (V c main_arg6)) (row (V c main_v4)) x q) (funext fun k => iblk0_0_apply V c t r k)

/-- The accumulator's entry q after point n is the running total of the tile sums. -/
theorem acc0_run (c : Dev nD) (q : Fin 32) :
    ∀ (n : ℕ) (hn : n < cfg0.N), acc0 V c n hn (ix2 (0 : Fin 1) q) = Cert.Tiles.run (tile0 V c q) n
  | 0, hn => by
    show step0 (F := Ideal) _ _ _ _ _ _ _ (k0_pay3 (F := Ideal)) (ix2 (0 : Fin 1) q) = _
    rw [step0_tile V c ⟨0, hn⟩, Val.pay3_apply, Cert.Tiles.run]
  | n + 1, hn => by
    show step0 (F := Ideal) _ _ _ _ _ _ _ (acc0 V c n _) (ix2 (0 : Fin 1) q) = _
    rw [step0_tile V c ⟨n + 1, hn⟩, acc0_run c q n, Cert.Tiles.run]

/-- THE OUTPUT OF PASS 1: the array ends holding, at column q, the mean over the 8192 rows of the unit message's entry q. -/
theorem out0_value (c : Dev nD) (q : Fin 32) :
    (dat0 (F := Ideal) V c).arrAt 7 cfg0.N (ix2 (0 : Fin 1) q)
      = meanMsg (mat (V c main_v0)) (row (V c main_v2)) (mat (V c main_arg4)) (row (V c main_v3)) (mat (V c main_arg6))
          (row (V c main_v4)) (mat (V c main_arg0)) q := by
  refine (congrFun (out0_eq V c) (ix2 (0 : Fin 1) q)).trans ?_
  refine (Val.pay2_apply _ q).trans ?_
  rw [acc0_run V c q 7 _, Cert.Tiles.run_eq_sum (msg0 V c q) (tile0 V c q) (fun t ht => dif_pos ht)]
  rfl

end Value

end Cert.KernelIdeal.Fr

end
-- ==== Proof.KI.Val1.lean ====
/-
  Pass 2's payloads at an index.

  One grid point of the second pass takes 1024 rows of states. Each row x goes through the first affine map
  (the sum over the 64 states plus the bias row, then the extra bias row added on top), the rectifier, and the
  second affine map; the 1024 resulting rows are summed column by column and the sum is added to the accumulator
  row. So the accumulator's new entry j is its old entry j plus the sum over the 1024 rows of the second pass's
  row function at j. The other two payloads are the zero row the accumulator starts from and the accumulator
  scaled by 2^-13.

  Each layer is read by itself over arbitrary operands: narrowing to the shorter float format is the identity on
  the extended reals, a product into a zero accumulator at (r, j) is the sum over k of lhs(r, k) * rhs(k, j), a one-row
  array stretched over the rows reads its entry (0, j), and a cast between equal shapes is the identity.
-/
import proofs.«142343_j22625887715845_1_alg».proof.Proof.Gen.KernelIdeal.Skeleton
import proofs.«142343_j22625887715845_1_alg».proof.Proof.Spec
import proofs.«142343_j22625887715845_1_alg».proof.Proof.LibDense
import proofs.«142343_j22625887715845_1_alg».proof.Proof.LibBiasRow
import proofs.«142343_j22625887715845_1_alg».proof.Proof.LibColSum
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val1

open Cert.KernelIdeal Cert.KernelIdeal.Gen Cert.Spec Idealize.ShloMosaic Idealize.ShloMosaic.ValueIdx

/-- The first layer before its rectifier, at (r, j): the affine map of row r under the weights W and the bias row b,
    plus the extra bias row c. -/
theorem layer1_apply (X : FVec Ideal S1024x64 .f32) (W : FVec Ideal S64x128 .f32) (b c : FVec Ideal S1x128 .f32)
    (r : Fin 1024) (j : Fin 128) :
    addf (addf (matmul dot_S1024x64_S64x128_S1024x128_1_0_0_1_n_n none (truncf .bf16 X bitsLt_bf16_f32)
            (truncf .bf16 W bitsLt_bf16_f32) (constant (F := Ideal) S1024x128 .f32 0x00000000#32))
          (broadcastTo S1024x128 b broadcasts_S1x128_S1024x128))
        (broadcastTo S1024x128 c broadcasts_S1x128_S1024x128) (ix2 r j)
      = lin (mat W) (row b) (fun k => X (ix2 r k)) j + row c j := by
  -- the two sums entry by entry, the product as a sum over k, each stretched row at (0, j)
  rw [addf_apply, addf_apply]
  rw [Cert.Dense.matmul_zero_plain_apply dot_S1024x64_S64x128_S1024x128_1_0_0_1_n_n rfl rfl rfl rfl rfl rfl none _ _ r j]
  rw [Cert.BiasRow.stretch_row_apply broadcasts_S1x128_S1024x128 b r j,
    Cert.BiasRow.stretch_row_apply broadcasts_S1x128_S1024x128 c r j]
  rfl

/-- The second layer on rectified rows, at (r, j): the affine map, under the weights W and the bias row b, of the
    row r of Y cut off below at 0. -/
theorem layer2_apply (Y : FVec Ideal S1024x128 .f32) (W : FVec Ideal S128x128 .f32) (b : FVec Ideal S1x128 .f32)
    (r : Fin 1024) (j : Fin 128) :
    addf (matmul dot_S1024x128_S128x128_S1024x128_1_0_0_1_n_n none
            (truncf .bf16 (maximumf Y (broadcast S1024x128 (Scalar.ofBits (F := Ideal) .f32 0x00000000#32))) bitsLt_bf16_f32)
            (truncf .bf16 W bitsLt_bf16_f32) (constant (F := Ideal) S1024x128 .f32 0x00000000#32))
        (broadcastTo S1024x128 b broadcasts_S1x128_S1024x128) (ix2 r j)
      = lin (mat W) (row b) (fun k => max (Y (ix2 r k)) 0) j := by
  rw [addf_apply]
  rw [Cert.Dense.matmul_zero_plain_apply dot_S1024x128_S128x128_S1024x128_1_0_0_1_n_n rfl rfl rfl rfl rfl rfl none _ _ r j]
  rw [Cert.BiasRow.stretch_row_apply broadcasts_S1x128_S1024x128 b r j]
  unfold lin
  refine congrArg (· + row b j) (Finset.sum_congr rfl fun k _ => ?_)
  -- the narrowed rectified entry is the maximum with the number 0
  show maximumf Y (broadcast S1024x128 (Scalar.ofBits (F := Ideal) .f32 0x00000000#32)) (ix2 r k) * W (ix2 k j) = _
  rw [Cert.Dense.kernel_relu_apply Y (ix2 r k)]

/-- The accumulator row plus the column sums of Z, at (0, j). -/
theorem accumulate_apply (acc : FVec Ideal S1x128 .f32) (Z : FVec Ideal S1024x128 .f32) (j : Fin 128) :
    addf acc (shapeCast S1x128
        (multiReduction (F := Ideal) .add [0] S128 Z 0x00000000#32 reduces_S1024x128_S128 (.inl rfl) rfl)
        shapeCasts_S128_S1x128) (ix2 (0 : Fin 1) j)
      = acc (ix2 (0 : Fin 1) j) + ∑ r : Fin 1024, Z (ix2 r j) := by
  rw [addf_apply]
  rw [shapeCast_a_1a_apply _ shapeCasts_S128_S1x128 (0 : Fin 1) j]
  rw [Cert.LibColSum.colSum_apply Z reduces_S1024x128_S128 (.inl rfl) rfl j]

/-- The accumulator after one grid point: its old entry j plus the sum over the point's 1024 rows of the second
    pass's row function at j. -/
theorem step1_apply (v3 : Vec Ideal S1024x64 .f32) (v5 : Vec Ideal S64x128 .f32) (v9 v13 : Vec Ideal S1x128 .f32)
    (v19 : Vec Ideal S128x128 .f32) (v23 : Vec Ideal S1x128 .f32) (v27 : Vec Ideal S1x128 .f32) (j : Fin 128) :
    k1_pay3 v3 v5 v9 v13 v19 v23 v27 (ix2 (0 : Fin 1) j)
      = v27 (ix2 (0 : Fin 1) j)
        + ∑ r : Fin 1024, coreRow (mat v5) (row v9) (mat v19) (row v23) (row v13) (fun k => v3 (ix2 r k)) j := by
  unfold k1_pay3
  simp only [shapeCast_self]
  refine (accumulate_apply _ _ j).trans ?_
  refine congrArg (v27 (ix2 (0 : Fin 1) j) + ·) (Finset.sum_congr rfl fun r _ => ?_)
  refine (layer2_apply _ v19 v23 r j).trans ?_
  unfold coreRow
  refine congrArg (fun f => lin (mat v19) (row v23) f j) (funext fun k => ?_)
  rw [layer1_apply v3 v5 v9 v13 r k]

/-- The row the accumulator starts from is zero. -/
theorem pay2_apply (j : Fin 128) : k1_pay2 (F := Ideal) (ix2 (0 : Fin 1) j) = 0 := by
  unfold k1_pay2
  simp only [shapeCast_self]
  rw [broadcast_apply]
  exact Ideal.ofBits_zero_f32

/-- The mean row: the accumulator times 2^-13. -/
theorem pay1_apply (s : Vec Ideal S1x128 .f32) (j : Fin 128) :
    k1_pay1 s (ix2 (0 : Fin 1) j) = s (ix2 (0 : Fin 1) j) * invN := by
  unfold k1_pay1
  rw [mulf_apply, broadcast_apply]
  rfl

end Cert.KernelIdeal.Val1

end
-- ==== Proof.KI.Mean1.lean ====
/-
  Pass 2's output array as the mean of the second pass over all 8192 rows.

  Geometry. Pass 2 runs over eight grid points. The states' window moves one block of 1024 rows per point, so its
  block at point t is rows 1024 t … 1024 t + 1023 of the states' array; each of the five weight and bias windows stays
  at block (0, 0) and its block is the whole array. The output window's block is the whole output row, and it is written
  back at the last point only: that one write-back covers the array, which therefore ends holding what the last point
  left in the output's buffer, the accumulator after the last point times 2^-13.

  Value, on the extended reals. One point's step adds to the accumulator, column by column, the sum over the point's
  1024 rows of the second pass's row function; the first point starts from the zero row. So the accumulator after
  point n is the running total of the eight tile sums, by induction on n, and after the last point it is the sum of the
  row function over all 8192 rows. Times 2^-13 this is the mean as the specification states it.
-/
import proofs.«142343_j22625887715845_1_alg».proof.Proof.KI.Reg1
import proofs.«142343_j22625887715845_1_alg».proof.Proof.KI.Val1
import proofs.«142343_j22625887715845_1_alg».proof.Proof.Tiles
import proofs.«142343_j22625887715845_1_alg».proof.Proof.Spec
import proofs.«142343_j22625887715845_1_alg».proof.Proof.Gen.KernelIdeal.Launch
import proofs.«142343_j22625887715845_1_alg».proof.Proof.Gen.KernelIdeal.Points
import Idealize.ShloMosaic.Lib.Pipeline.Value
import Idealize.ShloMosaic.Lib.ValueIdx
import Idealize.ShloMosaic.Lib.Tactic

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Mean1

variable {F : FTy → Type} [FloatOps F]
variable (V : (c : Dev nD) → (b : Ref sig .tc) → Buf (Elt F) ((c : Thread nD τ).loc b))

/-- the printed index maps of pass 2, decided once over its eight grid points: the states' window moves one block of 1024
    rows per point and stays at column 0; every other window stays at block (0, 0) -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

/-- the states' block at point t is rows 1024 t … 1024 t + 1023 of the states' array -/
theorem iblk1_0_apply (c : Dev nD) (t : Fin cfg1.N) (r : Fin 1024) (k : Fin 64) :
    (iblk1 V c 0 t : S1024x64.Idx → Elt F .f32) (ix2 r k)
      = (V c main_arg0 : S8192x64.Idx → Elt F .f32)
          (ix2 (⟨1024 * t.val + r.val, by have := r.isLt; have := t.isLt; have hN : cfg1.N = 8 := N_1; omega⟩ : Fin 8192) k) := by
  obtain ⟨e0, e1⟩ := idx1_0 t
  unfold iblk1
  rw [View.read_apply]
  show V c main_arg0 _ = V c main_arg0 _
  congr 1
  funext a
  apply Fin.ext
  match a with
  | ⟨0, _⟩ => show win1_0.index t (0 : Fin 2) * 1024 + 1 * r.val = 1024 * t.val + r.val; rw [e0]; omega
  | ⟨1, _⟩ => show win1_0.index t (1 : Fin 2) * 64 + 1 * k.val = k.val; rw [e1]; omega

/-- every other input's block, at every point, is its whole array -/
theorem iblk1_1_eq (c : Dev nD) (t : Fin cfg1.N) : (iblk1 V c 1 t : S64x128.Idx → Elt F .f32) = V c main_v0 := by
  obtain ⟨e0, e1⟩ := idx1_1 t
  funext j
  unfold iblk1
  rw [View.read_apply]
  show V c main_v0 _ = V c main_v0 j
  congr 1
  funext a
  apply Fin.ext
  match a with
  | ⟨0, _⟩ => show win1_1.index t (0 : Fin 2) * 64 + 1 * (j 0).val = (j 0).val; rw [e0]; omega
  | ⟨1, _⟩ => show win1_1.index t (1 : Fin 2) * 128 + 1 * (j 1).val = (j 1).val; rw [e1]; omega
theorem iblk1_2_eq (c : Dev nD) (t : Fin cfg1.N) : (iblk1 V c 2 t : S1x128.Idx → Elt F .f32) = V c main_v10 := by
  obtain ⟨e0, e1⟩ := idx1_2 t
  funext j
  unfold iblk1
  rw [View.read_apply]
  show V c main_v10 _ = V c main_v10 j
  congr 1
  funext a
  apply Fin.ext
  match a with
  | ⟨0, _⟩ => show win1_2.index t (0 : Fin 2) * 1 + 1 * (j 0).val = (j 0).val; rw [e0]; omega
  | ⟨1, _⟩ => show win1_2.index t (1 : Fin 2) * 128 + 1 * (j 1).val = (j 1).val; rw [e1]; omega
theorem iblk1_3_eq (c : Dev nD) (t : Fin cfg1.N) : (iblk1 V c 3 t : S1x128.Idx → Elt F .f32) = V c main_v2 := by
  obtain ⟨e0, e1⟩ := idx1_3 t
  funext j
  unfold iblk1
  rw [View.read_apply]
  show V c main_v2 _ = V c main_v2 j
  congr 1
  funext a
  apply Fin.ext
  match a with
  | ⟨0, _⟩ => show win1_3.index t (0 : Fin 2) * 1 + 1 * (j 0).val = (j 0).val; rw [e0]; omega
  | ⟨1, _⟩ => show win1_3.index t (1 : Fin 2) * 128 + 1 * (j 1).val = (j 1).val; rw [e1]; omega
theorem iblk1_4_eq (c : Dev nD) (t : Fin cfg1.N) : (iblk1 V c 4 t : S128x128.Idx → Elt F .f32) = V c main_arg4 := by
  obtain ⟨e0, e1⟩ := idx1_4 t
  funext j
  unfold iblk1
  rw [View.read_apply]
  show V c main_arg4 _ = V c main_arg4 j
  congr 1
  funext a
  apply Fin.ext
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega
theorem iblk1_5_eq (c : Dev nD) (t : Fin cfg1.N) : (iblk1 V c 5 t : S1x128.Idx → Elt F .f32) = V c main_v3 := by
  obtain ⟨e0, e1⟩ := idx1_5 t
  funext j
  unfold iblk1
  rw [View.read_apply]
  show V c main_v3 _ = V c main_v3 j
  congr 1
  funext a
  apply Fin.ext
  match a with
  | ⟨0, _⟩ => show win1_5.index t (0 : Fin 2) * 1 + 1 * (j 0).val = (j 0).val; rw [e0]; omega
  | ⟨1, _⟩ => show win1_5.index t (1 : Fin 2) * 128 + 1 * (j 1).val = (j 1).val; rw [e1]; omega

/-- the output window's block, at every point, is the whole output row: reading any contents through it gives them back -/
theorem read_blk1_6 (t : Fin cfg1.N) (G : S1x128.Idx → Elt F .f32) :
    ((cfg1.win 6).blk t).view.read (Elt F) G = G := by
  obtain ⟨e0, e1⟩ := idx1_6 t
  funext j
  rw [View.read_apply]
  show G _ = G j
  congr 1
  funext a
  apply Fin.ext
  match a with
  | ⟨0, _⟩ => show win1_6.index t (0 : Fin 2) * 1 + 1 * (j 0).val = (j 0).val; rw [e0]; omega
  | ⟨1, _⟩ => show win1_6.index t (1 : Fin 2) * 128 + 1 * (j 1).val = (j 1).val; rw [e1]; omega

/-- the last grid point -/
abbrev t1_7 : Fin cfg1.N := ⟨7, by have hN : cfg1.N = 8 := N_1; omega⟩

/-- the output array after the run: the one write-back, at the last point, covers it with the mean taken from the
    accumulator after the last point -/
theorem out1_eq (c : Dev nD) :
    (dat1 V c).arrAt 6 cfg1.N = k1_pay1 (acc1 V c 7 (by have hN : cfg1.N = 8 := N_1; omega)) := by
  refine (dat1 V c).arrAt_eq_of_cover 6 _ (fun t hf => ?_) (fun i => ⟨t1_7, (flush1_6 t1_7).mpr rfl, ?_⟩)
  · -- only the last point writes back, and what it writes is the whole row
    have hN : cfg1.N = 8 := N_1
    have h7 : t.val = 7 := by have := (flush1_6 t).mp hf; have := t.isLt; omega
    obtain rfl : t = t1_7 := Fin.ext h7
    show (cfg1.win 6).cut (grid1.coords t1_7) ((dat1 V c).after 6 t1_7) = _
    rw [after1_6]
    exact (read_blk1_6 t1_7 _).symm
  · -- the last point's block is the whole row
    obtain ⟨e0, e1⟩ := idx1_6 t1_7
    show i ∈ ((View.whole main_v11).slice (win1_6.rect t1_7)).set
    rw [View.set_slice_whole, Rect.mem_set_unit]
    intro a
    have h0 : (i 0 : Nat) < 1 := (i 0).isLt
    have h1 : (i 1 : Nat) < 128 := (i 1).isLt
    match a with
    | ⟨0, _⟩ =>
      show win1_6.index t1_7 (0 : Fin 2) * 1 ≤ (i 0 : Nat) ∧ (i 0 : Nat) < win1_6.index t1_7 (0 : Fin 2) * 1 + 1
      rw [e0]; omega
    | ⟨1, _⟩ =>
      show win1_6.index t1_7 (1 : Fin 2) * 128 ≤ (i 1 : Nat) ∧ (i 1 : Nat) < win1_6.index t1_7 (1 : Fin 2) * 128 + 128
      rw [e1]; omega

end Mean1

section Value1

open Cert.Spec

variable (V : (c : Dev nD) → (b : Ref sig .tc) → Buf (Elt Ideal) ((c : Thread nD τ).loc b))

/-- the second pass's row function at column j on row n of the states, under the arrays the region is entered with -/
def core1 (c : Dev nD) (j : Fin 128) (n : Fin 8192) : EReal :=
  coreRow (mat (V c main_v0)) (row (V c main_v2)) (mat (V c main_arg4)) (row (V c main_v3)) (row (V c main_v10))
    (mat (V c main_arg0) n) j

/-- the sum of the row function over the 1024 rows of tile t (zero past the eight tiles) -/
def tile1 (c : Dev nD) (j : Fin 128) (t : ℕ) : EReal :=
  if h : t < 8 then ∑ r : Fin 1024, core1 V c j ⟨1024 * t + r.val, by have := r.isLt; omega⟩ else 0

/-- one point's step of the accumulator at column j: what it held plus the point's tile sum -/
theorem step1_tile (c : Dev nD) (t : Fin cfg1.N) (s : Vec Ideal S1x128 .f32) (j : Fin 128) :
    step1 (iblk1 V c 0 t) (iblk1 V c 1 t) (iblk1 V c 2 t) (iblk1 V c 3 t) (iblk1 V c 4 t) (iblk1 V c 5 t) s (ix2 (0 : Fin 1) j)
      = s (ix2 (0 : Fin 1) j) + tile1 V c j t.val := by
  have hN : cfg1.N = 8 := N_1
  have ht : t.val < 8 := by have := t.isLt; omega
  unfold step1
  refine (Cert.KernelIdeal.Val1.step1_apply _ _ _ _ _ _ s j).trans ?_
  unfold tile1
  rw [dif_pos ht]
  refine congrArg (s (ix2 (0 : Fin 1) j) + ·) (Finset.sum_congr rfl fun r _ => ?_)
  unfold core1
  rw [iblk1_1_eq V c t, iblk1_2_eq V c t, iblk1_3_eq V c t, iblk1_4_eq V c t, iblk1_5_eq V c t]
  refine congrArg (fun x => coreRow (mat (V c main_v0)) (row (V c main_v2)) (mat (V c main_arg4)) (row (V c main_v3))
    (row (V c main_v10)) x j) (funext fun k => ?_)
  exact iblk1_0_apply V c t r k

/-- the accumulator after point n, at column j, is the running total of the tile sums -/
theorem acc1_run (c : Dev nD) (j : Fin 128) :
    ∀ (n : ℕ) (hn : n < cfg1.N), acc1 V c n hn (ix2 (0 : Fin 1) j) = Cert.Tiles.run (tile1 V c j) n
  | 0, hn => by
    -- the first point starts from the zero row
    rw [acc1_first V c ⟨0, hn⟩ rfl, step1_tile V c ⟨0, hn⟩ _ j, Cert.KernelIdeal.Val1.pay2_apply j]
    rfl
  | n + 1, hn => by
    -- a later point adds its tile sum to what the point before left
    rw [acc1_next V c ⟨n + 1, hn⟩ (Nat.succ_ne_zero n), step1_tile V c ⟨n + 1, hn⟩ _ j]
    show acc1 V c n _ (ix2 (0 : Fin 1) j) + _ = _
    rw [acc1_run c j n (Nat.lt_of_succ_lt hn)]
    rfl

/-- the output array of pass 2 after the run, at column j: the mean of the second pass's row function over all 8192 rows -/
theorem out1_value (c : Dev nD) (j : Fin 128) :
    (dat1 (F := Ideal) V c).arrAt 6 cfg1.N (ix2 (0 : Fin 1) j)
      = meanCore (mat (V c main_v0)) (row (V c main_v2)) (mat (V c main_arg4)) (row (V c main_v3)) (row (V c main_v10))
          (mat (V c main_arg0)) j := by
  rw [out1_eq V c, Cert.KernelIdeal.Val1.pay1_apply, acc1_run V c j 7]
  rw [Cert.Tiles.run_eq_sum (core1 V c j) (tile1 V c j) (fun t ht => by unfold tile1; rw [dif_pos ht])]
  rfl

end Value1

end Cert.KernelIdeal.Fr

end
-- ==== Proof.LibRowMax.lean ====
/-
  The maximum over the last axis of an [a, b] matrix, on the extended reals, read at row i: the fold of `max`, from the
  value of the start word, over the columns c of the matrix's entry at (i, c) — in any order, `max` being commutative
  and associative.
-/
import Idealize.ShloMosaic.PureOps.Ideal.Laws
import Idealize.ShloMosaic.Lib.ValueIdx

namespace Cert.LibRowMax

open Idealize.ShloMosaic Idealize.ShloMosaic.ValueIdx

/-- The row with the column coordinate put back is the entry (i, c). -/
theorem lift_row {a b : ℕ} (h : (⟨2, ![a, b]⟩ : Shape).Reduces [1] ⟨1, ![a]⟩) (i : Fin a) (c : Fin b) :
    h.lift (ix1 i) c = ix2 i c := by
  funext ax
  match ax with
  | ⟨0, _⟩ => rfl
  | ⟨1, _⟩ => rfl

/-- The row maximum at i, folded from the start word's value over the columns. -/
theorem rowMax_apply {a b : ℕ} (src : FVec Ideal (⟨2, ![a, b]⟩ : Shape) .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun c => src (ix2 i c)) := by
  refine (Ideal.multiReduction_maximumf_single src acc h hφ hacc (ix1 i)).trans ?_
  have e : (src ∘ h.lift (ix1 i)) = fun c : Fin b => src (ix2 i c) :=
    funext fun c => congrArg src (lift_row h i c)
  rw [e]
  rfl

end Cert.LibRowMax
-- ==== Proof.KI.Val2.lean ====
/-
  Pass 3, one entry at a time, over the extended reals.

  Pass 3 takes the shared row g (one row of 128 numbers) and a block of 1024 rows of noise. Each row of the block
  becomes  h = (g + noise · scale) / max(‖g + noise · scale‖, floor)  — the row g repeated over the rows, the noise
  scaled entrywise and added, the squares summed along the row, the square root floored, the row divided — and h is
  read out by three heads: the hyperbolic tangent of an affine map to 8 numbers, an affine map to 1 number, and the
  softmax of an affine map to 3 numbers (the row maximum taken from minus infinity and once more against minus
  infinity, subtracted, exponentiated, divided by the row sum). A change of float format is the identity on the
  extended reals, so the narrowed copy of h that the heads multiply is h itself. Every array operation involved acts
  on each row by itself; the lemmas below read each stored array at the entry (r, ·) as the corresponding row
  function of the row r of the noise.
-/
import proofs.«142343_j22625887715845_1_alg».proof.Proof.Gen.KernelIdeal.Skeleton
import proofs.«142343_j22625887715845_1_alg».proof.Proof.Spec
import proofs.«142343_j22625887715845_1_alg».proof.Proof.LibDense
import proofs.«142343_j22625887715845_1_alg».proof.Proof.LibBiasRow
import proofs.«142343_j22625887715845_1_alg».proof.Proof.LibKeepdimsColumn
import proofs.«142343_j22625887715845_1_alg».proof.Proof.LibRowMax
import Idealize.ShloMosaic.Lib.ValueIdx
import Idealize.ShloMosaic.Lib.Pipeline.Value

noncomputable section

open scoped BigOperators

namespace Cert.KernelIdeal.Val2

open Cert.KernelIdeal Cert.KernelIdeal.Gen Cert.Spec Idealize.ShloMosaic Idealize.ShloMosaic.ValueIdx

variable (v0 : Vec Ideal S1024x128 .f32) (v1 : Vec Ideal S1x128 .f32)

/-- a square root, a hyperbolic tangent and an exponential of an array read entry by entry -/
theorem sqrt_apply {s : Shape} {φ : FTy} (a : FVec Ideal s φ) (i : s.Idx) : sqrt a i = Ideal.sqrt (a i) := rfl
theorem tanh_apply {s : Shape} {φ : FTy} (a : FVec Ideal s φ) (i : s.Idx) : tanh a i = Ideal.tanh (a i) := rfl
theorem exp_apply {s : Shape} {φ : FTy} (a : FVec Ideal s φ) (i : s.Idx) : exp a i = Ideal.exp (a i) := rfl

/-- the shared row repeated over the rows plus the scaled noise, at an entry -/
theorem noisy_apply (hsc : S1x128.ShapeCasts S1x128) (hbc : S1x128.Broadcasts S1024x128) (r : Fin 1024) (q : Fin 128) :
    (addf (broadcastTo S1024x128 (shapeCast S1x128 v1 hsc) hbc)
        (mulf v0 (broadcast S1024x128 (FloatOps.ofBits (F := Ideal) .f32 0x3C23D70A#32))) : FVec Ideal S1024x128 .f32) (ix2 r q)
      = row v1 q + v0 (ix2 r q) * nscale := by
  rw [addf_apply, mulf_apply, broadcast_apply, BiasRow.stretch_row_apply, shapeCast_self]
  rfl

/-- the normalized row: the shared row plus scaled noise, divided by its floored Euclidean norm -/
theorem pay2_apply (r : Fin 1024) (j : Fin 128) :
    k2_pay2 v0 v1 (ix2 r j) = finalRow (row v1) (fun j => v0 (ix2 r j)) j := by
  unfold k2_pay2
  dsimp only
  rw [divf_apply, LibKeepdimsColumn.broadcastTo_a1_ab_apply, maximumf_apply, broadcast_apply, sqrt_apply,
    LibKeepdimsColumn.shapeCast_a_a1_apply, LibKeepdimsColumn.rowSum_apply]
  simp only [mulf_apply, noisy_apply]
  rfl

/-- the change of format of the normalized row is the identity -/
theorem pay3_apply (r : Fin 1024) (j : Fin 128) :
    k2_pay3 v0 v1 (ix2 r j) = finalRow (row v1) (fun j => v0 (ix2 r j)) j :=
  pay2_apply v0 v1 r j

/-- the policy head: the hyperbolic tangent of an affine map of the normalized row -/
theorem pay4_apply (v17 : Vec Ideal S128x8 .f32) (v20 : Vec Ideal S1x8 .f32) (r : Fin 1024) (a : Fin 8) :
    k2_pay4 v0 v1 v17 v20 (ix2 r a)
      = actRow (mat v17) (row v20) (finalRow (row v1) (fun j => v0 (ix2 r j))) a := by
  unfold k2_pay4
  rw [tanh_apply, addf_apply,
    Dense.matmul_zero_plain_apply dot_S1024x128_S128x8_S1024x8_1_0_0_1_n_n rfl rfl rfl rfl rfl rfl,
    BiasRow.stretch_row_apply, shapeCast_self]
  simp only [truncf_apply, pay3_apply]
  rfl

/-- the value head: an affine map of the normalized row -/
theorem pay5_apply (v26 : Vec Ideal S128x1 .f32) (v29 : Vec Ideal S1x1 .f32) (r : Fin 1024) (u : Fin 1) :
    k2_pay5 v0 v1 v26 v29 (ix2 r u)
      = valRow (mat v26) (row v29) (finalRow (row v1) (fun j => v0 (ix2 r j))) u := by
  unfold k2_pay5
  rw [addf_apply,
    Dense.matmul_zero_plain_apply dot_S1024x128_S128x1_S1024x1_1_0_0_1_n_n rfl rfl rfl rfl rfl rfl,
    BiasRow.stretch_row_apply, shapeCast_self]
  simp only [truncf_apply, pay3_apply]
  rfl

/-- the maximum over the last axis started from the minus-infinity word, at a row: the fold of the maximum from minus
    infinity over the row's entries (the start word's evidence typed as a printed program carries it: the word equal
    to itself) -/
theorem rowMax_negInf_apply {a b : ℕ} (src : FVec Ideal (⟨2, ![a, b]⟩ : Shape) .f32)
    (h : (⟨2, ![a, b]⟩ : Shape).Reduces [1] ⟨1, ![a]⟩) (hφ : FKind.Formats .f32)
    (hacc : (0xFF800000#32 : BitVec 32) = 0xFF800000#32) (i : Fin a) :
    multiReduction .maximumf [1] ⟨1, ![a]⟩ src 0xFF800000#32 h hφ hacc (ix1 i)
      = (Finset.univ : Finset (Fin b)).fold max negInf (fun c => src (ix2 i c)) :=
  LibRowMax.rowMax_apply src 0xFF800000#32 h hφ hacc i

/-- the role head's scores before the softmax: an affine map of the normalized row -/
theorem scores_apply (v34 : Vec Ideal S128x3 .f32) (v37 : Vec Ideal S1x3 .f32) (hlt : FTy.bits .bf16 < FTy.bits .f32)
    (hsc : S1x3.ShapeCasts S1x3) (hbc : S1x3.Broadcasts S1024x3) (r : Fin 1024) (s : Fin 3) :
    (addf (matmul dot_S1024x128_S128x3_S1024x3_1_0_0_1_n_n none (k2_pay3 v0 v1) (truncf .bf16 v34 hlt)
          (constant (F := Ideal) S1024x3 .f32 0x00000000#32))
        (broadcastTo S1024x3 (shapeCast S1x3 v37 hsc) hbc) : FVec Ideal S1024x3 .f32) (ix2 r s)
      = lin (mat v34) (row v37) (finalRow (row v1) (fun j => v0 (ix2 r j))) s := by
  rw [addf_apply,
    Dense.matmul_zero_plain_apply dot_S1024x128_S128x3_S1024x3_1_0_0_1_n_n rfl rfl rfl rfl rfl rfl,
    BiasRow.stretch_row_apply, shapeCast_self]
  simp only [truncf_apply, pay3_apply]
  rfl

/-- the role head: the softmax of the scores, the row maximum taken from minus infinity and once more against it -/
theorem pay1_apply (v34 : Vec Ideal S128x3 .f32) (v37 : Vec Ideal S1x3 .f32) (r : Fin 1024) (s : Fin 3) :
    k2_pay1 (k2_pay3 v0 v1) v34 v37 (ix2 r s)
      = roleRow (mat v34) (row v37) (finalRow (row v1) (fun j => v0 (ix2 r j))) s := by
  unfold k2_pay1
  dsimp only
  rw [divf_apply, LibKeepdimsColumn.broadcastTo_a1_ab_apply, LibKeepdimsColumn.shapeCast_a_a1_apply,
    LibKeepdimsColumn.rowSum_apply]
  simp only [exp_apply, subf_apply, LibKeepdimsColumn.broadcastTo_a1_ab_apply,
    LibKeepdimsColumn.shapeCast_a_a1_apply, maximumf_apply, broadcast_apply, scores_apply]
  rw [rowMax_negInf_apply]
  simp only [scores_apply]
  rfl

end Cert.KernelIdeal.Val2

end
-- ==== Proof.KI.Out2.lean ====
/-
  Pass 3's four output arrays after the run, one entry at a time.

  The grid has eight points; point t works on rows 1024 t … 1024 t + 1023. The noise window and the four output
  windows move one block of 1024 rows per point (block index (t, 0)); the other seven windows hold their whole array
  at every point (block index (0, 0)). A block's entry (r, j) sits in the array at row  index × 1024 + r , column j.
  So the noise block at point t is rows 1024 t + r of the noise, and, the eight blocks of an output being pairwise
  apart and each written back at its own point, the output array after the run holds at row 1024 t + r what the body
  left at row r at point t. Every row n of the 8192 is row n % 1024 of block n / 1024; with the payloads read at an
  entry over the extended reals this gives each output array, entry by entry, as the row function of row n of the
  noise and of the shared row and the heads' weights.
-/
import proofs.«142343_j22625887715845_1_alg».proof.Proof.KI.Reg2
import proofs.«142343_j22625887715845_1_alg».proof.Proof.KI.Val2
import proofs.«142343_j22625887715845_1_alg».proof.Proof.Gen.KernelIdeal.Points
import proofs.«142343_j22625887715845_1_alg».proof.Proof.Gen.KernelIdeal.Launch
import Idealize.ShloMosaic.Lib.Pipeline.Value

set_option maxRecDepth 16384

noncomputable section

open scoped BigOperators

namespace Cert.KernelIdeal.Fr

open Cert.KernelIdeal Cert.KernelIdeal.Gen Cert.Spec
open Idealize.ShloMosaic Idealize.ShloMosaic.TcCoe Idealize.ShloMosaic.ValueIdx
open Idealize.SL.Sem
open Idealize.ShloMosaic.Pipeline (Dat Cfg Window)

variable {F : FTy → Type} [FloatOps F]

/-- pass 3 has eight grid points -/
theorem lt8_p3 (t : Fin cfg2.N) : t.val < 8 := lt_of_lt_of_eq t.isLt N_2

/-- row r of block t of an array of 8192 rows cut into eight blocks of 1024 -/
abbrev row2 (t : Fin cfg2.N) (r : Fin 1024) : Fin 8192 := ⟨1024 * t.val + r.val, by have := lt8_p3 t; have := r.isLt; omega⟩

/-- the printed index maps over the grid: the noise and the four outputs move one block of rows per point, column
    block 0; every other window stays at block (0, 0) -/
theorem idx2_moving : ∀ t : Fin cfg2.N,
    win2_1.index t (0 : Fin 2) = t.val ∧ win2_1.index t (1 : Fin 2) = 0
    ∧ win2_8.index t (0 : Fin 2) = t.val ∧ win2_8.index t (1 : Fin 2) = 0
    ∧ win2_9.index t (0 : Fin 2) = t.val ∧ win2_9.index t (1 : Fin 2) = 0
    ∧ win2_10.index t (0 : Fin 2) = t.val ∧ win2_10.index t (1 : Fin 2) = 0
    ∧ win2_11.index t (0 : Fin 2) = t.val ∧ win2_11.index t (1 : Fin 2) = 0 :=
  (by decide +kernel : ∀ t : Fin grid2.N, _)

theorem idx2_still : ∀ t : Fin cfg2.N,
    win2_0.index t (0 : Fin 2) = 0 ∧ win2_0.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

section Region2
variable (V : (c : Dev nD) → (b : Ref sig .tc) → Buf (Elt F) ((c : Thread nD τ).loc b))

/-- the noise block at point t is rows 1024 t … 1024 t + 1023 of the noise array -/
theorem iblk2_1_apply (c : Dev nD) (t : Fin cfg2.N) (r : Fin 1024) (j : Fin 128) :
    iblk2 V c 1 t (ix2 r j) = V c main_arg1 (ix2 (row2 t r) j) := by
  obtain ⟨e0, e1, -⟩ := idx2_moving t
  unfold iblk2
  rw [View.read_apply]
  show V c main_arg1 _ = V c main_arg1 _
  congr 1
  funext a
  apply Fin.ext
  match a with
  | ⟨0, _⟩ => show win2_1.index t (0 : Fin 2) * 1024 + 1 * r.val = 1024 * t.val + r.val; omega
  | ⟨1, _⟩ => show win2_1.index t (1 : Fin 2) * 128 + 1 * j.val = j.val; omega

/-! A window whose block is its whole array holds the array at every point. -/
theorem iblk2_0_eq (c : Dev nD) (t : Fin cfg2.N) : iblk2 V c 0 t = (V c main_v14 : S1x128.Idx → Elt F .f32) := by
  obtain ⟨e0, e1, -⟩ := idx2_still t
  funext x
  unfold iblk2
  rw [View.read_apply]
  show V c main_v14 _ = V c main_v14 _
  congr 1
  funext a
  apply Fin.ext
  match a with
  | ⟨0, _⟩ => show win2_0.index t (0 : Fin 2) * 1 + 1 * (x 0).val = (x 0).val; omega
  | ⟨1, _⟩ => show win2_0.index t (1 : Fin 2) * 128 + 1 * (x 1).val = (x 1).val; omega
theorem iblk2_2_eq (c : Dev nD) (t : Fin cfg2.N) : iblk2 V c 2 t = (V c main_arg10 : S128x8.Idx → Elt F .f32) := by
  obtain ⟨-, -, e0, e1, -⟩ := idx2_still t
  funext x
  unfold iblk2
  rw [View.read_apply]
  show V c main_arg10 _ = V c main_arg10 _
  congr 1
  funext a
  apply Fin.ext
  match a with
  | ⟨0, _⟩ => show win2_2.index t (0 : Fin 2) * 128 + 1 * (x 0).val = (x 0).val; omega
  | ⟨1, _⟩ => show win2_2.index t (1 : Fin 2) * 8 + 1 * (x 1).val = (x 1).val; omega
theorem iblk2_3_eq (c : Dev nD) (t : Fin cfg2.N) : iblk2 V c 3 t = (V c main_v6 : S1x8.Idx → Elt F .f32) := by
  obtain ⟨-, -, -, -, e0, e1, -⟩ := idx2_still t
  funext x
  unfold iblk2
  rw [View.read_apply]
  show V c main_v6 _ = V c main_v6 _
  congr 1
  funext a
  apply Fin.ext
  match a with
  | ⟨0, _⟩ => show win2_3.index t (0 : Fin 2) * 1 + 1 * (x 0).val = (x 0).val; omega
  | ⟨1, _⟩ => show win2_3.index t (1 : Fin 2) * 8 + 1 * (x 1).val = (x 1).val; omega
theorem iblk2_4_eq (c : Dev nD) (t : Fin cfg2.N) : iblk2 V c 4 t = (V c main_arg12 : S128x1.Idx → Elt F .f32) := by
  obtain ⟨-, -, -, -, -, -, e0, e1, -⟩ := idx2_still t
  funext x
  unfold iblk2
  rw [View.read_apply]
  show V c main_arg12 _ = V c main_arg12 _
  congr 1
  funext a
  apply Fin.ext
  match a with
  | ⟨0, _⟩ => show win2_4.index t (0 : Fin 2) * 128 + 1 * (x 0).val = (x 0).val; omega
  | ⟨1, _⟩ => show win2_4.index t (1 : Fin 2) * 1 + 1 * (x 1).val = (x 1).val; omega
theorem iblk2_5_eq (c : Dev nD) (t : Fin cfg2.N) : iblk2 V c 5 t = (V c main_v7 : S1x1.Idx → Elt F .f32) := by
  obtain ⟨-, -, -, -, -, -, -, -, e0, e1, -⟩ := idx2_still t
  funext x
  unfold iblk2
  rw [View.read_apply]
  show V c main_v7 _ = V c main_v7 _
  congr 1
  funext a
  apply Fin.ext
  match a with
  | ⟨0, _⟩ => show win2_5.index t (0 : Fin 2) * 1 + 1 * (x 0).val = (x 0).val; omega
  | ⟨1, _⟩ => show win2_5.index t (1 : Fin 2) * 1 + 1 * (x 1).val = (x 1).val; omega
theorem iblk2_6_eq (c : Dev nD) (t : Fin cfg2.N) : iblk2 V c 6 t = (V c main_arg14 : S128x3.Idx → Elt F .f32) := by
  obtain ⟨-, -, -, -, -, -, -, -, -, -, e0, e1, -⟩ := idx2_still t
  funext x
  unfold iblk2
  rw [View.read_apply]
  show V c main_arg14 _ = V c main_arg14 _
  congr 1
  funext a
  apply Fin.ext
  match a with
  | ⟨0, _⟩ => show win2_6.index t (0 : Fin 2) * 128 + 1 * (x 0).val = (x 0).val; omega
  | ⟨1, _⟩ => show win2_6.index t (1 : Fin 2) * 3 + 1 * (x 1).val = (x 1).val; omega
theorem iblk2_7_eq (c : Dev nD) (t : Fin cfg2.N) : iblk2 V c 7 t = (V c main_v8 : S1x3.Idx → Elt F .f32) := by
  obtain ⟨-, -, -, -, -, -, -, -, -, -, -, -, e0, e1⟩ := idx2_still t
  funext x
  unfold iblk2
  rw [View.read_apply]
  show V c main_v8 _ = V c main_v8 _
  congr 1
  funext a
  apply Fin.ext
  match a with
  | ⟨0, _⟩ => show win2_7.index t (0 : Fin 2) * 1 + 1 * (x 0).val = (x 0).val; omega
  | ⟨1, _⟩ => show win2_7.index t (1 : Fin 2) * 3 + 1 * (x 1).val = (x 1).val; omega

/-! Each output's blocks at two different points share no entry (their row ranges are apart), so after the run
    the array holds, under point t's block, what point t wrote back: row 1024 t + r of the array is row r of what the
    body left at point t. -/
theorem disj2_8 : ∀ t t' : Fin cfg2.N, (cfg2.win 8).flush t = true → (cfg2.win 8).flush t' = true → t ≠ t' →
    Disjoint ((cfg2.win 8).blk t).view.set ((cfg2.win 8).blk t').view.set := by
  intro t t' _ _ hne
  obtain ⟨-, -, e0, e1, -⟩ := idx2_moving t
  obtain ⟨-, -, e0', -⟩ := idx2_moving t'
  show Disjoint ((View.whole main_v15_0).slice (win2_8.rect t)).set ((View.whole main_v15_0).slice (win2_8.rect t')).set
  rw [View.set_slice_whole, View.set_slice_whole]
  refine Rect.unit_disjoint (0 : Fin 2) ?_
  show win2_8.index t (0 : Fin 2) * 1024 + 1024 ≤ win2_8.index t' (0 : Fin 2) * 1024
    ∨ win2_8.index t' (0 : Fin 2) * 1024 + 1024 ≤ win2_8.index t (0 : Fin 2) * 1024
  have hv : t.val ≠ t'.val := fun h => hne (Fin.ext h)
  omega

theorem out2_8_apply (c : Dev nD) (t : Fin cfg2.N) (r : Fin 1024) (j : Fin 128) :
    (dat2 V c).arrAt 8 cfg2.N (ix2 (row2 t r) j) = (dat2 V c).after 8 t (ix2 r j) := by
  obtain ⟨-, -, e0, e1, -⟩ := idx2_moving t
  have hemb : (ix2 (row2 t r) j : S8192x128.Idx) = ((cfg2.win 8).blk t).view.emb (ix2 r j) := by
    funext a
    apply Fin.ext
    match a with
    | ⟨0, _⟩ => show 1024 * t.val + r.val = win2_8.index t (0 : Fin 2) * 1024 + 1 * r.val; omega
    | ⟨1, _⟩ => show j.val = win2_8.index t (1 : Fin 2) * 128 + 1 * j.val; omega
  refine (congrArg ((dat2 V c).arrAt 8 cfg2.N) hemb).trans ?_
  exact ((dat2 V c).arrAt_emb_eq_flushed 8 disj2_8 t (flush2_8 t) (ix2 r j)).trans (cast_eq _ _)

theorem disj2_9 : ∀ t t' : Fin cfg2.N, (cfg2.win 9).flush t = true → (cfg2.win 9).flush t' = true → t ≠ t' →
    Disjoint ((cfg2.win 9).blk t).view.set ((cfg2.win 9).blk t').view.set := by
  intro t t' _ _ hne
  obtain ⟨-, -, -, -, e0, e1, -⟩ := idx2_moving t
  obtain ⟨-, -, -, -, e0', -⟩ := idx2_moving t'
  show Disjoint ((View.whole main_v15_1).slice (win2_9.rect t)).set ((View.whole main_v15_1).slice (win2_9.rect t')).set
  rw [View.set_slice_whole, View.set_slice_whole]
  refine Rect.unit_disjoint (0 : Fin 2) ?_
  show win2_9.index t (0 : Fin 2) * 1024 + 1024 ≤ win2_9.index t' (0 : Fin 2) * 1024
    ∨ win2_9.index t' (0 : Fin 2) * 1024 + 1024 ≤ win2_9.index t (0 : Fin 2) * 1024
  have hv : t.val ≠ t'.val := fun h => hne (Fin.ext h)
  omega

theorem out2_9_apply (c : Dev nD) (t : Fin cfg2.N) (r : Fin 1024) (j : Fin 8) :
    (dat2 V c).arrAt 9 cfg2.N (ix2 (row2 t r) j) = (dat2 V c).after 9 t (ix2 r j) := by
  obtain ⟨-, -, -, -, e0, e1, -⟩ := idx2_moving t
  have hemb : (ix2 (row2 t r) j : S8192x8.Idx) = ((cfg2.win 9).blk t).view.emb (ix2 r j) := by
    funext a
    apply Fin.ext
    match a with
    | ⟨0, _⟩ => show 1024 * t.val + r.val = win2_9.index t (0 : Fin 2) * 1024 + 1 * r.val; omega
    | ⟨1, _⟩ => show j.val = win2_9.index t (1 : Fin 2) * 8 + 1 * j.val; omega
  refine (congrArg ((dat2 V c).arrAt 9 cfg2.N) hemb).trans ?_
  exact ((dat2 V c).arrAt_emb_eq_flushed 9 disj2_9 t (flush2_9 t) (ix2 r j)).trans (cast_eq _ _)

theorem disj2_10 : ∀ t t' : Fin cfg2.N, (cfg2.win 10).flush t = true → (cfg2.win 10).flush t' = true → t ≠ t' →
    Disjoint ((cfg2.win 10).blk t).view.set ((cfg2.win 10).blk t').view.set := by
  intro t t' _ _ hne
  obtain ⟨-, -, -, -, -, -, e0, e1, -⟩ := idx2_moving t
  obtain ⟨-, -, -, -, -, -, e0', -⟩ := idx2_moving t'
  show Disjoint ((View.whole main_v15_2).slice (win2_10.rect t)).set ((View.whole main_v15_2).slice (win2_10.rect t')).set
  rw [View.set_slice_whole, View.set_slice_whole]
  refine Rect.unit_disjoint (0 : Fin 2) ?_
  show win2_10.index t (0 : Fin 2) * 1024 + 1024 ≤ win2_10.index t' (0 : Fin 2) * 1024
    ∨ win2_10.index t' (0 : Fin 2) * 1024 + 1024 ≤ win2_10.index t (0 : Fin 2) * 1024
  have hv : t.val ≠ t'.val := fun h => hne (Fin.ext h)
  omega

theorem out2_10_apply (c : Dev nD) (t : Fin cfg2.N) (r : Fin 1024) (j : Fin 1) :
    (dat2 V c).arrAt 10 cfg2.N (ix2 (row2 t r) j) = (dat2 V c).after 10 t (ix2 r j) := by
  obtain ⟨-, -, -, -, -, -, e0, e1, -⟩ := idx2_moving t
  have hemb : (ix2 (row2 t r) j : S8192x1.Idx) = ((cfg2.win 10).blk t).view.emb (ix2 r j) := by
    funext a
    apply Fin.ext
    match a with
    | ⟨0, _⟩ => show 1024 * t.val + r.val = win2_10.index t (0 : Fin 2) * 1024 + 1 * r.val; omega
    | ⟨1, _⟩ => show j.val = win2_10.index t (1 : Fin 2) * 1 + 1 * j.val; omega
  refine (congrArg ((dat2 V c).arrAt 10 cfg2.N) hemb).trans ?_
  exact ((dat2 V c).arrAt_emb_eq_flushed 10 disj2_10 t (flush2_10 t) (ix2 r j)).trans (cast_eq _ _)

theorem disj2_11 : ∀ t t' : Fin cfg2.N, (cfg2.win 11).flush t = true → (cfg2.win 11).flush t' = true → t ≠ t' →
    Disjoint ((cfg2.win 11).blk t).view.set ((cfg2.win 11).blk t').view.set := by
  intro t t' _ _ hne
  obtain ⟨-, -, -, -, -, -, -, -, e0, e1⟩ := idx2_moving t
  obtain ⟨-, -, -, -, -, -, -, -, e0', -⟩ := idx2_moving t'
  show Disjoint ((View.whole main_v15_3).slice (win2_11.rect t)).set ((View.whole main_v15_3).slice (win2_11.rect t')).set
  rw [View.set_slice_whole, View.set_slice_whole]
  refine Rect.unit_disjoint (0 : Fin 2) ?_
  show win2_11.index t (0 : Fin 2) * 1024 + 1024 ≤ win2_11.index t' (0 : Fin 2) * 1024
    ∨ win2_11.index t' (0 : Fin 2) * 1024 + 1024 ≤ win2_11.index t (0 : Fin 2) * 1024
  have hv : t.val ≠ t'.val := fun h => hne (Fin.ext h)
  omega

theorem out2_11_apply (c : Dev nD) (t : Fin cfg2.N) (r : Fin 1024) (j : Fin 3) :
    (dat2 V c).arrAt 11 cfg2.N (ix2 (row2 t r) j) = (dat2 V c).after 11 t (ix2 r j) := by
  obtain ⟨-, -, -, -, -, -, -, -, e0, e1⟩ := idx2_moving t
  have hemb : (ix2 (row2 t r) j : S8192x3.Idx) = ((cfg2.win 11).blk t).view.emb (ix2 r j) := by
    funext a
    apply Fin.ext
    match a with
    | ⟨0, _⟩ => show 1024 * t.val + r.val = win2_11.index t (0 : Fin 2) * 1024 + 1 * r.val; omega
    | ⟨1, _⟩ => show j.val = win2_11.index t (1 : Fin 2) * 3 + 1 * j.val; omega
  refine (congrArg ((dat2 V c).arrAt 11 cfg2.N) hemb).trans ?_
  exact ((dat2 V c).arrAt_emb_eq_flushed 11 disj2_11 t (flush2_11 t) (ix2 r j)).trans (cast_eq _ _)

end Region2

section AtIdeal
variable (V : (c : Dev nD) → (b : Ref sig .tc) → Buf (Elt Ideal) ((c : Thread nD τ).loc b))

/-- every row of the 8192 is row n % 1024 of block n / 1024 -/
theorem split_row2 (n : Fin 8192) : ∃ (t : Fin cfg2.N) (r : Fin 1024), n = row2 t r :=
  ⟨⟨n.val / 1024, by rw [show cfg2.N = 8 from N_2]; have := n.isLt; omega⟩, ⟨n.val % 1024, Nat.mod_lt _ (by decide)⟩,
    Fin.ext (by show n.val = 1024 * (n.val / 1024) + n.val % 1024; omega)⟩

/-- the normalized rows after pass 3, over the extended reals -/
theorem out2_8 (c : Dev nD) (n : Fin 8192) (j : Fin 128) :
    (dat2 (F := Ideal) V c).arrAt 8 cfg2.N (ix2 n j)
      = finalRow (row (V c main_v14)) (fun j => V c main_arg1 (ix2 n j)) j := by
  obtain ⟨t, r, rfl⟩ := split_row2 n
  rw [out2_8_apply, after2_8, Val2.pay2_apply]
  simp only [iblk2_1_apply, iblk2_0_eq]

/-- the policy head after pass 3 -/
theorem out2_9 (c : Dev nD) (n : Fin 8192) (a : Fin 8) :
    (dat2 (F := Ideal) V c).arrAt 9 cfg2.N (ix2 n a)
      = actRow (mat (V c main_arg10)) (row (V c main_v6))
          (finalRow (row (V c main_v14)) (fun j => V c main_arg1 (ix2 n j))) a := by
  obtain ⟨t, r, rfl⟩ := split_row2 n
  rw [out2_9_apply, after2_9, Val2.pay4_apply]
  simp only [iblk2_1_apply, iblk2_0_eq, iblk2_2_eq, iblk2_3_eq]

/-- the value head after pass 3 -/
theorem out2_10 (c : Dev nD) (n : Fin 8192) (u : Fin 1) :
    (dat2 (F := Ideal) V c).arrAt 10 cfg2.N (ix2 n u)
      = valRow (mat (V c main_arg12)) (row (V c main_v7))
          (finalRow (row (V c main_v14)) (fun j => V c main_arg1 (ix2 n j))) u := by
  obtain ⟨t, r, rfl⟩ := split_row2 n
  rw [out2_10_apply, after2_10, Val2.pay5_apply]
  simp only [iblk2_1_apply, iblk2_0_eq, iblk2_4_eq, iblk2_5_eq]

/-- the role head after pass 3 -/
theorem out2_11 (c : Dev nD) (n : Fin 8192) (s : Fin 3) :
    (dat2 (F := Ideal) V c).arrAt 11 cfg2.N (ix2 n s)
      = roleRow (mat (V c main_arg14)) (row (V c main_v8))
          (finalRow (row (V c main_v14)) (fun j => V c main_arg1 (ix2 n j))) s := by
  obtain ⟨t, r, rfl⟩ := split_row2 n
  rw [out2_11_apply, after2_11, Val2.pay1_apply]
  simp only [iblk2_1_apply, iblk2_0_eq, iblk2_6_eq, iblk2_7_eq]

end AtIdeal

end Cert.KernelIdeal.Fr

end
-- ==== Proof.KI.Value.lean ====
/-
  The idealized kernel's four results as the Spec's functions of the launch memory. The run of KI/Frame.lean names each result
  as what pass 3's pipeline writes back from the contents the region is entered with; those contents are walked back, item by
  item, to the launch memory: the host stretches cut the first weight matrix in two and lay the biases out as rows; pass 1
  leaves the mean message; a host product turns it into the extra bias; pass 2 leaves the mean of the second pass; the graph
  layer and its rectifier give the row every agent shares.
-/
import proofs.«142343_j22625887715845_1_alg».proof.Proof.KI.Frame
import proofs.«142343_j22625887715845_1_alg».proof.Proof.KI.Keep
import proofs.«142343_j22625887715845_1_alg».proof.Proof.KI.HostVals
import proofs.«142343_j22625887715845_1_alg».proof.Proof.KI.Mean0
import proofs.«142343_j22625887715845_1_alg».proof.Proof.KI.Mean1
import proofs.«142343_j22625887715845_1_alg».proof.Proof.KI.Out2
import proofs.«142343_j22625887715845_1_alg».proof.Proof.KI.Res

set_option maxRecDepth 16384

noncomputable section

open scoped BigOperators

namespace Cert.KernelIdeal.Fr

open Cert.KernelIdeal Cert.KernelIdeal.Gen Cert.Spec
open Idealize.ShloMosaic Idealize.ShloMosaic.TcCoe Idealize.ShloMosaic.ValueIdx
open Idealize.SL Idealize.SL.Sem

variable (m : (ℓ : Loc nD τ sig) → Buf (Elt Ideal) ℓ) (c : Dev nD)

/-! ## The first host stretch: the two halves of the first weight matrix, the biases as rows -/

theorem w1a_eq : mat (B1 m c (Proc.devRef .tc main_v0)) = upper (mat (m ((c.tc : Thread nD τ).loc main_arg2))) := by
  funext k j; exact h0_v0 (B0 m c) k j
theorem w1b_eq : mat (B1 m c (Proc.devRef .tc main_v1)) = lower (mat (m ((c.tc : Thread nD τ).loc main_arg2))) := by
  funext q j; exact h0_v1 (B0 m c) q j
theorem b1_eq : row (B1 m c (Proc.devRef .tc main_v2)) = vec (m ((c.tc : Thread nD τ).loc main_arg3)) := by funext j; exact h0_v2 (B0 m c) j
theorem b2_eq : row (B1 m c (Proc.devRef .tc main_v3)) = vec (m ((c.tc : Thread nD τ).loc main_arg5)) := by funext j; exact h0_v3 (B0 m c) j
theorem bc_eq : row (B1 m c (Proc.devRef .tc main_v4)) = vec (m ((c.tc : Thread nD τ).loc main_arg7)) := by funext q; exact h0_v4 (B0 m c) q
theorem bg_eq : row (B1 m c (Proc.devRef .tc main_v5)) = vec (m ((c.tc : Thread nD τ).loc main_arg9)) := by funext j; exact h0_v5 (B0 m c) j
theorem bp_eq : row (B1 m c (Proc.devRef .tc main_v6)) = vec (m ((c.tc : Thread nD τ).loc main_arg11)) := by funext a; exact h0_v6 (B0 m c) a
theorem bv_eq : row (B1 m c (Proc.devRef .tc main_v7)) = vec (m ((c.tc : Thread nD τ).loc main_arg13)) := by funext u; exact h0_v7 (B0 m c) u
theorem br_eq : row (B1 m c (Proc.devRef .tc main_v8)) = vec (m ((c.tc : Thread nD τ).loc main_arg15)) := by funext s; exact h0_v8 (B0 m c) s

/-! ## Pass 1 leaves the mean message -/

theorem mean0 (q : Fin 32) :
    row (B2 m c (Proc.devRef .tc main_v9)) q = (meanMsg (upper (mat (m ((c.tc : Thread nD τ).loc main_arg2)))) (vec (m ((c.tc : Thread nD τ).loc main_arg3))) (mat (m ((c.tc : Thread nD τ).loc main_arg4))) (vec (m ((c.tc : Thread nD τ).loc main_arg5))) (mat (m ((c.tc : Thread nD τ).loc main_arg6))) (vec (m ((c.tc : Thread nD τ).loc main_arg7))) (mat (m ((c.tc : Thread nD τ).loc main_arg0)))) q := by
  have h := out0_value (E1 m) c q
  rw [show E1 m c main_v0 = B1 m c (Proc.devRef .tc main_v0) from rfl, w1a_eq m c,
    show E1 m c main_v2 = B1 m c (Proc.devRef .tc main_v2) from rfl, b1_eq m c,
    show E1 m c main_v3 = B1 m c (Proc.devRef .tc main_v3) from rfl, b2_eq m c,
    show E1 m c main_v4 = B1 m c (Proc.devRef .tc main_v4) from rfl, bc_eq m c,
    show E1 m c main_arg4 = (m ((c.tc : Thread nD τ).loc main_arg4)) from E1_arg4 m c, show E1 m c main_arg6 = (m ((c.tc : Thread nD τ).loc main_arg6)) from E1_arg6 m c,
    show E1 m c main_arg0 = (m ((c.tc : Thread nD τ).loc main_arg0)) from E1_arg0 m c] at h
  exact (congrFun (B2_arr m c 7) _).trans h

/-! ## The host product: the extra bias of the second pass -/

theorem cb_eq : row (B3 m c (Proc.devRef .tc main_v10)) = (commBias (lower (mat (m ((c.tc : Thread nD τ).loc main_arg2)))) (meanMsg (upper (mat (m ((c.tc : Thread nD τ).loc main_arg2)))) (vec (m ((c.tc : Thread nD τ).loc main_arg3))) (mat (m ((c.tc : Thread nD τ).loc main_arg4))) (vec (m ((c.tc : Thread nD τ).loc main_arg5))) (mat (m ((c.tc : Thread nD τ).loc main_arg6))) (vec (m ((c.tc : Thread nD τ).loc main_arg7))) (mat (m ((c.tc : Thread nD τ).loc main_arg0))))) := by
  funext j
  have h : row (B3 m c (Proc.devRef .tc main_v10)) j
      = ∑ q : Fin 32, row (B2 m c (Proc.devRef .tc main_v9)) q * mat (B2 m c (Proc.devRef .tc main_v1)) q j := h1_v10 (B2 m c) j
  rw [h]; unfold commBias
  refine Finset.sum_congr rfl fun q _ => ?_
  rw [mean0 m c q, show B2 m c (Proc.devRef .tc main_v1) = B1 m c (Proc.devRef .tc main_v1) from B2_v1 m c, w1b_eq m c]

/-! ## Pass 2 leaves the mean of the second pass -/

theorem mean1 (j : Fin 128) :
    row (B4 m c (Proc.devRef .tc main_v11)) j = (meanCore (upper (mat (m ((c.tc : Thread nD τ).loc main_arg2)))) (vec (m ((c.tc : Thread nD τ).loc main_arg3))) (mat (m ((c.tc : Thread nD τ).loc main_arg4))) (vec (m ((c.tc : Thread nD τ).loc main_arg5))) (commBias (lower (mat (m ((c.tc : Thread nD τ).loc main_arg2)))) (meanMsg (upper (mat (m ((c.tc : Thread nD τ).loc main_arg2)))) (vec (m ((c.tc : Thread nD τ).loc main_arg3))) (mat (m ((c.tc : Thread nD τ).loc main_arg4))) (vec (m ((c.tc : Thread nD τ).loc main_arg5))) (mat (m ((c.tc : Thread nD τ).loc main_arg6))) (vec (m ((c.tc : Thread nD τ).loc main_arg7))) (mat (m ((c.tc : Thread nD τ).loc main_arg0))))) (mat (m ((c.tc : Thread nD τ).loc main_arg0)))) j := by
  have h := out1_value (E3 m) c j
  rw [show E3 m c main_v0 = B1 m c (Proc.devRef .tc main_v0) from E3_v0 m c, w1a_eq m c,
    show E3 m c main_v2 = B1 m c (Proc.devRef .tc main_v2) from E3_v2 m c, b1_eq m c,
    show E3 m c main_v3 = B1 m c (Proc.devRef .tc main_v3) from E3_v3 m c, b2_eq m c,
    show E3 m c main_v10 = B3 m c (Proc.devRef .tc main_v10) from rfl, cb_eq m c,
    show E3 m c main_arg4 = (m ((c.tc : Thread nD τ).loc main_arg4)) from E3_arg4 m c, show E3 m c main_arg0 = (m ((c.tc : Thread nD τ).loc main_arg0)) from E3_arg0 m c] at h
  exact (congrFun (B4_arr m c 6) _).trans h

/-! ## The graph layer: the row every agent shares -/

theorem g_eq : row (B6 m c (Proc.devRef .tc main_v14)) = gOf m c := by
  funext j
  refine (h2_v14 (B4 m c) j).trans ?_
  unfold gOf shared sharedRow gnnRow relu lin
  have e5 : row (B4 m c (Proc.devRef .tc main_v5)) j = vec (m ((c.tc : Thread nD τ).loc main_arg9)) j := by
    rw [show B4 m c (Proc.devRef .tc main_v5) = B1 m c (Proc.devRef .tc main_v5) from B4_v5 m c]
    exact congrFun (bg_eq m c) j
  rw [e5]
  refine congrArg (fun s => max (s + vec (m ((c.tc : Thread nD τ).loc main_arg9)) j) 0) (Finset.sum_congr rfl fun k _ => ?_)
  rw [mean1 m c k, show B4 m c (Proc.devRef .tc main_arg8) = (m ((c.tc : Thread nD τ).loc main_arg8)) from B4_arg8 m c]

/-! ## Pass 3's entry contents and the four results -/

theorem noise_eq : E6 m c main_arg1 = (m ((c.tc : Thread nD τ).loc main_arg1)) := E6_arg1 m c
theorem bpr_eq : row (E6 m c main_v6) = vec (m ((c.tc : Thread nD τ).loc main_arg11)) := by
  rw [show E6 m c main_v6 = B1 m c (Proc.devRef .tc main_v6) from E6_v6 m c]; exact bp_eq m c
theorem bvr_eq : row (E6 m c main_v7) = vec (m ((c.tc : Thread nD τ).loc main_arg13)) := by
  rw [show E6 m c main_v7 = B1 m c (Proc.devRef .tc main_v7) from E6_v7 m c]; exact bv_eq m c
theorem brr_eq : row (E6 m c main_v8) = vec (m ((c.tc : Thread nD τ).loc main_arg15)) := by
  rw [show E6 m c main_v8 = B1 m c (Proc.devRef .tc main_v8) from E6_v8 m c]; exact br_eq m c

theorem res0_eq : (dat2 (E6 m) c).arrAt 8 cfg2.N = res0 m c := by
  funext i
  obtain ⟨n, j, rfl⟩ : ∃ (n : Fin 8192) (j : Fin 128), i = ix2 n j := ⟨i 0, i 1, eq_ix2 i⟩
  rw [out2_8 (E6 m) c n j, show E6 m c main_v14 = B6 m c (Proc.devRef .tc main_v14) from rfl, g_eq m c, noise_eq m c]
  rfl
theorem res1_eq : (dat2 (E6 m) c).arrAt 9 cfg2.N = res1 m c := by
  funext i
  obtain ⟨n, a, rfl⟩ : ∃ (n : Fin 8192) (a : Fin 8), i = ix2 n a := ⟨i 0, i 1, eq_ix2 i⟩
  rw [out2_9 (E6 m) c n a, show E6 m c main_v14 = B6 m c (Proc.devRef .tc main_v14) from rfl, g_eq m c, noise_eq m c, bpr_eq m c,
    show E6 m c main_arg10 = (m ((c.tc : Thread nD τ).loc main_arg10)) from E6_arg10 m c]
  rfl
theorem res2_eq : (dat2 (E6 m) c).arrAt 10 cfg2.N = res2 m c := by
  funext i
  obtain ⟨n, u, rfl⟩ : ∃ (n : Fin 8192) (u : Fin 1), i = ix2 n u := ⟨i 0, i 1, eq_ix2 i⟩
  rw [out2_10 (E6 m) c n u, show E6 m c main_v14 = B6 m c (Proc.devRef .tc main_v14) from rfl, g_eq m c, noise_eq m c, bvr_eq m c,
    show E6 m c main_arg12 = (m ((c.tc : Thread nD τ).loc main_arg12)) from E6_arg12 m c]
  rfl
theorem res3_eq : (dat2 (E6 m) c).arrAt 11 cfg2.N = res3 m c := by
  funext i
  obtain ⟨n, s, rfl⟩ : ∃ (n : Fin 8192) (s : Fin 3), i = ix2 n s := ⟨i 0, i 1, eq_ix2 i⟩
  rw [out2_11 (E6 m) c n s, show E6 m c main_v14 = B6 m c (Proc.devRef .tc main_v14) from rfl, g_eq m c, noise_eq m c, brr_eq m c,
    show E6 m c main_arg14 = (m ((c.tc : Thread nD τ).loc main_arg14)) from E6_arg14 m c]
  rfl

/-- THE VALUE RUN: at the extended reals every weakly fair execution of @main terminates with the four results at the Spec's
    functions of the launch memory and every argument as launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15_0) = res0 m c
      ∧ r.2.mem ((c.tc : Thread nD τ).loc main_v15_1) = res1 m c
      ∧ r.2.mem ((c.tc : Thread nD τ).loc main_v15_2) = res2 m c
      ∧ r.2.mem ((c.tc : Thread nD τ).loc main_v15_3) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run (defs (F := Ideal)) _ _).mono (fun _ h c =>
    ⟨(h c).1.trans (res0_eq m c), (h c).2.1.trans (res1_eq m c), (h c).2.2.1.trans (res2_eq m c), (h c).2.2.2.1.trans (res3_eq m c),
      (h c).2.2.2.2⟩) (run_named (F := Ideal) m ρ)

end Cert.KernelIdeal.Fr

end
-- ==== Proof.Alg.lean ====
/-
  The reference's frame, and the algebraic conjunct: at the ideal values the two programs end with equal results.

  Each program's run ends with four arrays. The kernel's are, as functions of its launch memory: row n of the first is
  the row every agent shares plus agent n's noise row times the noise scale, divided by its floored Euclidean norm;
  the other three are the three heads read off that row. The reference's run ends at the composed terms of its
  operations, and those terms are the same four functions of the reference's own arguments, entry by entry. The two
  launch memories agree on the sixteen arguments, so the four arrays are equal. The reference's frame is its run with
  the four results forgotten.
-/
import proofs.«142343_j22625887715845_1_alg».proof.Defs
import proofs.«142343_j22625887715845_1_alg».proof.Proof.Gen.KernelIdeal
import proofs.«142343_j22625887715845_1_alg».proof.Proof.Gen.ReferenceIdeal
import proofs.«142343_j22625887715845_1_alg».proof.Proof.Gen.Pre_finite_inputs
import proofs.«142343_j22625887715845_1_alg».proof.Proof.Gen.ReferenceIdeal.Run
import proofs.«142343_j22625887715845_1_alg».proof.Proof.Gen.ReferenceIdeal.Read
import proofs.«142343_j22625887715845_1_alg».proof.Proof.RefC
import proofs.«142343_j22625887715845_1_alg».proof.Proof.KI.Res
import proofs.«142343_j22625887715845_1_alg».proof.Proof.KI.Value

noncomputable section

namespace Cert.Proof.Alg

open Idealize.ShloMosaic Idealize.ShloMosaic.ValueIdx Idealize.SL.Sem Cert.Spec

/-! ## The reference's four results, each as one function of arrays equal to its arguments -/

section Results

open Cert.ReferenceIdeal Cert.ReferenceIdeal.Read Cert.ReferenceIdeal.RefValue

variable {x0 y0 : (⟨S8192x64, .f32⟩ : BufTy).Contents (Elt Ideal)} {x1 y1 : (⟨S8192x128, .f32⟩ : BufTy).Contents (Elt Ideal)}
  {x2 y2 : (⟨S96x128, .f32⟩ : BufTy).Contents (Elt Ideal)} {x3 y3 : (⟨S128, .f32⟩ : BufTy).Contents (Elt Ideal)}
  {x4 y4 : (⟨S128x128, .f32⟩ : BufTy).Contents (Elt Ideal)} {x5 y5 : (⟨S128, .f32⟩ : BufTy).Contents (Elt Ideal)}
  {x6 y6 : (⟨S128x32, .f32⟩ : BufTy).Contents (Elt Ideal)} {x7 y7 : (⟨S32, .f32⟩ : BufTy).Contents (Elt Ideal)}
  {x8 y8 : (⟨S128x128, .f32⟩ : BufTy).Contents (Elt Ideal)} {x9 y9 : (⟨S128, .f32⟩ : BufTy).Contents (Elt Ideal)}
  {x10 y10 : (⟨S128x8, .f32⟩ : BufTy).Contents (Elt Ideal)} {x11 y11 : (⟨S8, .f32⟩ : BufTy).Contents (Elt Ideal)}
  {x12 y12 : (⟨S128x1, .f32⟩ : BufTy).Contents (Elt Ideal)} {x13 y13 : (⟨S1, .f32⟩ : BufTy).Contents (Elt Ideal)}
  {x14 y14 : (⟨S128x3, .f32⟩ : BufTy).Contents (Elt Ideal)} {x15 y15 : (⟨S3, .f32⟩ : BufTy).Contents (Elt Ideal)}

/-- The normalized noisy rows: entry (n, j) is entry j of agent n's final row. -/
theorem out0 (e0 : x0 = y0) (e1 : x1 = y1) (e2 : x2 = y2) (e3 : x3 = y3) (e4 : x4 = y4) (e5 : x5 = y5) (e6 : x6 = y6)
    (e7 : x7 = y7) (e8 : x8 = y8) (e9 : x9 = y9) :
    val_main_v51 (F := Ideal) x0 x1 x2 x3 x4 x5 x6 x7 x8 x9
      = fun i => finalRow (shared (mat y0) (mat y2) (vec y3) (mat y4) (vec y5) (mat y6) (vec y7) (mat y8) (vec y9))
          (fun j => y1 (ix2 (i 0) j)) (i 1) := by
  subst e0 e1 e2 e3 e4 e5 e6 e7 e8 e9
  funext i
  obtain ⟨r, j, rfl⟩ : ∃ (r : Fin 8192) (j : Fin 128), i = ix2 r j := ⟨i 0, i 1, eq_ix2 i⟩
  exact ref_v51 x0 x1 x2 x3 x4 x5 x6 x7 x8 x9 r j

/-- The action head of every agent's final row. -/
theorem out1 (e0 : x0 = y0) (e1 : x1 = y1) (e2 : x2 = y2) (e3 : x3 = y3) (e4 : x4 = y4) (e5 : x5 = y5) (e6 : x6 = y6)
    (e7 : x7 = y7) (e8 : x8 = y8) (e9 : x9 = y9) (e10 : x10 = y10) (e11 : x11 = y11) :
    val_main_v56 (F := Ideal) x0 x1 x2 x3 x4 x5 x6 x7 x8 x9 x10 x11
      = fun i => actRow (mat y10) (vec y11)
          (finalRow (shared (mat y0) (mat y2) (vec y3) (mat y4) (vec y5) (mat y6) (vec y7) (mat y8) (vec y9))
            (fun j => y1 (ix2 (i 0) j))) (i 1) := by
  subst e0 e1 e2 e3 e4 e5 e6 e7 e8 e9 e10 e11
  funext i
  obtain ⟨r, a, rfl⟩ : ∃ (r : Fin 8192) (a : Fin 8), i = ix2 r a := ⟨i 0, i 1, eq_ix2 i⟩
  exact ref_v56 x0 x1 x2 x3 x4 x5 x6 x7 x8 x9 x10 x11 r a

/-- The value head of every agent's final row. -/
theorem out2 (e0 : x0 = y0) (e1 : x1 = y1) (e2 : x2 = y2) (e3 : x3 = y3) (e4 : x4 = y4) (e5 : x5 = y5) (e6 : x6 = y6)
    (e7 : x7 = y7) (e8 : x8 = y8) (e9 : x9 = y9) (e12 : x12 = y12) (e13 : x13 = y13) :
    val_main_v60 (F := Ideal) x0 x1 x2 x3 x4 x5 x6 x7 x8 x9 x12 x13
      = fun i => valRow (mat y12) (vec y13)
          (finalRow (shared (mat y0) (mat y2) (vec y3) (mat y4) (vec y5) (mat y6) (vec y7) (mat y8) (vec y9))
            (fun j => y1 (ix2 (i 0) j))) (i 1) := by
  subst e0 e1 e2 e3 e4 e5 e6 e7 e8 e9 e12 e13
  funext i
  obtain ⟨r, u, rfl⟩ : ∃ (r : Fin 8192) (u : Fin 1), i = ix2 r u := ⟨i 0, i 1, eq_ix2 i⟩
  exact ref_v60 x0 x1 x2 x3 x4 x5 x6 x7 x8 x9 x12 x13 r u

/-- The role head of every agent's final row. -/
theorem out3 (e0 : x0 = y0) (e1 : x1 = y1) (e2 : x2 = y2) (e3 : x3 = y3) (e4 : x4 = y4) (e5 : x5 = y5) (e6 : x6 = y6)
    (e7 : x7 = y7) (e8 : x8 = y8) (e9 : x9 = y9) (e14 : x14 = y14) (e15 : x15 = y15) :
    val_main_v75 (F := Ideal) x0 x1 x2 x3 x4 x5 x6 x7 x8 x9 x14 x15
      = fun i => roleRow (mat y14) (vec y15)
          (finalRow (shared (mat y0) (mat y2) (vec y3) (mat y4) (vec y5) (mat y6) (vec y7) (mat y8) (vec y9))
            (fun j => y1 (ix2 (i 0) j))) (i 1) := by
  subst e0 e1 e2 e3 e4 e5 e6 e7 e8 e9 e14 e15
  funext i
  obtain ⟨r, s, rfl⟩ : ∃ (r : Fin 8192) (s : Fin 3), i = ix2 r s := ⟨i 0, i 1, eq_ix2 i⟩
  exact ref_v75 x0 x1 x2 x3 x4 x5 x6 x7 x8 x9 x14 x15 r s

end Results

/-! ## The claims -/

/-- The reference runs and leaves its sixteen arguments as they were: its run, the four results forgotten. -/
theorem frame_ri : Cert.frame_ReferenceIdeal := fun m g _ =>
  (θ_run Cert.ReferenceIdeal.defs _ _).mono (fun _ h c => (h c).2.2.2.2)
    (Cert.ReferenceIdeal.Value.run (F := Ideal) m g)

/-- From memories that agree on the arguments both programs run and end with the same four arrays: the kernel's run
    ends at the four functions of its launch memory, the reference's at its composed terms, which are those functions
    of the reference's arguments; the agreement carries one memory's arguments to the other's. -/
theorem algebraic : Cert.algebraic_KernelIdeal_ReferenceIdeal := by
  intro m g m' g' _ hagree
  refine ⟨Cert.KernelIdeal.Fr.res0 m, Cert.KernelIdeal.Fr.res1 m, Cert.KernelIdeal.Fr.res2 m,
    Cert.KernelIdeal.Fr.res3 m, Cert.KernelIdeal.Fr.run_value m g, ?_⟩
  refine (θ_run Cert.ReferenceIdeal.defs _ _).mono (fun r h c => ?_)
    (Cert.ReferenceIdeal.Value.run (F := Ideal) m' g')
  obtain ⟨h0, h1, h2, h3, hargs⟩ := h c
  obtain ⟨a0, a1, a2, a3, a4, a5, a6, a7, a8, a9, a10, a11, a12, a13, a14, a15⟩ := hagree c
  exact ⟨h0.trans ((Cert.ReferenceIdeal.Read.val_main_v51_eq m' c).trans (out0 a0 a1 a2 a3 a4 a5 a6 a7 a8 a9)),
    h1.trans ((Cert.ReferenceIdeal.Read.val_main_v56_eq m' c).trans (out1 a0 a1 a2 a3 a4 a5 a6 a7 a8 a9 a10 a11)),
    h2.trans ((Cert.ReferenceIdeal.Read.val_main_v60_eq m' c).trans (out2 a0 a1 a2 a3 a4 a5 a6 a7 a8 a9 a12 a13)),
    h3.trans ((Cert.ReferenceIdeal.Read.val_main_v75_eq m' c).trans (out3 a0 a1 a2 a3 a4 a5 a6 a7 a8 a9 a14 a15)),
    hargs⟩

end Cert.Proof.Alg

end
-- ==== Proof.lean ====
/- The certificate's assembly. The word-level kernel and its idealization are one text read at two float instances (the
   ideal pass rewrote nothing), so one run — @main as seven items over named buffer contents, each pallas_call's pipeline with
   its body run point by point — gives both frames; the reference's frame is its run with the results dropped; at the
   extended reals both programs end at the same four arrays: every agent's normalized row of a shared graph-layer row plus
   scaled noise, and the three heads read off it (Spec.lean says which functions; the laws that join the two sides are the
   re-association of finite sums, 0 · w = 0 for the zero communication block, and a positive real factor 2^-13 moving through a
   sum). -/
import proofs.«142343_j22625887715845_1_alg».proof.Defs
import proofs.«142343_j22625887715845_1_alg».proof.Proof.Gen.Kernel
import proofs.«142343_j22625887715845_1_alg».proof.Proof.Gen.Kernel.Skeleton
import proofs.«142343_j22625887715845_1_alg».proof.Proof.Gen.Kernel.Launch
import proofs.«142343_j22625887715845_1_alg».proof.Proof.Gen.Kernel.Regions
import proofs.«142343_j22625887715845_1_alg».proof.Proof.Gen.Kernel.Points
import proofs.«142343_j22625887715845_1_alg».proof.Proof.Gen.KernelIdeal
import proofs.«142343_j22625887715845_1_alg».proof.Proof.Gen.KernelIdeal.Skeleton
import proofs.«142343_j22625887715845_1_alg».proof.Proof.Gen.KernelIdeal.Launch
import proofs.«142343_j22625887715845_1_alg».proof.Proof.Gen.KernelIdeal.Regions
import proofs.«142343_j22625887715845_1_alg».proof.Proof.Gen.KernelIdeal.Points
import proofs.«142343_j22625887715845_1_alg».proof.Proof.Gen.ReferenceIdeal
import proofs.«142343_j22625887715845_1_alg».proof.Proof.Gen.Pre_finite_inputs
import proofs.«142343_j22625887715845_1_alg».proof.Proof.Gen.ReferenceIdeal.Run
import proofs.«142343_j22625887715845_1_alg».proof.Proof.Gen.ReferenceIdeal.Read
import proofs.«142343_j22625887715845_1_alg».proof.Proof.K.Frame
import proofs.«142343_j22625887715845_1_alg».proof.Proof.KI.Frame
import proofs.«142343_j22625887715845_1_alg».proof.Proof.Alg
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  Cert.Proof.Alg.frame_ri,
  trivial,
  Cert.Proof.Alg.algebraic⟩

end Cert.Proof

end
